-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v39)) (v1 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_v70) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2050x2048 : Shape := ⟨2, ![2050, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2050x2048 : S_.BroadcastsInDim S2050x2048 (![] : Fin 0 → Fin S2050x2048.rank)
  reducesTo_S2050x2048_S_d0_1 : S2050x2048.ReducesTo [0, 1] S_

variable [Facts]

def fn {F : FTy → Type} [FloatOps F] (main_arg0 : FVec F S4096x2048 .f32) (main_arg1 : FVec F S2050x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2050x2048 .f32 := Host.absf main_arg1
  let main_cst_0 : FVec F S_ .f32 := constant S_ .f32 0x7F800000#32
  let main_v5 : FVec F S2050x2048 .f32 := broadcastInDim S2050x2048 ![] bcast_S_S2050x2048 main_cst_0
  let main_v6 : IVec S2050x2048 1 := cmpf .olt main_v4 main_v5
  let main_c_1 : IVec S_ 1 := constantI S_ 1 1#1
  let main_v7 : IVec S_ 1 := (fun x v => Host.reduce IntOp.andi x v reducesTo_S2050x2048_S_d0_1 h_S_) main_v6 main_c_1
  let main_v8 : IVec S_ 1 := andi main_v3 main_v7
  main_v8
-- ==== Kernel.lean ====
abbrev S4096x2048 : Shape := ⟨2, ![4096, 2048]⟩
abbrev S2050x2048 : Shape := ⟨2, ![2050, 2048]⟩
abbrev S_ : Shape := ⟨0, ![]⟩
abbrev S2048 : Shape := ⟨1, ![2048]⟩
abbrev S1x2048 : Shape := ⟨2, ![1, 2048]⟩
abbrev S2048x2048 : Shape := ⟨2, ![2048, 2048]⟩
abbrev S512x2048 : Shape := ⟨2, ![512, 2048]⟩
abbrev S512x1024 : Shape := ⟨2, ![512, 1024]⟩
abbrev S2048x1024 : Shape := ⟨2, ![2048, 1024]⟩
abbrev S1x1024 : Shape := ⟨2, ![1, 1024]⟩
abbrev S1024 : Shape := ⟨1, ![1024]⟩
abbrev S2048x1 : Shape := ⟨2, ![2048, 1]⟩

abbrev nBuf : Space → Nat
  | .hbm => 111
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S2050x2048, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S2050x2048, .f32⟩
  | .hbm, ⟨6, _⟩ => ⟨S2050x2048, .f32⟩
  | .hbm, ⟨7, _⟩ => ⟨S_, .f32⟩
  | .hbm, ⟨8, _⟩ => ⟨S2050x2048, .f32⟩
  | .hbm, ⟨9, _⟩ => ⟨S2050x2048, .f32⟩
  | .hbm, ⟨10, _⟩ => ⟨S2050x2048, .f32⟩
  | .hbm, ⟨11, _⟩ => ⟨S_, .f32⟩
  | .hbm, ⟨12, _⟩ => ⟨S2050x2048, .f32⟩
  | .hbm, ⟨13, _⟩ => ⟨S2050x2048, .i1⟩
  | .hbm, ⟨14, _⟩ => ⟨S_, .f32⟩
  | .hbm, ⟨15, _⟩ => ⟨S_, .f32⟩
  | .hbm, ⟨16, _⟩ => ⟨S2050x2048, .f32⟩
  | .hbm, ⟨17, _⟩ => ⟨S2050x2048, .f32⟩
  | .hbm, ⟨18, _⟩ => ⟨S2050x2048, .f32⟩
  | .hbm, ⟨19, _⟩ => ⟨S_, .f32⟩
  | .hbm, ⟨20, _⟩ => ⟨S2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .i1⟩
  | .hbm, ⟨25, _⟩ => ⟨S_, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S_, .f32⟩
  | .hbm, ⟨30, _⟩ => ⟨S1x2048, .f32⟩
  | .hbm, ⟨31, _⟩ => ⟨S1x2048, .i1⟩
  | .hbm, ⟨32, _⟩ => ⟨S2050x2048, .f32⟩
  | .hbm, ⟨33, _⟩ => ⟨S2050x2048, .f32⟩
  | .hbm, ⟨34, _⟩ => ⟨S_, .f32⟩
  | .hbm, ⟨35, _⟩ => ⟨S_, .f32⟩
  | .hbm, ⟨36, _⟩ => ⟨S2050x2048, .i1⟩
  | .hbm, ⟨37, _⟩ => ⟨S2050x2048, .f32⟩
  | .hbm, ⟨38, _⟩ => ⟨S2050x2048, .f32⟩
  | .hbm, ⟨39, _⟩ => ⟨S_, .f32⟩
  | .hbm, ⟨40, _⟩ => ⟨S2050x2048, .f32⟩
  | .hbm, ⟨41, _⟩ => ⟨S2050x2048, .i1⟩
  | .hbm, ⟨42, _⟩ => ⟨S_, .f32⟩
  | .hbm, ⟨43, _⟩ => ⟨S_, .f32⟩
  | .hbm, ⟨44, _⟩ => ⟨S2050x2048, .f32⟩
  | .hbm, ⟨45, _⟩ => ⟨S2050x2048, .f32⟩
  | .hbm, ⟨46, _⟩ => ⟨S2050x2048, .f32⟩
  | .hbm, ⟨47, _⟩ => ⟨S2050x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S_, .f32⟩
  | .hbm, ⟨52, _⟩ => ⟨S1x2048, .f32⟩
  | .hbm, ⟨53, _⟩ => ⟨S1x2048, .f32⟩
  | .hbm, ⟨54, _⟩ => ⟨S2050x2048, .f32⟩
  | .hbm, ⟨55, _⟩ => ⟨S2050x2048, .f32⟩
  | .hbm, ⟨56, _⟩ => ⟨S2048x2048, .f32⟩
  | .hbm, ⟨57, _⟩ => ⟨S2048x2048, .bf16⟩
  | .hbm, ⟨58, _⟩ => ⟨S1x2048, .f32⟩
  | .hbm, ⟨59, _⟩ => ⟨S2048, .f32⟩
  | .hbm, ⟨60, _⟩ => ⟨S1x2048, .f32⟩
  | .hbm, ⟨61, _⟩ => ⟨S2048x2048, .f32⟩
  | .hbm, ⟨62, _⟩ => ⟨S1x2048, .f32⟩
  | .hbm, ⟨63, _⟩ => ⟨S2048, .f32⟩
  | .hbm, ⟨64, _⟩ => ⟨S2048x2048, .f32⟩
  | .hbm, ⟨65, _⟩ => ⟨S1x2048, .f32⟩
  | .hbm, ⟨66, _⟩ => ⟨S2048, .f32⟩
  | .hbm, ⟨67, _⟩ => ⟨S1x2048, .f32⟩
  | .hbm, ⟨68, _⟩ => ⟨S2048, .f32⟩
  | .hbm, ⟨69, _⟩ => ⟨S4096x2048, .f32⟩
  | .hbm, ⟨70, _⟩ => ⟨S2048x2048, .f32⟩
  | .hbm, ⟨71, _⟩ => ⟨S1x2048, .f32⟩
  | .hbm, ⟨72, _⟩ => ⟨S1x2048, .f32⟩
  | .hbm, ⟨73, _⟩ => ⟨S4096x2048, .f32⟩
  | .hbm, ⟨74, _⟩ => ⟨S_, .f32⟩
  | .hbm, ⟨75, _⟩ => ⟨S2048, .f32⟩
  | .hbm, ⟨76, _⟩ => ⟨S2048, .f32⟩
  | .hbm, ⟨77, _⟩ => ⟨S2048, .f32⟩
  | .hbm, ⟨78, _⟩ => ⟨S2048x1, .f32⟩
  | .hbm, ⟨79, _⟩ => ⟨S_, .f32⟩
  | .hbm, ⟨80, _⟩ => ⟨S2048x2048, .f32⟩
  | .hbm, ⟨81, _⟩ => ⟨S2048x2048, .f32⟩
  | .hbm, ⟨82, _⟩ => ⟨S2048x2048, .f32⟩
  | .hbm, ⟨83, _⟩ => ⟨S2048x2048, .f32⟩
  | .hbm, ⟨84, _⟩ => ⟨S2048x2048, .f32⟩
  | .hbm, ⟨85, _⟩ => ⟨S2048x2048, .f32⟩
  | .hbm, ⟨86, _⟩ => ⟨S1x2048, .f32⟩
  | .hbm, ⟨87, _⟩ => ⟨S2048x2048, .f32⟩
  | .hbm, ⟨88, _⟩ => ⟨S2048x2048, .f32⟩
  | .hbm, ⟨89, _⟩ => ⟨S2048x2048, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S2048, .f32⟩
  | .hbm, ⟨94, _⟩ => ⟨S2048, .f32⟩
  | .hbm, ⟨95, _⟩ => ⟨S2048, .f32⟩
  | .hbm, ⟨96, _⟩ => ⟨S2048, .f32⟩
  | .hbm, ⟨97, _⟩ => ⟨S_, .f32⟩
  | .hbm, ⟨98, _⟩ => ⟨S2048, .f32⟩
  | .hbm, ⟨99, _⟩ => ⟨S2048, .f32⟩
  | .hbm, ⟨100, _⟩ => ⟨S2048, .f32⟩
  | .hbm, ⟨101, _⟩ => ⟨S2048, .f32⟩
  | .hbm, ⟨102, _⟩ => ⟨S_, .f32⟩
  | .hbm, ⟨103, _⟩ => ⟨S_, .f32⟩
  | .hbm, ⟨104, _⟩ => ⟨S2048, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x1024, .f32⟩
  | .local _ .vmem, ⟨9, _⟩ => ⟨S512x1024, .f32⟩
  | .local _ .vmem, ⟨10, _⟩ => ⟨S2048x1024, .f32⟩
  | .local _ .vmem, ⟨11, _⟩ => ⟨S2048x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_v3 : Ref sig .tc := ⟨.hbm, 13, rfl⟩
abbrev main_cst_2 : Ref sig .tc := ⟨.hbm, 14, rfl⟩
abbrev main_call1_v0 : Ref sig .tc := ⟨.hbm, 15, rfl⟩
abbrev main_call1_v1 : Ref sig .tc := ⟨.hbm, 16, rfl⟩
abbrev main_v4 : Ref sig .tc := ⟨.hbm, 17, rfl⟩
abbrev main_v5 : Ref sig .tc := ⟨.hbm, 18, rfl⟩
abbrev main_cst_3 : Ref sig .tc := ⟨.hbm, 19, rfl⟩
abbrev main_v6 : Ref sig .tc := ⟨.hbm, 20, rfl⟩
abbrev main_v7 : Ref sig .tc := ⟨.hbm, 21, rfl⟩
abbrev main_cst_4 : Ref sig .tc := ⟨.hbm, 22, rfl⟩
abbrev main_v8 : Ref sig .tc := ⟨.hbm, 23, rfl⟩
abbrev main_v9 : Ref sig .tc := ⟨.hbm, 24, rfl⟩
abbrev main_cst_5 : Ref sig .tc := ⟨.hbm, 25, rfl⟩
abbrev main_call2_v0 : Ref sig .tc := ⟨.hbm, 26, rfl⟩
abbrev main_call2_v1 : Ref sig .tc := ⟨.hbm, 27, rfl⟩
abbrev main_v10 : Ref sig .tc := ⟨.hbm, 28, rfl⟩
abbrev main_cst_6 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_7 : Ref sig .tc := ⟨.hbm, 34, rfl⟩
abbrev main_call3_v0 : Ref sig .tc := ⟨.hbm, 35, rfl⟩
abbrev main_call3_v1 : Ref sig .tc := ⟨.hbm, 36, rfl⟩
abbrev main_call3_v2 : Ref sig .tc := ⟨.hbm, 37, rfl⟩
abbrev main_v15 : Ref sig .tc := ⟨.hbm, 38, rfl⟩
abbrev main_cst_8 : Ref sig .tc := ⟨.hbm, 39, rfl⟩
abbrev main_v16 : Ref sig .tc := ⟨.hbm, 40, rfl⟩
abbrev main_v17 : Ref sig .tc := ⟨.hbm, 41, rfl⟩
abbrev main_cst_9 : Ref sig .tc := ⟨.hbm, 42, rfl⟩
abbrev main_cst_10 : Ref sig .tc := ⟨.hbm, 43, rfl⟩
abbrev main_call4_v0 : Ref sig .tc := ⟨.hbm, 44, rfl⟩
abbrev main_call4_v1 : Ref sig .tc := ⟨.hbm, 45, rfl⟩
abbrev main_v18 : Ref sig .tc := ⟨.hbm, 46, rfl⟩
abbrev main_v19 : Ref sig .tc := ⟨.hbm, 47, rfl⟩
abbrev main_cst_11 : Ref sig .tc := ⟨.hbm, 48, rfl⟩
abbrev main_v20 : Ref sig .tc := ⟨.hbm, 49, rfl⟩
abbrev main_v21 : Ref sig .tc := ⟨.hbm, 50, rfl⟩
abbrev main_cst_12 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40_0 : Ref sig .tc := ⟨.hbm, 70, rfl⟩
abbrev main_v40_1 : Ref sig .tc := ⟨.hbm, 71, rfl⟩
abbrev main_v40_2 : Ref sig .tc := ⟨.hbm, 72, rfl⟩
abbrev main_v41 : Ref sig .tc := ⟨.hbm, 73, rfl⟩
abbrev main_cst_13 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_14 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_15 : Ref sig .tc := ⟨.hbm, 90, rfl⟩
abbrev main_v56 : Ref sig .tc := ⟨.hbm, 91, rfl⟩
abbrev main_cst_16 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_17 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_18 : Ref sig .tc := ⟨.hbm, 102, rfl⟩
abbrev main_v65 : Ref sig .tc := ⟨.hbm, 103, rfl⟩
abbrev main_v66 : Ref sig .tc := ⟨.hbm, 104, rfl⟩
abbrev main_cst_19 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_20 : Ref sig .tc := ⟨.hbm, 109, rfl⟩
abbrev main_v70 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2048x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  bcast_S_S2050x2048 : S_.BroadcastsInDim S2050x2048 (![] : Fin 0 → Fin S2050x2048.rank)
  reducesTo_S2050x2048_S2048_d0 : S2050x2048.ReducesTo [0] S2048
  h_S_ : 0 < S_.numel
  bcast_S2048_S1x2048_1 : S2048.BroadcastsInDim S1x2048 (![1] : Fin 1 → Fin S1x2048.rank)
  bcast_S_S1x2048 : S_.BroadcastsInDim S1x2048 (![] : Fin 0 → Fin S1x2048.rank)
  bcast_S1x2048_S2050x2048_0_1 : S1x2048.BroadcastsInDim S2050x2048 (![0, 1] : Fin 2 → Fin S2050x2048.rank)
  slices_S2050x2048_S2048x2048_0_0 : S2050x2048.Slices ![0, 0] S2048x2048
  bitsLt_bf16_f32 : FTy.bits .bf16 < FTy.bits .f32
  slices_S2050x2048_S1x2048_2048_0 : S2050x2048.Slices ![2048, 0] S1x2048
  shapeCasts_S1x2048_S2048 : S1x2048.ShapeCasts S2048
  slices_S2050x2048_S1x2048_2049_0 : S2050x2048.Slices ![2049, 0] S1x2048
  inb_S512x2048_S512x2048_0_0 : ∀ a, (![0, 0] : Fin 2 → Nat) a + S512x2048.size a ≤ S512x2048.size a
  h_S512x2048 : 0 < S512x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S2048x1024_S2048x1024_0_0 : ∀ a, (![0, 0] : Fin 2 → Nat) a + S2048x1024.size a ≤ S2048x1024.size a
  h_S2048x1024 : 0 < S2048x1024.numel
  inb_S1x1024_S1x1024_0_0 : ∀ a, (![0, 0] : Fin 2 → Nat) a + S1x1024.size a ≤ S1x1024.size a
  h_S1x1024 : 0 < S1x1024.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S2048x1024_S2048x1024 : S2048x1024.ShapeCasts S2048x1024
  shapeCasts_S1x1024_S1x1024 : S1x1024.ShapeCasts S1x1024
  reduces_S512x1024_S1024 : S512x1024.Reduces [0] S1024
  shapeCasts_S1024_S1x1024 : S1024.ShapeCasts S1x1024
  reducesTo_S4096x2048_S2048_d0 : S4096x2048.ReducesTo [0] S2048
  bcast_S2048_S2048x1_0 : S2048.BroadcastsInDim S2048x1 (![0] : Fin 1 → Fin S2048x1.rank)
  bcast_S_S2048x2048 : S_.BroadcastsInDim S2048x2048 (![] : Fin 0 → Fin S2048x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  dot_S512x2048_S2048x2048_S512x2048_1_0_0_1_n_n_wf : DotDims.WF S512x2048 S2048x2048 S512x2048 [1] [0] [0] [1] [] []
  dot_S512x2048_S512x1024_S2048x1024_0_0_1_1_n_n_wf : DotDims.WF S512x2048 S512x1024 S2048x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S4096x2048.size a
  hwx0_3 : ∀ i : grid0.Coords, EltTy.bits .f32 = 32 ∨ (Rect.block (s := S4096x2048) S512x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S4096x2048.size a
  hwx1_0 : ∀ i : grid1.Coords, EltTy.bits .f32 = 32 ∨ (Rect.block (s := S4096x2048) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S4096x2048.size a
  hwx1_1 : ∀ i : grid1.Coords, EltTy.bits .f32 = 32 ∨ (Rect.block (s := S4096x2048) S512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1024.size a ≤ S2048x2048.size a
  hwx1_2 : ∀ i : grid1.Coords, EltTy.bits .f32 = 32 ∨ (Rect.block (s := S2048x2048) S2048x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x2048.size a
  hwx1_3 : ∀ i : grid1.Coords, EltTy.bits .f32 = 32 ∨ (Rect.block (s := S1x2048) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x2048.size a
  hwx1_4 : ∀ i : grid1.Coords, EltTy.bits .f32 = 32 ∨ (Rect.block (s := S1x2048) S1x1024.size (cc1_transform_4 i) (hinb1_4 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf
def dot_S512x2048_S512x1024_S2048x1024_0_0_1_1_n_n : DotDims S512x2048 S512x1024 S2048x1024 where
  lhsContracting := [0]
  rhsContracting := [0]
  lhsNonContracting := [1]
  rhsNonContracting := [1]
  lhsBatch := []
  rhsBatch := []
  wf := dot_S512x2048_S512x1024_S2048x1024_0_0_1_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v39) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40_0) S2048x1024.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v40_1) S1x1024.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v40_2) S1x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4096x2048 : Shape := ⟨2, ![4096, 2048]⟩
abbrev S2050x2048 : Shape := ⟨2, ![2050, 2048]⟩
abbrev S_ : Shape := ⟨0, ![]⟩
abbrev S2048 : Shape := ⟨1, ![2048]⟩
abbrev S1x2048 : Shape := ⟨2, ![1, 2048]⟩
abbrev S4096x1 : Shape := ⟨2, ![4096, 1]⟩
abbrev S4096x2050 : Shape := ⟨2, ![4096, 2050]⟩
abbrev S1 : Shape := ⟨1, ![1]⟩
abbrev S4096 : Shape := ⟨1, ![4096]⟩
abbrev S2050 : Shape := ⟨1, ![2050]⟩
abbrev S2050x1 : Shape := ⟨2, ![2050, 1]⟩
abbrev S2050x4096 : Shape := ⟨2, ![2050, 4096]⟩

abbrev nBuf : Space → Nat
  | .hbm => 111
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2050x2048, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S2050x2048, .f32⟩
  | .hbm, ⟨6, _⟩ => ⟨S2050x2048, .f32⟩
  | .hbm, ⟨7, _⟩ => ⟨S_, .f32⟩
  | .hbm, ⟨8, _⟩ => ⟨S2050x2048, .f32⟩
  | .hbm, ⟨9, _⟩ => ⟨S2050x2048, .f32⟩
  | .hbm, ⟨10, _⟩ => ⟨S2050x2048, .f32⟩
  | .hbm, ⟨11, _⟩ => ⟨S_, .f32⟩
  | .hbm, ⟨12, _⟩ => ⟨S2050x2048, .f32⟩
  | .hbm, ⟨13, _⟩ => ⟨S2050x2048, .i1⟩
  | .hbm, ⟨14, _⟩ => ⟨S_, .f32⟩
  | .hbm, ⟨15, _⟩ => ⟨S_, .f32⟩
  | .hbm, ⟨16, _⟩ => ⟨S2050x2048, .f32⟩
  | .hbm, ⟨17, _⟩ => ⟨S2050x2048, .f32⟩
  | .hbm, ⟨18, _⟩ => ⟨S2050x2048, .f32⟩
  | .hbm, ⟨19, _⟩ => ⟨S2050x2048, .f32⟩
  | .hbm, ⟨20, _⟩ => ⟨S_, .f32⟩
  | .hbm, ⟨21, _⟩ => ⟨S2050x2048, .f32⟩
  | .hbm, ⟨22, _⟩ => ⟨S2050x2048, .i1⟩
  | .hbm, ⟨23, _⟩ => ⟨S2050x2048, .f32⟩
  | .hbm, ⟨24, _⟩ => ⟨S_, .f32⟩
  | .hbm, ⟨25, _⟩ => ⟨S2050x2048, .f32⟩
  | .hbm, ⟨26, _⟩ => ⟨S2050x2048, .f32⟩
  | .hbm, ⟨27, _⟩ => ⟨S2050x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S_, .f32⟩
  | .hbm, ⟨32, _⟩ => ⟨S1x2048, .f32⟩
  | .hbm, ⟨33, _⟩ => ⟨S1x2048, .i1⟩
  | .hbm, ⟨34, _⟩ => ⟨S_, .f32⟩
  | .hbm, ⟨35, _⟩ => ⟨S1x2048, .f32⟩
  | .hbm, ⟨36, _⟩ => ⟨S1x2048, .i1⟩
  | .hbm, ⟨37, _⟩ => ⟨S_, .f32⟩
  | .hbm, ⟨38, _⟩ => ⟨S_, .f32⟩
  | .hbm, ⟨39, _⟩ => ⟨S1x2048, .f32⟩
  | .hbm, ⟨40, _⟩ => ⟨S1x2048, .f32⟩
  | .hbm, ⟨41, _⟩ => ⟨S2050x2048, .f32⟩
  | .hbm, ⟨42, _⟩ => ⟨S2050x2048, .f32⟩
  | .hbm, ⟨43, _⟩ => ⟨S_, .f32⟩
  | .hbm, ⟨44, _⟩ => ⟨S_, .f32⟩
  | .hbm, ⟨45, _⟩ => ⟨S2050x2048, .i1⟩
  | .hbm, ⟨46, _⟩ => ⟨S2050x2048, .f32⟩
  | .hbm, ⟨47, _⟩ => ⟨S2050x2048, .f32⟩
  | .hbm, ⟨48, _⟩ => ⟨S_, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x2050, .f32⟩
  | .hbm, ⟨53, _⟩ => ⟨S4096x2050, .f32⟩
  | .hbm, ⟨54, _⟩ => ⟨S_, .i32⟩
  | .hbm, ⟨55, _⟩ => ⟨S1, .i32⟩
  | .hbm, ⟨56, _⟩ => ⟨S_, .f32⟩
  | .hbm, ⟨57, _⟩ => ⟨S4096, .f32⟩
  | .hbm, ⟨58, _⟩ => ⟨S4096x2050, .f32⟩
  | .hbm, ⟨59, _⟩ => ⟨S2050x2048, .f32⟩
  | .hbm, ⟨60, _⟩ => ⟨S4096x2048, .f32⟩
  | .hbm, ⟨61, _⟩ => ⟨S2050x2048, .f32⟩
  | .hbm, ⟨62, _⟩ => ⟨S4096x2048, .f32⟩
  | .hbm, ⟨63, _⟩ => ⟨S4096x2048, .f32⟩
  | .hbm, ⟨64, _⟩ => ⟨S2050x2048, .f32⟩
  | .hbm, ⟨65, _⟩ => ⟨S_, .f32⟩
  | .hbm, ⟨66, _⟩ => ⟨S2048, .f32⟩
  | .hbm, ⟨67, _⟩ => ⟨S1x2048, .f32⟩
  | .hbm, ⟨68, _⟩ => ⟨S_, .f32⟩
  | .hbm, ⟨69, _⟩ => ⟨S1x2048, .f32⟩
  | .hbm, ⟨70, _⟩ => ⟨S1x2048, .f32⟩
  | .hbm, ⟨71, _⟩ => ⟨S2050x2048, .f32⟩
  | .hbm, ⟨72, _⟩ => ⟨S2050x2048, .f32⟩
  | .hbm, ⟨73, _⟩ => ⟨S_, .f32⟩
  | .hbm, ⟨74, _⟩ => ⟨S2050x2048, .f32⟩
  | .hbm, ⟨75, _⟩ => ⟨S2050x2048, .f32⟩
  | .hbm, ⟨76, _⟩ => ⟨S4096x2050, .f32⟩
  | .hbm, ⟨77, _⟩ => ⟨S_, .f32⟩
  | .hbm, ⟨78, _⟩ => ⟨S2050, .f32⟩
  | .hbm, ⟨79, _⟩ => ⟨S4096x2050, .f32⟩
  | .hbm, ⟨80, _⟩ => ⟨S_, .f32⟩
  | .hbm, ⟨81, _⟩ => ⟨S2050, .f32⟩
  | .hbm, ⟨82, _⟩ => ⟨S2050x1, .f32⟩
  | .hbm, ⟨83, _⟩ => ⟨S2050x2048, .f32⟩
  | .hbm, ⟨84, _⟩ => ⟨S2050x2048, .f32⟩
  | .hbm, ⟨85, _⟩ => ⟨S2050x1, .f32⟩
  | .hbm, ⟨86, _⟩ => ⟨S2050x2048, .f32⟩
  | .hbm, ⟨87, _⟩ => ⟨S2050x2048, .f32⟩
  | .hbm, ⟨88, _⟩ => ⟨S2050x2048, .f32⟩
  | .hbm, ⟨89, _⟩ => ⟨S2050x4096, .f32⟩
  | .hbm, ⟨90, _⟩ => ⟨S2050x2048, .f32⟩
  | .hbm, ⟨91, _⟩ => ⟨S2050x4096, .f32⟩
  | .hbm, ⟨92, _⟩ => ⟨S2050x2048, .f32⟩
  | .hbm, ⟨93, _⟩ => ⟨S2050x2048, .f32⟩
  | .hbm, ⟨94, _⟩ => ⟨S2050x2048, .f32⟩
  | .hbm, ⟨95, _⟩ => ⟨S2050x2048, .f32⟩
  | .hbm, ⟨96, _⟩ => ⟨S4096x2048, .f32⟩
  | .hbm, ⟨97, _⟩ => ⟨S_, .f32⟩
  | .hbm, ⟨98, _⟩ => ⟨S2048, .f32⟩
  | .hbm, ⟨99, _⟩ => ⟨S_, .f32⟩
  | .hbm, ⟨100, _⟩ => ⟨S2050x2048, .f32⟩
  | .hbm, ⟨101, _⟩ => ⟨S2050x2048, .f32⟩
  | .hbm, ⟨102, _⟩ => ⟨S2050x2048, .f32⟩
  | .hbm, ⟨103, _⟩ => ⟨S1x2048, .f32⟩
  | .hbm, ⟨104, _⟩ => ⟨S2050x2048, .f32⟩
  | .hbm, ⟨105, _⟩ => ⟨S2050x2048, .f32⟩
  | .hbm, ⟨106, _⟩ => ⟨S2050x2048, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_v3 : Ref sig .tc := ⟨.hbm, 13, rfl⟩
abbrev main_cst_2 : Ref sig .tc := ⟨.hbm, 14, rfl⟩
abbrev main_call1_v0 : Ref sig .tc := ⟨.hbm, 15, rfl⟩
abbrev main_call1_v1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_3 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_5 : Ref sig .tc := ⟨.hbm, 28, rfl⟩
abbrev main_v13 : Ref sig .tc := ⟨.hbm, 29, rfl⟩
abbrev main_v14 : Ref sig .tc := ⟨.hbm, 30, rfl⟩
abbrev main_cst_6 : Ref sig .tc := ⟨.hbm, 31, rfl⟩
abbrev main_v15 : Ref sig .tc := ⟨.hbm, 32, rfl⟩
abbrev main_v16 : Ref sig .tc := ⟨.hbm, 33, rfl⟩
abbrev main_cst_7 : Ref sig .tc := ⟨.hbm, 34, rfl⟩
abbrev main_v17 : Ref sig .tc := ⟨.hbm, 35, rfl⟩
abbrev main_v18 : Ref sig .tc := ⟨.hbm, 36, rfl⟩
abbrev main_cst_8 : Ref sig .tc := ⟨.hbm, 37, rfl⟩
abbrev main_call2_v0 : Ref sig .tc := ⟨.hbm, 38, rfl⟩
abbrev main_call2_v1 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_9 : Ref sig .tc := ⟨.hbm, 43, rfl⟩
abbrev main_call3_v0 : Ref sig .tc := ⟨.hbm, 44, rfl⟩
abbrev main_call3_v1 : Ref sig .tc := ⟨.hbm, 45, rfl⟩
abbrev main_call3_v2 : Ref sig .tc := ⟨.hbm, 46, rfl⟩
abbrev main_v22 : Ref sig .tc := ⟨.hbm, 47, rfl⟩
abbrev main_cst_10 : Ref sig .tc := ⟨.hbm, 48, rfl⟩
abbrev main_v23 : Ref sig .tc := ⟨.hbm, 49, rfl⟩
abbrev main_cst_11 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_c : Ref sig .tc := ⟨.hbm, 54, rfl⟩
abbrev main_v27 : Ref sig .tc := ⟨.hbm, 55, rfl⟩
abbrev main_cst_12 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_13 : Ref sig .tc := ⟨.hbm, 65, rfl⟩
abbrev main_v36 : Ref sig .tc := ⟨.hbm, 66, rfl⟩
abbrev main_v37 : Ref sig .tc := ⟨.hbm, 67, rfl⟩
abbrev main_cst_14 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_15 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_16 : Ref sig .tc := ⟨.hbm, 77, rfl⟩
abbrev main_v45 : Ref sig .tc := ⟨.hbm, 78, rfl⟩
abbrev main_v46 : Ref sig .tc := ⟨.hbm, 79, rfl⟩
abbrev main_cst_17 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_18 : Ref sig .tc := ⟨.hbm, 97, rfl⟩
abbrev main_v63 : Ref sig .tc := ⟨.hbm, 98, rfl⟩
abbrev main_cst_19 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_20 : Ref sig .tc := ⟨.hbm, 107, rfl⟩
abbrev main_v71 : Ref sig .tc := ⟨.hbm, 108, rfl⟩
abbrev main_cst_21 : Ref sig .tc := ⟨.hbm, 109, rfl⟩
abbrev main_v72 : Ref sig .tc := ⟨.hbm, 110, rfl⟩

abbrev nD : Nat := 1
abbrev τ : Topo := Topo.v7x

variable {F : FTy → Type} [FloatOps F]

class Facts₀ : Prop where
  bcast_S_S2050x2048 : S_.BroadcastsInDim S2050x2048 (![] : Fin 0 → Fin S2050x2048.rank)
  reducesTo_S2050x2048_S2048_d0 : S2050x2048.ReducesTo [0] S2048
  h_S_ : 0 < S_.numel
  bcast_S2048_S1x2048_1 : S2048.BroadcastsInDim S1x2048 (![1] : Fin 1 → Fin S1x2048.rank)
  bcast_S_S1x2048 : S_.BroadcastsInDim S1x2048 (![] : Fin 0 → Fin S1x2048.rank)
  bcast_S1x2048_S2050x2048_0_1 : S1x2048.BroadcastsInDim S2050x2048 (![0, 1] : Fin 2 → Fin S2050x2048.rank)
  bcast_S_S4096x1 : S_.BroadcastsInDim S4096x1 (![] : Fin 0 → Fin S4096x1.rank)
  concatenates_S4096x2048_S4096x1_S4096x1_S4096x2050_d1 : Shape.Concatenates [S4096x2048, S4096x1, S4096x1] S4096x2050 1
  bcast_S_S1 : S_.BroadcastsInDim S1 (![] : Fin 0 → Fin S1.rank)
  bcast_S_S4096 : S_.BroadcastsInDim S4096 (![] : Fin 0 → Fin S4096.rank)
  reducesTo_S4096x2050_S2050_d0 : S4096x2050.ReducesTo [0] S2050
  bcast_S2050_S2050x1_0 : S2050.BroadcastsInDim S2050x1 (![0] : Fin 1 → Fin S2050x1.rank)
  bcast_S2050x1_S2050x2048_0_1 : S2050x1.BroadcastsInDim S2050x2048 (![0, 1] : Fin 2 → Fin S2050x2048.rank)
  transposes_S4096x2050_S2050x4096_1_0 : S4096x2050.Transposes [1, 0] S2050x4096
  reducesTo_S4096x2048_S2048_d0 : S4096x2048.ReducesTo [0] S2048
  reducesTo_S2050x2048_S_d0_1 : S2050x2048.ReducesTo [0, 1] S_
  scatter_S4096x2050_S1_S4096_0_1_1_0_wf : ScatterDims.WF S4096x2050 S1 S4096 [0] [1] [1] 0
  dot_S4096x2050_S2050x2048_S4096x2048_1_0_0_1_n_n_wf : DotDims.WF S4096x2050 S2050x2048 S4096x2048 [1] [0] [0] [1] [] []
  dot_S2050x4096_S4096x2048_S2050x2048_1_0_0_1_n_n_wf : DotDims.WF S2050x4096 S4096x2048 S2050x2048 [1] [0] [0] [1] [] []

variable [Facts₀]

def scatter_S4096x2050_S1_S4096_0_1_1_0 : ScatterDims S4096x2050 S1 S4096 where
  updateWindowDims := [0]
  insertedWindowDims := [1]
  scatterDimsToOperandDims := [1]
  indexVectorDim := 0
  wf := scatter_S4096x2050_S1_S4096_0_1_1_0_wf
def dot_S4096x2050_S2050x2048_S4096x2048_1_0_0_1_n_n : DotDims S4096x2050 S2050x2048 S4096x2048 where
  lhsContracting := [1]
  rhsContracting := [0]
  lhsNonContracting := [0]
  rhsNonContracting := [1]
  lhsBatch := []
  rhsBatch := []
  wf := dot_S4096x2050_S2050x2048_S4096x2048_1_0_0_1_n_n_wf
def dot_S2050x4096_S4096x2048_S2050x2048_1_0_0_1_n_n : DotDims S2050x4096 S4096x2048 S2050x2048 where
  lhsContracting := [1]
  rhsContracting := [0]
  lhsNonContracting := [0]
  rhsNonContracting := [1]
  lhsBatch := []
  rhsBatch := []
  wf := dot_S2050x4096_S4096x2048_S2050x2048_1_0_0_1_n_n_wf

class Facts : Prop extends Facts₀ where

variable [Facts]
-- ==== Proof.HostTerms.lean ====
/-
  The host side of the program with the kernels, as functions of its two arguments.

  From the weights `θ`: the clipped and thresholded weights, their absolute column sums, the signed normalised
  weights, the signs, and the rescaled magnitudes `g`; then the slices of these that the two kernels and the closing
  host operations read. From the kernels' results: the closing host operations' power term.
-/
import proofs.«166182_j39599598469767_1_alg».proof.Proof.Gen.KernelIdeal

set_option maxRecDepth 8192

noncomputable section

namespace Cert.KHost

open Idealize.ShloMosaic Cert.KernelIdeal Cert.KernelIdeal.Facts₀

variable {F : FTy → Type} [FloatOps F]

/-- The weights clipped to [-0.1, 0.1]. -/
def clipT (θ : FVec F S2050x2048 .f32) : FVec F S2050x2048 .f32 :=
  minimumf (broadcastInDim S2050x2048 ![] bcast_S_S2050x2048 (id (constant S_ .f32 0x3DCCCCCD#32))) (maximumf (broadcastInDim S2050x2048 ![] bcast_S_S2050x2048 (id (constant S_ .f32 0xBDCCCCCD#32))) θ)

/-- The clipped weights, set to zero where their magnitude is under 0.01. -/
def thT (θ : FVec F S2050x2048 .f32) : FVec F S2050x2048 .f32 :=
  select (cmpf .olt (Host.absf (clipT θ)) (broadcastInDim S2050x2048 ![] bcast_S_S2050x2048 (constant S_ .f32 0x3C23D70A#32))) (broadcastInDim S2050x2048 ![] bcast_S_S2050x2048 (id (constant S_ .f32 0x00000000#32))) (clipT θ)

/-- The absolute column sums of the thresholded weights, as a row. -/
def csT (θ : FVec F S2050x2048 .f32) : FVec F S1x2048 .f32 :=
  (broadcastInDim S1x2048 ![1] bcast_S2048_S1x2048_1 (Host.reduceAdd (Host.absf (thT θ)) (constant S_ .f32 0x00000000#32) reducesTo_S2050x2048_S2048_d0 h_S_))

/-- The divisor of each column: its absolute column sum where positive, else one. -/
def safeT (θ : FVec F S2050x2048 .f32) : FVec F S1x2048 .f32 :=
  select (cmpf .ogt (csT θ) (broadcastInDim S1x2048 ![] bcast_S_S1x2048 (constant S_ .f32 0x00000000#32))) (csT θ) (broadcastInDim S1x2048 ![] bcast_S_S1x2048 (id (constant S_ .f32 0x3F800000#32)))

/-- The signed normalised weights (zero in a column whose absolute sum is not positive). -/
def wsT (θ : FVec F S2050x2048 .f32) : FVec F S2050x2048 .f32 :=
  select (broadcastInDim S2050x2048 ![0, 1] bcast_S1x2048_S2050x2048_0_1 (cmpf .ogt (csT θ) (broadcastInDim S1x2048 ![] bcast_S_S1x2048 (constant S_ .f32 0x00000000#32)))) (Host.divf (thT θ) (broadcastInDim S2050x2048 ![0, 1] bcast_S1x2048_S2050x2048_0_1 (safeT θ))) (broadcastInDim S2050x2048 ![] bcast_S_S2050x2048 (id (constant S_ .f32 0x00000000#32)))

/-- The signs of the thresholded weights: one where nonnegative, minus one elsewhere. -/
def sgT (θ : FVec F S2050x2048 .f32) : FVec F S2050x2048 .f32 :=
  select (cmpf .oge (thT θ) (broadcastInDim S2050x2048 ![] bcast_S_S2050x2048 (constant S_ .f32 0x00000000#32))) (broadcastInDim S2050x2048 ![] bcast_S_S2050x2048 (constant S_ .f32 0x3F800000#32)) (broadcastInDim S2050x2048 ![] bcast_S_S2050x2048 (constant S_ .f32 0xBF800000#32))

/-- The magnitudes of the raw weights, each column rescaled by 1e-4 over its least magnitude. -/
def gT (θ : FVec F S2050x2048 .f32) : FVec F S2050x2048 .f32 :=
  mulf (Host.absf θ) (broadcastInDim S2050x2048 ![0, 1] bcast_S1x2048_S2050x2048_0_1 (Host.divf (broadcastInDim S1x2048 ![] bcast_S_S1x2048 (constant S_ .f32 0x38D1B717#32)) (broadcastInDim S1x2048 ![1] bcast_S2048_S1x2048_1 (Host.reduce FloatOps.minimumf (Host.absf θ) (constant S_ .f32 0x7F800000#32) reducesTo_S2050x2048_S2048_d0 h_S_))))

/-- The feature rows of the signed weights, as the first kernel's second operand. -/
def wT (θ : FVec F S2050x2048 .f32) : FVec F S2048x2048 .bf16 :=
  truncf .bf16 (extractStridedSlice S2048x2048 ![0, 0] (wsT θ) slices_S2050x2048_S2048x2048_0_0) bitsLt_bf16_f32

/-- The constant-one row of the signed weights, as the first kernel's bias row. -/
def bT (θ : FVec F S2050x2048 .f32) : FVec F S1x2048 .f32 :=
  (broadcastInDim S1x2048 ![1] bcast_S2048_S1x2048_1 (shapeCast S2048 (extractStridedSlice S1x2048 ![2048, 0] (wsT θ) slices_S2050x2048_S1x2048_2048_0) shapeCasts_S1x2048_S2048))

/-- The feature rows of the signs. -/
def sgmT (θ : FVec F S2050x2048 .f32) : FVec F S2048x2048 .f32 :=
  extractStridedSlice S2048x2048 ![0, 0] (sgT θ) slices_S2050x2048_S2048x2048_0_0

/-- The constant-one row of the signs. -/
def sg1T (θ : FVec F S2050x2048 .f32) : FVec F S2048 .f32 :=
  shapeCast S2048 (extractStridedSlice S1x2048 ![2048, 0] (sgT θ) slices_S2050x2048_S1x2048_2048_0) shapeCasts_S1x2048_S2048

/-- The feature rows of `g`. -/
def gmT (θ : FVec F S2050x2048 .f32) : FVec F S2048x2048 .f32 :=
  extractStridedSlice S2048x2048 ![0, 0] (gT θ) slices_S2050x2048_S2048x2048_0_0

/-- The constant-one row of `g`. -/
def g1T (θ : FVec F S2050x2048 .f32) : FVec F S2048 .f32 :=
  shapeCast S2048 (extractStridedSlice S1x2048 ![2048, 0] (gT θ) slices_S2050x2048_S1x2048_2048_0) shapeCasts_S1x2048_S2048

/-- The constant-zero row of `g`. -/
def g0T (θ : FVec F S2050x2048 .f32) : FVec F S2048 .f32 :=
  shapeCast S2048 (extractStridedSlice S1x2048 ![2049, 0] (gT θ) slices_S2050x2048_S1x2048_2049_0) shapeCasts_S1x2048_S2048

/-- The power over the feature rows: `Σ g · (Σa² − 2·sign·cx + Σz²)`. -/
def pmainT (a : FVec F S4096x2048 .f32) (θ : FVec F S2050x2048 .f32) (cx : FVec F S2048x2048 .f32) (y2 : FVec F S1x2048 .f32) : FVec F S_ .f32 :=
  Host.reduceAdd
    (mulf (gmT θ)
      (addf
        (subf
          (broadcastInDim S2048x2048 ![0, 1] bcast_S2048x1_S2048x2048_0_1
            (broadcastInDim S2048x1 ![0] bcast_S2048_S2048x1_0 (Host.reduceAdd (mulf a a) (constant S_ .f32 0x00000000#32) reducesTo_S4096x2048_S2048_d0 h_S_)))
          (mulf (id (mulf (broadcastInDim S2048x2048 ![] bcast_S_S2048x2048 (constant S_ .f32 0x40000000#32)) (sgmT θ))) cx))
        (broadcastInDim S2048x2048 ![0, 1] bcast_S1x2048_S2048x2048_0_1 (broadcastInDim S1x2048 ![1] bcast_S2048_S1x2048_1 (shapeCast S2048 y2 shapeCasts_S1x2048_S2048)))))
    (constant S_ .f32 0x00000000#32) reducesTo_S2048x2048_S_d0_1 h_S_

/-- The power over the constant-one row: `Σ g · (4096 − 2·sign·Σz + Σz²)`. -/
def ponesT (θ : FVec F S2050x2048 .f32) (cs y2 : FVec F S1x2048 .f32) : FVec F S_ .f32 :=
  Host.reduceAdd
    (mulf (g1T θ)
      (addf
        (subf (broadcastInDim S2048 ![] bcast_S_S2048 (constant S_ .f32 0x45800000#32))
          (mulf (id (mulf (broadcastInDim S2048 ![] bcast_S_S2048 (constant S_ .f32 0x40000000#32)) (sg1T θ))) (shapeCast S2048 cs shapeCasts_S1x2048_S2048)))
        (shapeCast S2048 y2 shapeCasts_S1x2048_S2048)))
    (constant S_ .f32 0x00000000#32) reducesTo_S2048_S_d0 h_S_

/-- The power over the constant-zero row: `Σ g · Σz²`. -/
def pzeroT (θ : FVec F S2050x2048 .f32) (y2 : FVec F S1x2048 .f32) : FVec F S_ .f32 :=
  Host.reduceAdd (mulf (g0T θ) (shapeCast S2048 y2 shapeCasts_S1x2048_S2048)) (constant S_ .f32 0x00000000#32) reducesTo_S2048_S_d0 h_S_

/-- The closing host operations' result: the three row classes' powers added, over 4096. -/
def powerT (a : FVec F S4096x2048 .f32) (θ : FVec F S2050x2048 .f32) (cx : FVec F S2048x2048 .f32) (cs y2 : FVec F S1x2048 .f32) : FVec F S_ .f32 :=
  Host.divf (addf (addf (pmainT a θ cx y2) (ponesT θ cs y2)) (pzeroT θ y2)) (constant S_ .f32 0x45800000#32)

end Cert.KHost

end
-- ==== Proof.KernelFold.lean ====
/-
  The buffer contents along the program with the kernels, from the launch memory to the return: what each kernel
  region finds in its input arrays, and what the two results hold at the end, in terms of the two arguments, the
  host-side functions of them, and the arrays the regions leave.
-/
import proofs.«166182_j39599598469767_1_alg».proof.Proof.Gen.KernelIdeal.Frame
import proofs.«166182_j39599598469767_1_alg».proof.Proof.HostTerms
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.KHost

variable {F : FTy → Type} [FloatOps F]
variable (m : (ℓ : Loc nD τ sig) → Buf (Elt F) ℓ) (ρ : Dev nD → PrngReg)

/-- A buffer that none of a stretch's operations writes keeps its contents across the stretch: the stretch's
    operations are listed, and the buffer is compared with each one's result. -/
local macro "kept_by " ops:ident : term =>
  `(StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## The first argument is written by nothing before the first region -/

theorem W11_arg0 (c : Dev nD) : W11 m ρ c (Proc.devRef .tc main_arg0) = m ((c.tc : Thread nD τ).loc main_arg0) :=
  calc W11 m ρ c (Proc.devRef .tc main_arg0)
    _ = W10 m ρ c (Proc.devRef .tc main_arg0) := kept_by hostOps0_10
    _ = W9 m ρ c (Proc.devRef .tc main_arg0) := kept_by hostOps0_9
    _ = W8 m ρ c (Proc.devRef .tc main_arg0) := kept_by hostOps0_8
    _ = W7 m ρ c (Proc.devRef .tc main_arg0) := kept_by hostOps0_7
    _ = W6 m ρ c (Proc.devRef .tc main_arg0) := kept_by hostOps0_6
    _ = W5 m ρ c (Proc.devRef .tc main_arg0) := kept_by hostOps0_5
    _ = W4 m ρ c (Proc.devRef .tc main_arg0) := kept_by hostOps0_4
    _ = W3 m ρ c (Proc.devRef .tc main_arg0) := kept_by hostOps0_3
    _ = W2 m ρ c (Proc.devRef .tc main_arg0) := kept_by hostOps0_2
    _ = W1 m ρ c (Proc.devRef .tc main_arg0) := kept_by hostOps0_1
    _ = W0 m ρ c (Proc.devRef .tc main_arg0) := kept_by hostOps0
    _ = m ((c.tc : Thread nD τ).loc main_arg0) := rfl

/-! ## What the first region finds -/

theorem V11_arg0 (c : Dev nD) : V11 m ρ c main_arg0 = m ((c.tc : Thread nD τ).loc main_arg0) :=
  W11_arg0 m ρ c

/-! ## The host-side functions of the second argument, as the stretches before the first region compute them

Each is read off by running the eleven stretches' operations back from the buffer to the launch memory; the
called functions' operations carry identity transports, which vanish by computation. -/

set_option maxHeartbeats 4000000 in
theorem V11_v27 (c : Dev nD) : V11 m ρ c main_v27 = wT (m ((c.tc : Thread nD τ).loc main_arg1)) := by
  show StableHlo.after hostOps0_10 (W10 m ρ c) (Proc.devRef .tc main_v27) = _
  after_results_simp
  rfl

set_option maxHeartbeats 4000000 in
theorem V11_v30 (c : Dev nD) : V11 m ρ c main_v30 = bT (m ((c.tc : Thread nD τ).loc main_arg1)) := by
  show StableHlo.after hostOps0_10 (W10 m ρ c) (Proc.devRef .tc main_v30) = _
  after_results_simp
  rfl

set_option maxHeartbeats 4000000 in
theorem W11_v31 (c : Dev nD) :
    W11 m ρ c (Proc.devRef .tc main_v31) = sgmT (m ((c.tc : Thread nD τ).loc main_arg1)) := by
  show StableHlo.after hostOps0_10 (W10 m ρ c) (Proc.devRef .tc main_v31) = _
  after_results_simp
  rfl

set_option maxHeartbeats 4000000 in
theorem W11_v33 (c : Dev nD) :
    W11 m ρ c (Proc.devRef .tc main_v33) = sg1T (m ((c.tc : Thread nD τ).loc main_arg1)) := by
  show StableHlo.after hostOps0_10 (W10 m ρ c) (Proc.devRef .tc main_v33) = _
  after_results_simp
  rfl

set_option maxHeartbeats 4000000 in
theorem W11_v34 (c : Dev nD) :
    W11 m ρ c (Proc.devRef .tc main_v34) = gmT (m ((c.tc : Thread nD τ).loc main_arg1)) := by
  show StableHlo.after hostOps0_10 (W10 m ρ c) (Proc.devRef .tc main_v34) = _
  after_results_simp
  rfl

set_option maxHeartbeats 4000000 in
theorem W11_v36 (c : Dev nD) :
    W11 m ρ c (Proc.devRef .tc main_v36) = g1T (m ((c.tc : Thread nD τ).loc main_arg1)) := by
  show StableHlo.after hostOps0_10 (W10 m ρ c) (Proc.devRef .tc main_v36) = _
  after_results_simp
  rfl

set_option maxHeartbeats 4000000 in
theorem W11_v38 (c : Dev nD) :
    W11 m ρ c (Proc.devRef .tc main_v38) = g0T (m ((c.tc : Thread nD τ).loc main_arg1)) := by
  show StableHlo.after hostOps0_10 (W10 m ρ c) (Proc.devRef .tc main_v38) = _
  after_results_simp
  rfl

/-! ## What the second region finds -/

/-- The first region reads the first argument through an input window: it leaves it as it found it. -/
theorem V12_arg0 (c : Dev nD) : V12 m ρ c main_arg0 = m ((c.tc : Thread nD τ).loc main_arg0) :=
  calc V12 m ρ c main_arg0
    _ = W11 m ρ c (Proc.devRef .tc main_arg0) :=
          (W12_arr m ρ c 0).trans (((dat0 (V11 m ρ) c).arrAt_in 0 rfl _).trans (A_eq0 (V11 m ρ) c 0))
    _ = m ((c.tc : Thread nD τ).loc main_arg0) := W11_arg0 m ρ c

/-- The first region's output array holds what its pipeline leaves there. -/
theorem V12_v39 (c : Dev nD) : V12 m ρ c main_v39 = (dat0 (V11 m ρ) c).arrAt 3 cfg0.N :=
  W12_arr m ρ c 3

/-! ## The two results at the return -/

/-- The first result: the second region reads it through an input window and the closing operations do not write it. -/
theorem W14_v39 (c : Dev nD) : W14 m ρ c (Proc.devRef .tc main_v39) = (dat0 (V11 m ρ) c).arrAt 3 cfg0.N :=
  calc W14 m ρ c (Proc.devRef .tc main_v39)
    _ = W13 m ρ c (Proc.devRef .tc main_v39) := kept_by hostOps2
    _ = V12 m ρ c main_v39 :=
          (W13_arr m ρ c 1).trans (((dat1 (V12 m ρ) c).arrAt_in 1 rfl _).trans (A_eq1 (V12 m ρ) c 1))
    _ = (dat0 (V11 m ρ) c).arrAt 3 cfg0.N := V12_v39 m ρ c

/-! ## What the closing operations find

The slices of the signs and of the rescaled magnitudes are arrays of neither region: both regions leave them as
the host stretches wrote them. The first argument is an input array of the second region; the second region's three
output arrays hold what its pipeline leaves. -/

theorem W13_v31 (c : Dev nD) :
    W13 m ρ c (Proc.devRef .tc main_v31) = sgmT (m ((c.tc : Thread nD τ).loc main_arg1)) :=
  (W13_of_ne m ρ c main_v31 (by decide)).trans ((W12_of_ne m ρ c main_v31 (by decide)).trans (W11_v31 m ρ c))

theorem W13_v33 (c : Dev nD) :
    W13 m ρ c (Proc.devRef .tc main_v33) = sg1T (m ((c.tc : Thread nD τ).loc main_arg1)) :=
  (W13_of_ne m ρ c main_v33 (by decide)).trans ((W12_of_ne m ρ c main_v33 (by decide)).trans (W11_v33 m ρ c))

theorem W13_v34 (c : Dev nD) :
    W13 m ρ c (Proc.devRef .tc main_v34) = gmT (m ((c.tc : Thread nD τ).loc main_arg1)) :=
  (W13_of_ne m ρ c main_v34 (by decide)).trans ((W12_of_ne m ρ c main_v34 (by decide)).trans (W11_v34 m ρ c))

theorem W13_v36 (c : Dev nD) :
    W13 m ρ c (Proc.devRef .tc main_v36) = g1T (m ((c.tc : Thread nD τ).loc main_arg1)) :=
  (W13_of_ne m ρ c main_v36 (by decide)).trans ((W12_of_ne m ρ c main_v36 (by decide)).trans (W11_v36 m ρ c))

theorem W13_v38 (c : Dev nD) :
    W13 m ρ c (Proc.devRef .tc main_v38) = g0T (m ((c.tc : Thread nD τ).loc main_arg1)) :=
  (W13_of_ne m ρ c main_v38 (by decide)).trans ((W12_of_ne m ρ c main_v38 (by decide)).trans (W11_v38 m ρ c))

theorem W13_arg0 (c : Dev nD) : W13 m ρ c (Proc.devRef .tc main_arg0) = m ((c.tc : Thread nD τ).loc main_arg0) :=
  calc W13 m ρ c (Proc.devRef .tc main_arg0)
    _ = V12 m ρ c main_arg0 :=
          (W13_arr m ρ c 0).trans (((dat1 (V12 m ρ) c).arrAt_in 0 rfl _).trans (A_eq1 (V12 m ρ) c 0))
    _ = m ((c.tc : Thread nD τ).loc main_arg0) := V12_arg0 m ρ c

theorem W13_v40_0 (c : Dev nD) : W13 m ρ c (Proc.devRef .tc main_v40_0) = (dat1 (V12 m ρ) c).arrAt 2 cfg1.N :=
  W13_arr m ρ c 2

theorem W13_v40_1 (c : Dev nD) : W13 m ρ c (Proc.devRef .tc main_v40_1) = (dat1 (V12 m ρ) c).arrAt 3 cfg1.N :=
  W13_arr m ρ c 3

theorem W13_v40_2 (c : Dev nD) : W13 m ρ c (Proc.devRef .tc main_v40_2) = (dat1 (V12 m ρ) c).arrAt 4 cfg1.N :=
  W13_arr m ρ c 4

set_option maxHeartbeats 4000000 in
/-- The second result: the closing operations' term over the buffers they read, each replaced by what it holds;
    what remains is the power term, operation for operation. -/
theorem W14_v70 (c : Dev nD) :
    W14 m ρ c (Proc.devRef .tc main_v70)
      = powerT (m ((c.tc : Thread nD τ).loc main_arg0)) (m ((c.tc : Thread nD τ).loc main_arg1))
          ((dat1 (V12 m ρ) c).arrAt 2 cfg1.N) ((dat1 (V12 m ρ) c).arrAt 3 cfg1.N) ((dat1 (V12 m ρ) c).arrAt 4 cfg1.N) := by
  show StableHlo.after hostOps2 (W13 m ρ c) (Proc.devRef .tc main_v70) = _
  after_results_simp
  rw [W13_v34 m ρ c, W13_v31 m ρ c, W13_v33 m ρ c, W13_v36 m ρ c, W13_v38 m ρ c, W13_arg0 m ρ c,
    W13_v40_0 m ρ c, W13_v40_1 m ρ c, W13_v40_2 m ρ c]
  rfl

end Cert.KernelIdeal.Fold

end
-- ==== Proof.Spec.lean ====
/-
  What the two kernel regions compute, at the ideal instance, entry by entry.

  Region one: `z = a · w + bias` (each row of `a` against each column of the weights `w`, plus the bias row).
  Region two, from `a` and `z`: the correlation `aᵀ · z`, the column sums of `z` and the column sums of `z²`,
  all over the 4096 samples.
-/
import Idealize.ShloMosaic.Lib.ValueIdx
import Idealize.ShloMosaic.PureOps.Ideal

noncomputable section

namespace Cert.Spec

open Idealize.ShloMosaic Idealize.ShloMosaic.ValueIdx

/-- Entry `(e, n)` of `a · w + bias`. -/
def zAt (a : FVec Ideal ⟨2, ![4096, 2048]⟩ .f32) (w : FVec Ideal ⟨2, ![2048, 2048]⟩ .bf16) (b : FVec Ideal ⟨2, ![1, 2048]⟩ .f32)
    (e : Fin 4096) (n : Fin 2048) : EReal :=
  (∑ k : Fin 2048, a (ix2 e k) * w (ix2 k n)) + b (ix2 (0 : Fin 1) n)

/-- `a · w + bias` as an array. -/
def zArr (a : FVec Ideal ⟨2, ![4096, 2048]⟩ .f32) (w : FVec Ideal ⟨2, ![2048, 2048]⟩ .bf16) (b : FVec Ideal ⟨2, ![1, 2048]⟩ .f32) :
    FVec Ideal ⟨2, ![4096, 2048]⟩ .f32 := fun i => zAt a w b (i 0) (i 1)

/-- Entry `(k, n)` of `aᵀ · z`: feature `k` against output column `n`, summed over the samples. -/
def cxAt (a z : FVec Ideal ⟨2, ![4096, 2048]⟩ .f32) (k n : Fin 2048) : EReal := ∑ e : Fin 4096, a (ix2 e k) * z (ix2 e n)

/-- `aᵀ · z` as an array. -/
def cxArr (a z : FVec Ideal ⟨2, ![4096, 2048]⟩ .f32) : FVec Ideal ⟨2, ![2048, 2048]⟩ .f32 := fun i => cxAt a z (i 0) (i 1)

/-- Column `n` of `z` summed over the samples. -/
def csAt (z : FVec Ideal ⟨2, ![4096, 2048]⟩ .f32) (n : Fin 2048) : EReal := ∑ e : Fin 4096, z (ix2 e n)

/-- The column sums of `z` as a one-row array. -/
def csArr (z : FVec Ideal ⟨2, ![4096, 2048]⟩ .f32) : FVec Ideal ⟨2, ![1, 2048]⟩ .f32 := fun i => csAt z (i 1)

/-- Column `n` of `z²` summed over the samples. -/
def y2At (z : FVec Ideal ⟨2, ![4096, 2048]⟩ .f32) (n : Fin 2048) : EReal := ∑ e : Fin 4096, z (ix2 e n) * z (ix2 e n)

/-- The column sums of `z²` as a one-row array. -/
def y2Arr (z : FVec Ideal ⟨2, ![4096, 2048]⟩ .f32) : FVec Ideal ⟨2, ![1, 2048]⟩ .f32 := fun i => y2At z (i 1)

end Cert.Spec

end
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.Region0.lean ====
/-
  The first kernel region's output array: `a · w + bias`, whatever contents `V` the region is entered from.

  One block's arithmetic at an entry is a row of the first block against a column of the weights plus the bias;
  the first input's block at point `t` is rows `512 t … 512 t + 511` of its array, the weights' and the bias's
  blocks are their whole arrays; so point `t` writes back rows `512 t … 512 t + 511` of `a · w + bias`, and the
  eight points' blocks cover the 4096 rows.
-/
import proofs.«166182_j39599598469767_1_alg».proof.Proof.Gen.KernelIdeal.Frame
import proofs.«166182_j39599598469767_1_alg».proof.Proof.Spec
import proofs.«166182_j39599598469767_1_alg».proof.Proof.LibDot2
import Idealize.ShloMosaic.Lib.Pipeline.Value
import Idealize.ShloMosaic.Lib.ValueIdx
import Idealize.ShloMosaic.Lib.ValueLayout

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen

/-! ## The body's arithmetic at an entry -/

/-- The left operand's row coordinate is the output's row. -/
theorem lhs_row (i : S512x2048.Idx) (q : dot_S512x2048_S2048x2048_S512x2048_1_0_0_1_n_n.contr.Idx) :
    (dot_S512x2048_S2048x2048_S512x2048_1_0_0_1_n_n.lhsIdx i q 0).val = (i 0).val := by
  unfold DotDims.lhsIdx
  rw [dif_neg (show ¬(0 : Fin S512x2048.rank) ∈ dot_S512x2048_S2048x2048_S512x2048_1_0_0_1_n_n.lhsBatch by decide), dif_pos (show (0 : Fin S512x2048.rank) ∈ dot_S512x2048_S2048x2048_S512x2048_1_0_0_1_n_n.lhsNonContracting by decide)]
  rfl
/-- The left operand's column coordinate is the summation index. -/
theorem lhs_col (i : S512x2048.Idx) (q : dot_S512x2048_S2048x2048_S512x2048_1_0_0_1_n_n.contr.Idx) :
    (dot_S512x2048_S2048x2048_S512x2048_1_0_0_1_n_n.lhsIdx i q 1).val = (q ⟨0, by decide⟩).val :=
  dot_S512x2048_S2048x2048_S512x2048_1_0_0_1_n_n.lhsIdx_val_of_single rfl i q
/-- The right operand's row coordinate is the summation index. -/
theorem rhs_row (i : S512x2048.Idx) (q : dot_S512x2048_S2048x2048_S512x2048_1_0_0_1_n_n.contr.Idx) :
    (dot_S512x2048_S2048x2048_S512x2048_1_0_0_1_n_n.rhsIdx i q 0).val = (q ⟨0, by decide⟩).val :=
  dot_S512x2048_S2048x2048_S512x2048_1_0_0_1_n_n.rhsIdx_val_of_single rfl i q
/-- The right operand's column coordinate is the output's column. -/
theorem rhs_col (i : S512x2048.Idx) (q : dot_S512x2048_S2048x2048_S512x2048_1_0_0_1_n_n.contr.Idx) :
    (dot_S512x2048_S2048x2048_S512x2048_1_0_0_1_n_n.rhsIdx i q 1).val = (i 1).val := by
  unfold DotDims.rhsIdx
  rw [dif_neg (show ¬(1 : Fin S2048x2048.rank) ∈ dot_S512x2048_S2048x2048_S512x2048_1_0_0_1_n_n.rhsBatch by decide), dif_pos (show (1 : Fin S2048x2048.rank) ∈ dot_S512x2048_S2048x2048_S512x2048_1_0_0_1_n_n.rhsNonContracting by decide)]
  rfl

/-- One block's result at row `p`, column `q`: the row of the first block against the column of the weights, plus the bias. -/
theorem pay_apply (x0 : Vec Ideal S512x2048 .f32) (x1 : Vec Ideal S2048x2048 .bf16) (x2 : Vec Ideal S1x2048 .f32)
    (p : Fin 512) (q : Fin 2048) :
    k0_pay1 (F := Ideal) x0 x1 x2 (ix2 p q) = (∑ k : Fin 2048, x0 (ix2 p k) * x1 (ix2 k q)) + x2 (ix2 (0 : Fin 1) q) := by
  unfold k0_pay1
  rw [addf_apply, shapeCast_self, shapeCast_self, shapeCast_self, broadcastTo_1b_ab_apply]
  rw [Cert.Lib.Dot2.matmul_zero_ix2 dot_S512x2048_S2048x2048_S512x2048_1_0_0_1_n_n none rfl rfl lhs_row lhs_col rhs_row rhs_col]
  rfl

/-! ## One block of the result, over any three blocks read where the result's rows say -/

/-- The result's block whose rows start at row `r`: if the first block is rows `r … r + 511` of `a`, the second is all
    of `w` and the third is all of `b`, the body's result at `y` is `a · w + b` at row `r + y₀`, column `y₁`. -/
theorem pay_rows (a : FVec Ideal ⟨2, ![4096, 2048]⟩ .f32) (w : FVec Ideal ⟨2, ![2048, 2048]⟩ .bf16) (b : FVec Ideal ⟨2, ![1, 2048]⟩ .f32)
    (x0 : Vec Ideal S512x2048 .f32) (x1 : Vec Ideal S2048x2048 .bf16) (x2 : Vec Ideal S1x2048 .f32)
    (r : Nat) (hr : r + 512 ≤ 4096)
    (h0 : ∀ (p : Fin 512) (k : Fin 2048), x0 (ix2 p k) = a (ix2 (⟨r + p.val, by have := p.isLt; omega⟩ : Fin 4096) k))
    (h1 : x1 = w) (h2 : x2 = b)
    (y : S512x2048.Idx) (i : S4096x2048.Idx) (hi0 : (i 0).val = r + (y 0).val) (hi1 : (i 1).val = (y 1).val) :
    k0_pay1 (F := Ideal) x0 x1 x2 y = Cert.Spec.zArr a w b i := by
  obtain ⟨p, q, rfl⟩ : ∃ (p : Fin 512) (q : Fin 2048), y = ix2 p q := ⟨y 0, y 1, eq_ix2 y⟩
  rw [pay_apply, h1, h2]
  have e0 : i 0 = (⟨r + p.val, by have := p.isLt; omega⟩ : Fin 4096) := Fin.ext hi0
  have e1 : i 1 = q := Fin.ext hi1
  unfold Cert.Spec.zArr Cert.Spec.zAt
  rw [e0, e1]
  congr 1
  exact Finset.sum_congr rfl fun k _ => by rw [h0]

/-! ## The windows' blocks as parts of their arrays -/

/-- The zero offsets, as a constant function. -/
theorem hz : (![0, 0] : Fin 2 → Nat) = fun _ => 0 := funext fun a => by fin_cases a <;> rfl

/-- The printed index maps over the grid: the first input and the output move down one block of rows per point; the
    weights and the bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The region has eight points. -/
theorem lt_eight (t : Fin cfg0.N) : t.val < 8 := by
  have h : t.val < grid0.N := t.isLt
  rw [N_0] at h; exact h

variable (V : (c : Dev nD) → (b : Ref sig .tc) → Buf (Elt Ideal) ((c : Thread nD τ).loc b))

/-- The first input's block at point `t` is rows `512 t … 512 t + 511` of its array. -/
theorem iblk_a (c : Dev nD) (t : Fin cfg0.N) (p : Fin 512) (k : Fin 2048) :
    (iblk0 (F := Ideal) V c 0 t : Vec Ideal S512x2048 .f32) (ix2 p k)
      = (V c main_arg0 : S4096x2048.Idx → EReal) (ix2 (⟨512 * t.val + p.val, by have := lt_eight t; have := p.isLt; omega⟩ : Fin 4096) k) := by
  obtain ⟨e0, e1, -⟩ := idx_facts t
  unfold iblk0
  rw [View.read_apply]
  show V c main_arg0 (((cfg0.win 0).blk t).view.emb (ix2 p k)) = V c main_arg0 _
  congr 1
  funext d
  apply Fin.ext
  match d with
  | ⟨0, _⟩ => show win0_0.index t (0 : Fin 2) * 512 + 1 * p.val = 512 * t.val + p.val; omega
  | ⟨1, _⟩ => show win0_0.index t (1 : Fin 2) * 2048 + 1 * k.val = k.val; omega

/-- The weights' block at every point is the whole array. -/
theorem iblk_w (c : Dev nD) (t : Fin cfg0.N) :
    (iblk0 (F := Ideal) V c 1 t : Vec Ideal S2048x2048 .bf16) = (V c main_v27 : S2048x2048.Idx → EReal) := by
  obtain ⟨-, -, e0, e1, -⟩ := idx_facts t
  unfold iblk0
  funext y
  rw [View.read_apply]
  show V c main_v27 (((cfg0.win 1).blk t).view.emb y) = V c main_v27 y
  congr 1
  funext d
  apply Fin.ext
  match d with
  | ⟨0, _⟩ => show win0_1.index t (0 : Fin 2) * 2048 + 1 * (y 0).val = (y 0).val; omega
  | ⟨1, _⟩ => show win0_1.index t (1 : Fin 2) * 2048 + 1 * (y 1).val = (y 1).val; omega

/-- The bias's block at every point is the whole row. -/
theorem iblk_b (c : Dev nD) (t : Fin cfg0.N) :
    (iblk0 (F := Ideal) V c 2 t : Vec Ideal S1x2048 .f32) = (V c main_v30 : S1x2048.Idx → EReal) := by
  obtain ⟨-, -, -, -, e0, e1, -⟩ := idx_facts t
  unfold iblk0
  funext y
  rw [View.read_apply]
  show V c main_v30 (((cfg0.win 2).blk t).view.emb y) = V c main_v30 y
  congr 1
  funext d
  apply Fin.ext
  match d with
  | ⟨0, _⟩ => show win0_2.index t (0 : Fin 2) * 1 + 1 * (y 0).val = (y 0).val; omega
  | ⟨1, _⟩ => show win0_2.index t (1 : Fin 2) * 2048 + 1 * (y 1).val = (y 1).val; omega

/-! ## What each point writes back, and the whole array -/

/-- Point `t` writes back block `t` of `a · w + b`. -/
theorem flushed_z (c : Dev nD) (t : Fin cfg0.N) :
    (dat0 (F := Ideal) V c).flushed 3 t
      = ((cfg0.win 3).blk t).view.read (Elt Ideal) (Cert.Spec.zArr (V c main_arg0) (V c main_v27) (V c main_v30)) := by
  show (cfg0.win 3).cut (grid0.coords t) ((dat0 (F := Ideal) V c).after 3 t) = _
  rw [after0_3]
  unfold out0_3
  rw [View.canon_unit_zero hz]
  simp only [View.ld_unit_zero (S := S512x2048) hz, View.ld_unit_zero (S := S2048x2048) hz, View.ld_unit_zero (S := S1x2048) hz]
  obtain ⟨-, -, -, -, -, -, e0, e1⟩ := idx_facts t
  funext j
  show k0_pay1 (F := Ideal) (iblk0 V c 0 t) (iblk0 V c 1 t) (iblk0 V c 2 t) ((cfg0.win 3).xinj (grid0.coords t) j)
    = Cert.Spec.zArr (V c main_arg0) (V c main_v27) (V c main_v30) (((cfg0.win 3).blk t).view.emb j)
  refine pay_rows (V c main_arg0) (V c main_v27) (V c main_v30) _ _ _ (512 * t.val)
    (by have := lt_eight t; omega) (iblk_a V c t) (iblk_w V c t) (iblk_b V c t) _ _ ?_ ?_
  · show win0_3.index t (0 : Fin 2) * 512 + 1 * (j 0).val = 512 * t.val + (j 0).val; omega
  · show win0_3.index t (1 : Fin 2) * 2048 + 1 * (j 1).val = (j 1).val; omega

/-- An index of the array is in point `t`'s block iff each coordinate is in the block's range on its axis. -/
theorem mem_blk (t : Fin cfg0.N) (i : S4096x2048.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v39).slice (win0_3.rect t)).set ↔ _
  rw [View.set_slice_whole, Rect.mem_set_unit]
  exact Iff.rfl

/-- Row `r` of the array lies in the block of point `r / 512`. -/
theorem cover (i : S4096x2048.Idx) :
    ∃ t : Fin cfg0.N, (cfg0.win 3).flush t = true ∧ i ∈ ((cfg0.win 3).blk t).view.set := by
  have hi0 : (i 0).val < 4096 := (i 0).isLt
  have hi1 : (i 1).val < 2048 := (i 1).isLt
  refine ⟨⟨(i 0).val / 512, by have := N_0; show (i 0).val / 512 < grid0.N; omega⟩, flush0_3 _, ?_⟩
  rw [mem_blk]
  obtain ⟨-, -, -, -, -, -, e0, e1⟩ := idx_facts ⟨(i 0).val / 512, by have := N_0; show (i 0).val / 512 < grid0.N; omega⟩
  intro a
  match a with
  | ⟨0, _⟩ =>
    show win0_3.index _ (0 : Fin 2) * 512 ≤ (i 0).val ∧ (i 0).val < win0_3.index _ (0 : Fin 2) * 512 + 512
    rw [e0]; show (i 0).val / 512 * 512 ≤ (i 0).val ∧ (i 0).val < (i 0).val / 512 * 512 + 512; omega
  | ⟨1, _⟩ =>
    show win0_3.index _ (1 : Fin 2) * 2048 ≤ (i 1).val ∧ (i 1).val < win0_3.index _ (1 : Fin 2) * 2048 + 2048
    rw [e1]; omega

/-- After the region, its output array holds `a · w + bias` of the three input arrays as the region found them. -/
theorem arr_z (c : Dev nD) :
    (dat0 (F := Ideal) V c).arrAt 3 cfg0.N = Cert.Spec.zArr (V c main_arg0) (V c main_v27) (V c main_v30) :=
  (dat0 (F := Ideal) V c).arrAt_eq_of_cover 3 (Cert.Spec.zArr (V c main_arg0) (V c main_v27) (V c main_v30))
    (fun t _ => flushed_z V c t) cover

end Cert.KernelIdeal.Region0

end
-- ==== Proof.LibDotT.lean ====
/-
  A matrix product that contracts the FIRST axis of both operands, at the ideal instance, read at an entry.

  For two rank-2 operands of shapes [K, M] and [K, N] whose dimension numbers contract the first axis of each (the
  left operand enters transposed), the product into a zero accumulator is, at row `p` and column `j` of the [M, N]
  result, the plain sum over `a : Fin K` of `l (a, p) * r (a, j)` on the extended reals. The dimension numbers enter
  only through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.DotT

open Idealize.ShloMosaic Idealize.ShloMosaic.ValueIdx

/-- For operands of shapes `[K, M]` and `[K, N]` whose dimension numbers contract the FIRST axis of both (the left
    operand enters transposed), the contraction sum at row `p` and column `j` of the `[M, N]` result, re-indexed
    from the record's one-axis contraction index to `Fin K`, is `∑ a, l (a, p) * r (a, j)`. The dimension numbers
    enter only through four coordinate facts, which a caller proves for its own record. -/
theorem contraction_ix2 {M K N : Nat} (D : DotDims ⟨2, ![K, M]⟩ ⟨2, ![K, N]⟩ ⟨2, ![M, N]⟩)
    (hr : D.contr.rank = 1) (hs : D.contr.size ⟨0, by omega⟩ = K)
    (hl0 : ∀ i q, (D.lhsIdx i q 0).val = (q ⟨0, by omega⟩).val)
    (hl1 : ∀ i q, (D.lhsIdx i q 1).val = (i 0).val)
    (hr0 : ∀ i q, (D.rhsIdx i q 0).val = (q ⟨0, by omega⟩).val)
    (hr1 : ∀ i q, (D.rhsIdx i q 1).val = (i 1).val)
    (l : (⟨2, ![K, M]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 a p) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 a p := funext fun d => Fin.ext (by
    match d with
    | ⟨0, _⟩ => exact (hl0 _ _).trans hk
    | ⟨1, _⟩ => exact hl1 _ _)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- Such a product into the zero accumulator, at the ideal instance, read at `(p, j)`. -/
theorem matmul_zero_ix2 {M K N : Nat} {φ₁ φ₂ : FTy} (D : DotDims ⟨2, ![K, M]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (q ⟨0, by omega⟩).val)
    (hl1 : ∀ i q, (D.lhsIdx i q 1).val = (i 0).val)
    (hr0 : ∀ i q, (D.rhsIdx i q 0).val = (q ⟨0, by omega⟩).val)
    (hr1 : ∀ i q, (D.rhsIdx i q 1).val = (i 1).val)
    (l : FVec Ideal ⟨2, ![K, M]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 a p) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.DotT

end
-- ==== Proof.Region1.lean ====
/-
  The second kernel region's three output arrays: the correlation `aᵀ · z`, the column sums of `z` and of `z²`,
  accumulated over the eight row blocks of each column half, whatever contents `V` the region is entered from.
-/
import proofs.«166182_j39599598469767_1_alg».proof.Proof.Gen.KernelIdeal.Frame
import proofs.«166182_j39599598469767_1_alg».proof.Proof.Spec
import proofs.«166182_j39599598469767_1_alg».proof.Proof.LibDotT
import Idealize.ShloMosaic.Lib.Pipeline.Value
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen

/-! ## The body's arithmetic at an entry -/

/-- The product's dimension numbers: which coordinate of each operand is the output's and which is the contracted one. -/
theorem dotT_lhs_0 (i : S2048x1024.Idx) (q : dot_S512x2048_S512x1024_S2048x1024_0_0_1_1_n_n.contr.Idx) :
    (dot_S512x2048_S512x1024_S2048x1024_0_0_1_1_n_n.lhsIdx i q 0).val = (q ⟨0, by decide⟩).val :=
  dot_S512x2048_S512x1024_S2048x1024_0_0_1_1_n_n.lhsIdx_val_of_single rfl i q
theorem dotT_lhs_1 (i : S2048x1024.Idx) (q : dot_S512x2048_S512x1024_S2048x1024_0_0_1_1_n_n.contr.Idx) :
    (dot_S512x2048_S512x1024_S2048x1024_0_0_1_1_n_n.lhsIdx i q 1).val = (i 0).val := by
  unfold DotDims.lhsIdx
  rw [dif_neg (show ¬(1 : Fin S512x2048.rank) ∈ dot_S512x2048_S512x1024_S2048x1024_0_0_1_1_n_n.lhsBatch by decide), dif_pos (show (1 : Fin S512x2048.rank) ∈ dot_S512x2048_S512x1024_S2048x1024_0_0_1_1_n_n.lhsNonContracting by decide)]
  rfl
theorem dotT_rhs_0 (i : S2048x1024.Idx) (q : dot_S512x2048_S512x1024_S2048x1024_0_0_1_1_n_n.contr.Idx) :
    (dot_S512x2048_S512x1024_S2048x1024_0_0_1_1_n_n.rhsIdx i q 0).val = (q ⟨0, by decide⟩).val :=
  dot_S512x2048_S512x1024_S2048x1024_0_0_1_1_n_n.rhsIdx_val_of_single rfl i q
theorem dotT_rhs_1 (i : S2048x1024.Idx) (q : dot_S512x2048_S512x1024_S2048x1024_0_0_1_1_n_n.contr.Idx) :
    (dot_S512x2048_S512x1024_S2048x1024_0_0_1_1_n_n.rhsIdx i q 1).val = (i 1).val := by
  unfold DotDims.rhsIdx
  rw [dif_neg (show ¬(1 : Fin S512x1024.rank) ∈ dot_S512x2048_S512x1024_S2048x1024_0_0_1_1_n_n.rhsBatch by decide), dif_pos (show (1 : Fin S512x1024.rank) ∈ dot_S512x2048_S512x1024_S2048x1024_0_0_1_1_n_n.rhsNonContracting by decide)]
  rfl

/-- The three resets store zero. -/
theorem pay1_apply (y : S2048x1024.Idx) : k1_pay1 (F := Ideal) y = 0 := by
  show Ideal.ofBits .f32 0x00000000#32 = 0
  exact Ideal.ofBits_zero_f32
theorem pay2_apply (y : S1x1024.Idx) : k1_pay2 (F := Ideal) y = 0 := by
  show Ideal.ofBits .f32 0x00000000#32 = 0
  exact Ideal.ofBits_zero_f32
theorem pay3_apply (y : S1x1024.Idx) : k1_pay3 (F := Ideal) y = 0 := by
  show Ideal.ofBits .f32 0x00000000#32 = 0
  exact Ideal.ofBits_zero_f32

/-- The correlation update at `(k, j)`: the running entry plus `∑ r, a (r, k) * z (r, j)` over the block's 512 rows. -/
theorem pay5_apply (x0 : Vec Ideal S512x2048 .f32) (x1 : Vec Ideal S512x1024 .f32) (acc : Vec Ideal S2048x1024 .f32)
    (k : Fin 2048) (j : Fin 1024) :
    k1_pay5 (F := Ideal) x0 x1 acc (ix2 k j) = acc (ix2 k j) + ∑ r : Fin 512, x0 (ix2 r k) * x1 (ix2 r j) := by
  unfold k1_pay5 k1_pay4
  dsimp only
  rw [shapeCast_self, shapeCast_self]
  refine (addf_apply _ _ _).trans ?_
  refine congrArg (acc (ix2 k j) + ·) ?_
  exact Cert.Lib.DotT.matmul_zero_ix2 dot_S512x2048_S512x1024_S2048x1024_0_0_1_1_n_n none rfl rfl
    dotT_lhs_0 dotT_lhs_1 dotT_rhs_0 dotT_rhs_1 _ _ k j

/-- The column-sum update at `(0, j)`: the running entry plus `∑ r, z (r, j)` over the block's 512 rows. -/
theorem pay6_apply (x1 : Vec Ideal S512x1024 .f32) (acc : Vec Ideal S1x1024 .f32) (u : Fin 1) (j : Fin 1024) :
    k1_pay6 (F := Ideal) x1 acc (ix2 u j) = acc (ix2 u j) + ∑ r : Fin 512, x1 (ix2 r j) := by
  unfold k1_pay6 k1_pay4
  dsimp only
  rw [shapeCast_self, shapeCast_self]
  refine (addf_apply _ _ _).trans ?_
  refine congrArg (acc (ix2 u j) + ·) ?_
  refine (shapeCast_a_1a_apply _ _ u j).trans ?_
  refine (Ideal.multiReduction_add_single _ _ _ _ _ _).trans ?_
  refine Finset.sum_congr rfl fun r _ => congrArg x1 ?_
  exact funext fun d => Fin.ext (by match d with | ⟨0, _⟩ => rfl | ⟨1, _⟩ => rfl)

/-- The squares' update at `(0, j)`: the running entry plus `∑ r, z (r, j)²` over the block's 512 rows. -/
theorem pay7_apply (x1 : Vec Ideal S512x1024 .f32) (acc : Vec Ideal S1x1024 .f32) (u : Fin 1) (j : Fin 1024) :
    k1_pay7 (F := Ideal) x1 acc (ix2 u j) = acc (ix2 u j) + ∑ r : Fin 512, x1 (ix2 r j) * x1 (ix2 r j) := by
  unfold k1_pay7 k1_pay4
  dsimp only
  rw [shapeCast_self, shapeCast_self]
  refine (addf_apply _ _ _).trans ?_
  refine congrArg (acc (ix2 u j) + ·) ?_
  refine (shapeCast_a_1a_apply _ _ u j).trans ?_
  refine (Ideal.multiReduction_add_single _ _ _ _ _ _).trans ?_
  refine Finset.sum_congr rfl fun r _ => ?_
  refine (mulf_apply _ _ _).trans ?_
  have e : reduces_S512x1024_S1024.lift (ix1 j) r = ix2 r j :=
    funext fun d => Fin.ext (by match d with | ⟨0, _⟩ => rfl | ⟨1, _⟩ => rfl)
  exact congrArg (fun y => x1 y * x1 y) e

/-! ## What each case leaves in the three running blocks

At a block's first row block the body resets the three outputs to zero and then updates them; elsewhere it updates what
the point before left. Each output's last store covers its whole staging buffer, so what the case leaves is that store's
payload, its loads reading the whole buffers. -/

section Pieces
variable {F : FTy → Type} [FloatOps F]

/-- The zero offsets of a whole-buffer load or store. -/
theorem hz : (![0, 0] : Fin 2 → Nat) = fun _ => 0 := funext fun a => by fin_cases a <;> rfl

theorem outB_2 (c : Dev nD) (i : grid1.Coords) (a2 : Memref sig .tc .vmem S512x2048 .f32) (h2 : a2.IsWhole) (a3 : Memref sig .tc .vmem S512x1024 .f32) (h3 : a3.IsWhole) (a4 : Memref sig .tc .vmem S2048x1024 .f32) (h4 : a4.IsWhole) (a5 : Memref sig .tc .vmem S1x1024 .f32) (h5 : a5.IsWhole) (a6 : Memref sig .tc .vmem S1x1024 .f32) (h6 : a6.IsWhole) (hc : ¬cond1_0 i)
    (x0 : Vec F S512x2048 .f32) (x1 : Vec F S512x1024 .f32) (xo2 : Vec F S2048x1024 .f32) (xo3 : Vec F S1x1024 .f32) (xo4 : Vec F S1x1024 .f32) :
    out1_B_2 c i a2 h2 a3 h3 a4 h4 a5 h5 a6 h6 hc x0 x1 xo2 xo3 xo4 = k1_pay5 x0 x1 xo2 := by
  unfold out1_B_2
  rw [View.read_writes_eq_canon _ _ _ (cover1_B_2 c i a2 h2 a3 h3 a4 h4 a5 h5 a6 h6 hc x0 x1 xo2 xo3 xo4)]
  unfold kernelRun1_B
  dsimp only
  sl_unfold_words
  rw [View.canon_unit_zero hz]
  simp only [View.readAt_eq_ld, h2.read_unread, h3.read_unread, h4.read_unread, View.ld_unit_zero (S := S512x2048) hz, View.ld_unit_zero (S := S512x1024) hz, View.ld_unit_zero (S := S2048x1024) hz]

theorem outB_3 (c : Dev nD) (i : grid1.Coords) (a2 : Memref sig .tc .vmem S512x2048 .f32) (h2 : a2.IsWhole) (a3 : Memref sig .tc .vmem S512x1024 .f32) (h3 : a3.IsWhole) (a4 : Memref sig .tc .vmem S2048x1024 .f32) (h4 : a4.IsWhole) (a5 : Memref sig .tc .vmem S1x1024 .f32) (h5 : a5.IsWhole) (a6 : Memref sig .tc .vmem S1x1024 .f32) (h6 : a6.IsWhole) (hc : ¬cond1_0 i)
    (x0 : Vec F S512x2048 .f32) (x1 : Vec F S512x1024 .f32) (xo2 : Vec F S2048x1024 .f32) (xo3 : Vec F S1x1024 .f32) (xo4 : Vec F S1x1024 .f32) :
    out1_B_3 c i a2 h2 a3 h3 a4 h4 a5 h5 a6 h6 hc x0 x1 xo2 xo3 xo4 = k1_pay6 x1 xo3 := by
  unfold out1_B_3
  rw [View.read_writes_eq_canon _ _ _ (cover1_B_3 c i a2 h2 a3 h3 a4 h4 a5 h5 a6 h6 hc x0 x1 xo2 xo3 xo4)]
  unfold kernelRun1_B
  dsimp only
  sl_unfold_words
  rw [View.canon_unit_zero hz]
  simp only [View.readAt_eq_ld, h3.read_unread, h5.read_unread, View.ld_unit_zero (S := S512x1024) hz, View.ld_unit_zero (S := S1x1024) hz]

theorem outB_4 (c : Dev nD) (i : grid1.Coords) (a2 : Memref sig .tc .vmem S512x2048 .f32) (h2 : a2.IsWhole) (a3 : Memref sig .tc .vmem S512x1024 .f32) (h3 : a3.IsWhole) (a4 : Memref sig .tc .vmem S2048x1024 .f32) (h4 : a4.IsWhole) (a5 : Memref sig .tc .vmem S1x1024 .f32) (h5 : a5.IsWhole) (a6 : Memref sig .tc .vmem S1x1024 .f32) (h6 : a6.IsWhole) (hc : ¬cond1_0 i)
    (x0 : Vec F S512x2048 .f32) (x1 : Vec F S512x1024 .f32) (xo2 : Vec F S2048x1024 .f32) (xo3 : Vec F S1x1024 .f32) (xo4 : Vec F S1x1024 .f32) :
    out1_B_4 c i a2 h2 a3 h3 a4 h4 a5 h5 a6 h6 hc x0 x1 xo2 xo3 xo4 = k1_pay7 x1 xo4 := by
  unfold out1_B_4
  rw [View.read_writes_eq_canon _ _ _ (cover1_B_4 c i a2 h2 a3 h3 a4 h4 a5 h5 a6 h6 hc x0 x1 xo2 xo3 xo4)]
  unfold kernelRun1_B
  dsimp only
  sl_unfold_words
  rw [View.canon_unit_zero hz]
  simp only [View.readAt_eq_ld, h3.read_unread, h6.read_unread, View.ld_unit_zero (S := S512x1024) hz, View.ld_unit_zero (S := S1x1024) hz]

theorem outA_2 (c : Dev nD) (i : grid1.Coords) (a2 : Memref sig .tc .vmem S512x2048 .f32) (h2 : a2.IsWhole) (a3 : Memref sig .tc .vmem S512x1024 .f32) (h3 : a3.IsWhole) (a4 : Memref sig .tc .vmem S2048x1024 .f32) (h4 : a4.IsWhole) (a5 : Memref sig .tc .vmem S1x1024 .f32) (h5 : a5.IsWhole) (a6 : Memref sig .tc .vmem S1x1024 .f32) (h6 : a6.IsWhole) (hc : cond1_0 i)
    (x0 : Vec F S512x2048 .f32) (x1 : Vec F S512x1024 .f32) :
    out1_A_2 c i a2 h2 a3 h3 a4 h4 a5 h5 a6 h6 hc x0 x1 = k1_pay5 x0 x1 (k1_pay1 (F := F)) := by
  unfold out1_A_2
  rw [View.read_writes_eq_canon _ _ _ (cover1_A_2 c i a2 h2 a3 h3 a4 h4 a5 h5 a6 h6 hc x0 x1)]
  unfold kernelRun1_A
  dsimp only
  sl_unfold_words
  rw [View.canon_cons_unit_zero (S := S2048x1024) hz, View.readCov_unit_zero (S := S2048x1024) _ hz]
  simp only [View.readAt_eq_ld, h2.read_unread, h3.read_unread, View.ld_unit_zero (S := S512x2048) hz, View.ld_unit_zero (S := S512x1024) hz]

theorem outA_3 (c : Dev nD) (i : grid1.Coords) (a2 : Memref sig .tc .vmem S512x2048 .f32) (h2 : a2.IsWhole) (a3 : Memref sig .tc .vmem S512x1024 .f32) (h3 : a3.IsWhole) (a4 : Memref sig .tc .vmem S2048x1024 .f32) (h4 : a4.IsWhole) (a5 : Memref sig .tc .vmem S1x1024 .f32) (h5 : a5.IsWhole) (a6 : Memref sig .tc .vmem S1x1024 .f32) (h6 : a6.IsWhole) (hc : cond1_0 i)
    (x0 : Vec F S512x2048 .f32) (x1 : Vec F S512x1024 .f32) :
    out1_A_3 c i a2 h2 a3 h3 a4 h4 a5 h5 a6 h6 hc x0 x1 = k1_pay6 x1 (k1_pay2 (F := F)) := by
  unfold out1_A_3
  rw [View.read_writes_eq_canon _ _ _ (cover1_A_3 c i a2 h2 a3 h3 a4 h4 a5 h5 a6 h6 hc x0 x1)]
  unfold kernelRun1_A
  dsimp only
  sl_unfold_words
  rw [View.canon_cons_unit_zero (S := S1x1024) hz, View.readCov_unit_zero (S := S1x1024) _ hz]
  simp only [View.readAt_eq_ld, h3.read_unread, View.ld_unit_zero (S := S512x1024) hz]

theorem outA_4 (c : Dev nD) (i : grid1.Coords) (a2 : Memref sig .tc .vmem S512x2048 .f32) (h2 : a2.IsWhole) (a3 : Memref sig .tc .vmem S512x1024 .f32) (h3 : a3.IsWhole) (a4 : Memref sig .tc .vmem S2048x1024 .f32) (h4 : a4.IsWhole) (a5 : Memref sig .tc .vmem S1x1024 .f32) (h5 : a5.IsWhole) (a6 : Memref sig .tc .vmem S1x1024 .f32) (h6 : a6.IsWhole) (hc : cond1_0 i)
    (x0 : Vec F S512x2048 .f32) (x1 : Vec F S512x1024 .f32) :
    out1_A_4 c i a2 h2 a3 h3 a4 h4 a5 h5 a6 h6 hc x0 x1 = k1_pay7 x1 (k1_pay3 (F := F)) := by
  unfold out1_A_4
  rw [View.read_writes_eq_canon _ _ _ (cover1_A_4 c i a2 h2 a3 h3 a4 h4 a5 h5 a6 h6 hc x0 x1)]
  unfold kernelRun1_A
  dsimp only
  sl_unfold_words
  rw [View.canon_cons_unit_zero (S := S1x1024) hz, View.readCov_unit_zero (S := S1x1024) _ hz]
  simp only [View.readAt_eq_ld, h3.read_unread, View.ld_unit_zero (S := S512x1024) hz]

end Pieces

/-! ## Partial sums over the sample rows -/

section Rows

/-- A function of the 4096 sample rows as a function of the row NUMBER, zero past the last row: partial sums over
    the first `n` rows are then sums over `Finset.range n`. -/
def rows (f : Fin 4096 → EReal) (e : ℕ) : EReal := if h : e < 4096 then f ⟨e, h⟩ else 0

/-- Over all 4096 row numbers it is the sum over the rows. -/
theorem rows_total (f : Fin 4096 → EReal) : ∑ e ∈ Finset.range 4096, rows f e = ∑ e : Fin 4096, f e := by
  rw [Finset.sum_range]
  exact Finset.sum_congr rfl fun e _ => dif_pos e.isLt

/-- One more row block: the partial sum over the first `eb` blocks of 512 rows, plus block `eb`'s 512 terms, is the
    partial sum over the first `eb + 1` blocks. -/
theorem rows_step (f : Fin 4096 → EReal) (eb : ℕ) (heb : eb < 8) (acc : EReal) (g : Fin 512 → EReal)
    (hacc : acc = ∑ e ∈ Finset.range (512 * eb), rows f e)
    (hg : ∀ r : Fin 512, g r = f ⟨512 * eb + r.val, by have := r.isLt; omega⟩) :
    acc + ∑ r : Fin 512, g r = ∑ e ∈ Finset.range (512 * (eb + 1)), rows f e := by
  rw [hacc, Nat.mul_succ, Finset.sum_range_add, Finset.sum_range (fun x => rows f (512 * eb + x))]
  refine congrArg (_ + ·) (Finset.sum_congr rfl fun r _ => ?_)
  rw [hg r]
  unfold rows
  rw [dif_pos (show 512 * eb + r.val < 4096 by have := r.isLt; omega)]

end Rows

/-! ## The region's arrays and blocks -/

variable (V : (c : Dev nD) → (b : Ref sig .tc) → Buf (Elt Ideal) ((c : Thread nD τ).loc b))

/-- The samples `a` and the first region's result `z`, as the region finds them. -/
abbrev aArr (c : Dev nD) : Vec Ideal S4096x2048 .f32 := V c main_arg0
abbrev zArr (c : Dev nD) : Vec Ideal S4096x2048 .f32 := V c main_v39
/-- Their blocks at point `t`: 512 rows of `a`; the same rows of `z`, in one half of the columns. -/
abbrev aBlk (c : Dev nD) (t : Fin cfg1.N) : Vec Ideal S512x2048 .f32 := iblk1 V c 0 t
abbrev zBlk (c : Dev nD) (t : Fin cfg1.N) : Vec Ideal S512x1024 .f32 := iblk1 V c 1 t

/-- The windows' index maps over the grid: point `t` is row block `t % 8` of column half `t / 8`. -/
theorem idx_facts : ∀ t : Fin cfg1.N,
    win1_0.index t (0 : Fin 2) = t.val % 8 ∧ win1_0.index t (1 : Fin 2) = 0
    ∧ win1_1.index t (0 : Fin 2) = t.val % 8 ∧ win1_1.index t (1 : Fin 2) = t.val / 8
    ∧ win1_2.index t (0 : Fin 2) = 0 ∧ win1_2.index t (1 : Fin 2) = t.val / 8
    ∧ win1_3.index t (0 : Fin 2) = 0 ∧ win1_3.index t (1 : Fin 2) = t.val / 8
    ∧ win1_4.index t (0 : Fin 2) = 0 ∧ win1_4.index t (1 : Fin 2) = t.val / 8 :=
  (by decide +kernel : ∀ t : Fin grid1.N, _)

/-- Row `r` of `a`'s block at point `t` is row `512 (t % 8) + r` of `a`. -/
theorem aBlk_apply (c : Dev nD) (t : Fin cfg1.N) (r : Fin 512) (k : Fin 2048) :
    aBlk V c t (ix2 r k) = aArr V c (ix2 ⟨512 * (t.val % 8) + r.val, by have := r.isLt; omega⟩ k) := by
  show iblk1 V c 0 t (ix2 r k) = V c main_arg0 _
  unfold iblk1
  rw [View.read_apply]
  show V c main_arg0 _ = V c main_arg0 _
  refine congrArg (V c main_arg0) (funext fun a => Fin.ext ?_)
  match a with
  | ⟨0, _⟩ => show win1_0.index t (0 : Fin 2) * 512 + 1 * r.val = 512 * (t.val % 8) + r.val
              rw [(idx_facts t).1]; omega
  | ⟨1, _⟩ => show win1_0.index t (1 : Fin 2) * 2048 + 1 * k.val = k.val
              rw [(idx_facts t).2.1]; omega

/-- Entry `(r, j)` of `z`'s block at point `t` is `z` at row `512 (t % 8) + r` and column `1024 (t / 8) + j`. -/
theorem zBlk_apply (c : Dev nD) (t : Fin cfg1.N) (r : Fin 512) (j : Fin 1024) (q : Fin 2048)
    (hq : q.val = 1024 * (t.val / 8) + j.val) :
    zBlk V c t (ix2 r j) = zArr V c (ix2 ⟨512 * (t.val % 8) + r.val, by have := r.isLt; omega⟩ q) := by
  show iblk1 V c 1 t (ix2 r j) = V c main_v39 _
  unfold iblk1
  rw [View.read_apply]
  show V c main_v39 _ = V c main_v39 _
  refine congrArg (V c main_v39) (funext fun a => Fin.ext ?_)
  match a with
  | ⟨0, _⟩ => show win1_1.index t (0 : Fin 2) * 512 + 1 * r.val = 512 * (t.val % 8) + r.val
              rw [(idx_facts t).2.2.1]; omega
  | ⟨1, _⟩ => show win1_1.index t (1 : Fin 2) * 1024 + 1 * j.val = q.val
              rw [(idx_facts t).2.2.2.1, hq]; omega

/-! ## The invariant: after each point the running blocks hold the partial sums over the rows so far -/

/-! ### The column sums of `z` -/

/-- At a column half's first row block the body leaves, in column `j`, the first 512 rows' sum. -/
theorem cs_A (c : Dev nD) (t : Fin cfg1.N) (h0 : t.val % 8 = 0) (u : Fin 1) (j : Fin 1024) (q : Fin 2048)
    (hq : q.val = 1024 * (t.val / 8) + j.val) :
    (outsAt1 V c t.val t.isLt).2.1 (ix2 u j)
      = ∑ e ∈ Finset.range (512 * (t.val % 8 + 1)), rows (fun e => zArr V c (ix2 e q)) e := by
  rw [outsAt1_A V c t h0]
  dsimp only
  refine (congrFun (outA_3 (F := Ideal) c (grid1.coords t) (ms1_0 t) (hs1_0 t) (ms1_1 t) (hs1_1 t) (ms1_2 t) (hs1_2 t) (ms1_3 t) (hs1_3 t) (ms1_4 t) (hs1_4 t) ((hcond1_0 t).mpr h0) (aBlk V c t) (zBlk V c t)) (ix2 u j)).trans ?_
  refine (pay6_apply (zBlk V c t) (k1_pay2 (F := Ideal)) u j).trans ?_
  refine rows_step (fun e => zArr V c (ix2 e q)) (t.val % 8) (Nat.mod_lt _ (by decide)) _ (fun r => zBlk V c t (ix2 r j)) ?_ (fun r => zBlk_apply V c t r j q hq)
  rw [h0, Nat.mul_zero, Finset.range_zero, Finset.sum_empty]
  exact pay2_apply _

/-- At a later row block it adds that block's 512 rows to what the point before left. -/
theorem cs_B (c : Dev nD) (t : Fin cfg1.N) (h0 : ¬t.val % 8 = 0) (u : Fin 1) (j : Fin 1024) (q : Fin 2048)
    (hq : q.val = 1024 * (t.val / 8) + j.val)
    (ih : (outsAt1 V c (t.val - 1) (Nat.lt_of_le_of_lt (Nat.sub_le _ _) t.isLt)).2.1 (ix2 u j)
      = ∑ e ∈ Finset.range (512 * ((t.val - 1) % 8 + 1)), rows (fun e => zArr V c (ix2 e q)) e) :
    (outsAt1 V c t.val t.isLt).2.1 (ix2 u j)
      = ∑ e ∈ Finset.range (512 * (t.val % 8 + 1)), rows (fun e => zArr V c (ix2 e q)) e := by
  have e8 : (t.val - 1) % 8 + 1 = t.val % 8 := by omega
  rw [outsAt1_B V c t h0]
  dsimp only
  refine (congrFun (outB_3 (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (aBlk V c t) (zBlk V c t)
    (outsAt1 V c (t.val - 1) (Nat.lt_of_le_of_lt (Nat.sub_le _ _) t.isLt)).1
    (outsAt1 V c (t.val - 1) (Nat.lt_of_le_of_lt (Nat.sub_le _ _) t.isLt)).2.1
    (outsAt1 V c (t.val - 1) (Nat.lt_of_le_of_lt (Nat.sub_le _ _) t.isLt)).2.2) (ix2 u j)).trans ?_
  refine (pay6_apply (zBlk V c t) (outsAt1 V c (t.val - 1) (Nat.lt_of_le_of_lt (Nat.sub_le _ _) t.isLt)).2.1 u j).trans ?_
  refine rows_step (fun e => zArr V c (ix2 e q)) (t.val % 8) (Nat.mod_lt _ (by decide)) _ (fun r => zBlk V c t (ix2 r j)) ?_ (fun r => zBlk_apply V c t r j q hq)
  rw [ih, e8]

/-- After point `n` the running block holds, in column `j`, the sum over the first `512 (n % 8 + 1)` rows of column
    `1024 (n / 8) + j` of `z`. -/
theorem cs_inv (c : Dev nD) : ∀ (n : ℕ) (h : n < cfg1.N) (u : Fin 1) (j : Fin 1024) (q : Fin 2048),
    q.val = 1024 * (n / 8) + j.val →
    (outsAt1 V c n h).2.1 (ix2 u j) = ∑ e ∈ Finset.range (512 * (n % 8 + 1)), rows (fun e => zArr V c (ix2 e q)) e := by
  intro n
  induction n with
  | zero => intro h u j q hq; exact cs_A V c ⟨0, h⟩ rfl u j q hq
  | succ n ih =>
    intro h u j q hq
    by_cases h0 : (n + 1) % 8 = 0
    · exact cs_A V c ⟨n + 1, h⟩ h0 u j q hq
    · exact cs_B V c ⟨n + 1, h⟩ h0 u j q hq (ih (Nat.lt_of_succ_lt h) u j q (by omega))

/-- At a point that writes back (the last row block of its column half) the running block holds the sums over all rows. -/
theorem cs_block (c : Dev nD) (t : Fin cfg1.N) (h7 : t.val % 8 = 7) (y : S1x1024.Idx) (i : S1x2048.Idx)
    (hi : (i 1).val = 1024 * (t.val / 8) + (y 1).val) :
    (outsAt1 V c t.val t.isLt).2.1 y = Cert.Spec.csArr (zArr V c) i := by
  obtain ⟨u, j, rfl⟩ : ∃ (u : Fin 1) (j : Fin 1024), y = ix2 u j := ⟨y 0, y 1, eq_ix2 y⟩
  rw [cs_inv V c t.val t.isLt u j (i 1) hi, h7]
  show ∑ e ∈ Finset.range 4096, _ = Cert.Spec.csAt (zArr V c) (i 1)
  unfold Cert.Spec.csAt
  exact rows_total _

/-- An index is in point `t`'s block of the output iff each coordinate is in the block's range on its axis. -/
theorem cs_mem_blk (t : Fin cfg1.N) (i : S1x2048.Idx) :
    i ∈ ((cfg1.win 3).blk t).view.set ↔ ∀ a : Fin 2, win1_3.index t a * S1x1024.size a ≤ (i a).val ∧ (i a).val < win1_3.index t a * S1x1024.size a + S1x1024.size a := by
  show i ∈ ((View.whole main_v40_1).slice (win1_3.rect t)).set ↔ _
  rw [View.set_slice_whole, Rect.mem_set_unit]
  exact Iff.rfl

/-- What a write-back writes is the block of the whole-array function. -/
theorem cs_flushed (c : Dev nD) (t : Fin cfg1.N) (hf : (cfg1.win 3).flush t = true) :
    (dat1 V c).flushed 3 t = ((cfg1.win 3).blk t).view.read (Elt Ideal) (Cert.Spec.csArr (zArr V c)) := by
  have h7 : t.val % 8 = 7 := (flush1_3 t).mp hf
  show (cfg1.win 3).cut (grid1.coords t) ((dat1 V c).after 3 t) = _
  rw [after1_3]
  funext y
  show (outsAt1 V c t.val t.isLt).2.1 y = Cert.Spec.csArr (zArr V c) (((cfg1.win 3).blk t).view.emb y)
  refine cs_block V c t h7 y _ ?_
  show win1_3.index t (1 : Fin 2) * 1024 + 1 * (y 1).val = 1024 * (t.val / 8) + (y 1).val
  rw [(idx_facts t).2.2.2.2.2.2.2.1]; omega

/-- Column `n` lies in column half `n / 1024`, written back at that half's last row block. -/
theorem cs_cover (i : S1x2048.Idx) : ∃ t : Fin cfg1.N, (cfg1.win 3).flush t = true ∧ i ∈ ((cfg1.win 3).blk t).view.set := by
  have hi0 : (i 0).val < 1 := (i 0).isLt
  have hi1 : (i 1).val < 2048 := (i 1).isLt
  have ht : 8 * ((i 1).val / 1024) + 7 < cfg1.N := by rw [show cfg1.N = 16 from N_1]; omega
  refine ⟨⟨8 * ((i 1).val / 1024) + 7, ht⟩, (flush1_3 _).mpr (by show (8 * ((i 1).val / 1024) + 7) % 8 = 7; omega), ?_⟩
  rw [cs_mem_blk]
  have e0 := (idx_facts (⟨8 * ((i 1).val / 1024) + 7, ht⟩ : Fin cfg1.N)).2.2.2.2.2.2.1
  have e1 := (idx_facts (⟨8 * ((i 1).val / 1024) + 7, ht⟩ : Fin cfg1.N)).2.2.2.2.2.2.2.1
  intro a
  match a with
  | ⟨0, _⟩ => show win1_3.index ⟨8 * ((i 1).val / 1024) + 7, ht⟩ (0 : Fin 2) * 1 ≤ (i 0).val ∧ (i 0).val < win1_3.index ⟨8 * ((i 1).val / 1024) + 7, ht⟩ (0 : Fin 2) * 1 + 1
              rw [e0]; omega
  | ⟨1, _⟩ => show win1_3.index ⟨8 * ((i 1).val / 1024) + 7, ht⟩ (1 : Fin 2) * 1024 ≤ (i 1).val ∧ (i 1).val < win1_3.index ⟨8 * ((i 1).val / 1024) + 7, ht⟩ (1 : Fin 2) * 1024 + 1024
              rw [e1]; show (8 * ((i 1).val / 1024) + 7) / 8 * 1024 ≤ (i 1).val ∧ (i 1).val < (8 * ((i 1).val / 1024) + 7) / 8 * 1024 + 1024; omega

/-- After the region, its second output array holds the column sums of `z`. -/
theorem arr_cs (c : Dev nD) :
    (dat1 (F := Ideal) V c).arrAt 3 cfg1.N = Cert.Spec.csArr (V c main_v39) :=
  (dat1 V c).arrAt_eq_of_cover 3 (Cert.Spec.csArr (zArr V c)) (cs_flushed V c) cs_cover

/-! ### The column sums of `z²` -/

/-- At a column half's first row block the body leaves, in column `j`, the first 512 rows' sum of squares. -/
theorem y2_A (c : Dev nD) (t : Fin cfg1.N) (h0 : t.val % 8 = 0) (u : Fin 1) (j : Fin 1024) (q : Fin 2048)
    (hq : q.val = 1024 * (t.val / 8) + j.val) :
    (outsAt1 V c t.val t.isLt).2.2 (ix2 u j)
      = ∑ e ∈ Finset.range (512 * (t.val % 8 + 1)), rows (fun e => zArr V c (ix2 e q) * zArr V c (ix2 e q)) e := by
  rw [outsAt1_A V c t h0]
  dsimp only
  refine (congrFun (outA_4 (F := Ideal) c (grid1.coords t) (ms1_0 t) (hs1_0 t) (ms1_1 t) (hs1_1 t) (ms1_2 t) (hs1_2 t) (ms1_3 t) (hs1_3 t) (ms1_4 t) (hs1_4 t) ((hcond1_0 t).mpr h0) (aBlk V c t) (zBlk V c t)) (ix2 u j)).trans ?_
  refine (pay7_apply (zBlk V c t) (k1_pay3 (F := Ideal)) u j).trans ?_
  refine rows_step (fun e => zArr V c (ix2 e q) * zArr V c (ix2 e q)) (t.val % 8) (Nat.mod_lt _ (by decide)) _ (fun r => zBlk V c t (ix2 r j) * zBlk V c t (ix2 r j)) ?_ (fun r => congrArg (fun x => x * x) (zBlk_apply V c t r j q hq))
  rw [h0, Nat.mul_zero, Finset.range_zero, Finset.sum_empty]
  exact pay3_apply _

/-- At a later row block it adds that block's 512 squares to what the point before left. -/
theorem y2_B (c : Dev nD) (t : Fin cfg1.N) (h0 : ¬t.val % 8 = 0) (u : Fin 1) (j : Fin 1024) (q : Fin 2048)
    (hq : q.val = 1024 * (t.val / 8) + j.val)
    (ih : (outsAt1 V c (t.val - 1) (Nat.lt_of_le_of_lt (Nat.sub_le _ _) t.isLt)).2.2 (ix2 u j)
      = ∑ e ∈ Finset.range (512 * ((t.val - 1) % 8 + 1)), rows (fun e => zArr V c (ix2 e q) * zArr V c (ix2 e q)) e) :
    (outsAt1 V c t.val t.isLt).2.2 (ix2 u j)
      = ∑ e ∈ Finset.range (512 * (t.val % 8 + 1)), rows (fun e => zArr V c (ix2 e q) * zArr V c (ix2 e q)) e := by
  have e8 : (t.val - 1) % 8 + 1 = t.val % 8 := by omega
  rw [outsAt1_B V c t h0]
  dsimp only
  refine (congrFun (outB_4 (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (aBlk V c t) (zBlk V c t)
    (outsAt1 V c (t.val - 1) (Nat.lt_of_le_of_lt (Nat.sub_le _ _) t.isLt)).1
    (outsAt1 V c (t.val - 1) (Nat.lt_of_le_of_lt (Nat.sub_le _ _) t.isLt)).2.1
    (outsAt1 V c (t.val - 1) (Nat.lt_of_le_of_lt (Nat.sub_le _ _) t.isLt)).2.2) (ix2 u j)).trans ?_
  refine (pay7_apply (zBlk V c t) (outsAt1 V c (t.val - 1) (Nat.lt_of_le_of_lt (Nat.sub_le _ _) t.isLt)).2.2 u j).trans ?_
  refine rows_step (fun e => zArr V c (ix2 e q) * zArr V c (ix2 e q)) (t.val % 8) (Nat.mod_lt _ (by decide)) _ (fun r => zBlk V c t (ix2 r j) * zBlk V c t (ix2 r j)) ?_ (fun r => congrArg (fun x => x * x) (zBlk_apply V c t r j q hq))
  rw [ih, e8]

/-- After point `n` the running block holds, in column `j`, the sum over the first `512 (n % 8 + 1)` rows of the squares
    of column `1024 (n / 8) + j` of `z`. -/
theorem y2_inv (c : Dev nD) : ∀ (n : ℕ) (h : n < cfg1.N) (u : Fin 1) (j : Fin 1024) (q : Fin 2048),
    q.val = 1024 * (n / 8) + j.val →
    (outsAt1 V c n h).2.2 (ix2 u j) = ∑ e ∈ Finset.range (512 * (n % 8 + 1)), rows (fun e => zArr V c (ix2 e q) * zArr V c (ix2 e q)) e := by
  intro n
  induction n with
  | zero => intro h u j q hq; exact y2_A V c ⟨0, h⟩ rfl u j q hq
  | succ n ih =>
    intro h u j q hq
    by_cases h0 : (n + 1) % 8 = 0
    · exact y2_A V c ⟨n + 1, h⟩ h0 u j q hq
    · exact y2_B V c ⟨n + 1, h⟩ h0 u j q hq (ih (Nat.lt_of_succ_lt h) u j q (by omega))

/-- At a point that writes back (the last row block of its column half) the running block holds the sums over all rows. -/
theorem y2_block (c : Dev nD) (t : Fin cfg1.N) (h7 : t.val % 8 = 7) (y : S1x1024.Idx) (i : S1x2048.Idx)
    (hi : (i 1).val = 1024 * (t.val / 8) + (y 1).val) :
    (outsAt1 V c t.val t.isLt).2.2 y = Cert.Spec.y2Arr (zArr V c) i := by
  obtain ⟨u, j, rfl⟩ : ∃ (u : Fin 1) (j : Fin 1024), y = ix2 u j := ⟨y 0, y 1, eq_ix2 y⟩
  rw [y2_inv V c t.val t.isLt u j (i 1) hi, h7]
  show ∑ e ∈ Finset.range 4096, _ = Cert.Spec.y2At (zArr V c) (i 1)
  unfold Cert.Spec.y2At
  exact rows_total _

/-- An index is in point `t`'s block of the output iff each coordinate is in the block's range on its axis. -/
theorem y2_mem_blk (t : Fin cfg1.N) (i : S1x2048.Idx) :
    i ∈ ((cfg1.win 4).blk t).view.set ↔ ∀ a : Fin 2, win1_4.index t a * S1x1024.size a ≤ (i a).val ∧ (i a).val < win1_4.index t a * S1x1024.size a + S1x1024.size a := by
  show i ∈ ((View.whole main_v40_2).slice (win1_4.rect t)).set ↔ _
  rw [View.set_slice_whole, Rect.mem_set_unit]
  exact Iff.rfl

/-- What a write-back writes is the block of the whole-array function. -/
theorem y2_flushed (c : Dev nD) (t : Fin cfg1.N) (hf : (cfg1.win 4).flush t = true) :
    (dat1 V c).flushed 4 t = ((cfg1.win 4).blk t).view.read (Elt Ideal) (Cert.Spec.y2Arr (zArr V c)) := by
  have h7 : t.val % 8 = 7 := (flush1_4 t).mp hf
  show (cfg1.win 4).cut (grid1.coords t) ((dat1 V c).after 4 t) = _
  rw [after1_4]
  funext y
  show (outsAt1 V c t.val t.isLt).2.2 y = Cert.Spec.y2Arr (zArr V c) (((cfg1.win 4).blk t).view.emb y)
  refine y2_block V c t h7 y _ ?_
  show win1_4.index t (1 : Fin 2) * 1024 + 1 * (y 1).val = 1024 * (t.val / 8) + (y 1).val
  rw [(idx_facts t).2.2.2.2.2.2.2.2.2]; omega

/-- Column `n` lies in column half `n / 1024`, written back at that half's last row block. -/
theorem y2_cover (i : S1x2048.Idx) : ∃ t : Fin cfg1.N, (cfg1.win 4).flush t = true ∧ i ∈ ((cfg1.win 4).blk t).view.set := by
  have hi0 : (i 0).val < 1 := (i 0).isLt
  have hi1 : (i 1).val < 2048 := (i 1).isLt
  have ht : 8 * ((i 1).val / 1024) + 7 < cfg1.N := by rw [show cfg1.N = 16 from N_1]; omega
  refine ⟨⟨8 * ((i 1).val / 1024) + 7, ht⟩, (flush1_4 _).mpr (by show (8 * ((i 1).val / 1024) + 7) % 8 = 7; omega), ?_⟩
  rw [y2_mem_blk]
  have e0 := (idx_facts (⟨8 * ((i 1).val / 1024) + 7, ht⟩ : Fin cfg1.N)).2.2.2.2.2.2.2.2.1
  have e1 := (idx_facts (⟨8 * ((i 1).val / 1024) + 7, ht⟩ : Fin cfg1.N)).2.2.2.2.2.2.2.2.2
  intro a
  match a with
  | ⟨0, _⟩ => show win1_4.index ⟨8 * ((i 1).val / 1024) + 7, ht⟩ (0 : Fin 2) * 1 ≤ (i 0).val ∧ (i 0).val < win1_4.index ⟨8 * ((i 1).val / 1024) + 7, ht⟩ (0 : Fin 2) * 1 + 1
              rw [e0]; omega
  | ⟨1, _⟩ => show win1_4.index ⟨8 * ((i 1).val / 1024) + 7, ht⟩ (1 : Fin 2) * 1024 ≤ (i 1).val ∧ (i 1).val < win1_4.index ⟨8 * ((i 1).val / 1024) + 7, ht⟩ (1 : Fin 2) * 1024 + 1024
              rw [e1]; show (8 * ((i 1).val / 1024) + 7) / 8 * 1024 ≤ (i 1).val ∧ (i 1).val < (8 * ((i 1).val / 1024) + 7) / 8 * 1024 + 1024; omega

/-- After the region, its third output array holds the column sums of `z²`. -/
theorem arr_y2 (c : Dev nD) :
    (dat1 (F := Ideal) V c).arrAt 4 cfg1.N = Cert.Spec.y2Arr (V c main_v39) :=
  (dat1 V c).arrAt_eq_of_cover 4 (Cert.Spec.y2Arr (zArr V c)) (y2_flushed V c) y2_cover

/-! ### The correlation `aᵀ · z` -/

/-- At a column half's first row block the body leaves, at `(k, j)`, the first 512 rows' sum of products. -/
theorem cx_A (c : Dev nD) (t : Fin cfg1.N) (h0 : t.val % 8 = 0) (k : Fin 2048) (j : Fin 1024) (q : Fin 2048)
    (hq : q.val = 1024 * (t.val / 8) + j.val) :
    (outsAt1 V c t.val t.isLt).1 (ix2 k j)
      = ∑ e ∈ Finset.range (512 * (t.val % 8 + 1)), rows (fun e => aArr V c (ix2 e k) * zArr V c (ix2 e q)) e := by
  rw [outsAt1_A V c t h0]
  dsimp only
  refine (congrFun (outA_2 (F := Ideal) c (grid1.coords t) (ms1_0 t) (hs1_0 t) (ms1_1 t) (hs1_1 t) (ms1_2 t) (hs1_2 t) (ms1_3 t) (hs1_3 t) (ms1_4 t) (hs1_4 t) ((hcond1_0 t).mpr h0) (aBlk V c t) (zBlk V c t)) (ix2 k j)).trans ?_
  refine (pay5_apply (aBlk V c t) (zBlk V c t) (k1_pay1 (F := Ideal)) k j).trans ?_
  refine rows_step (fun e => aArr V c (ix2 e k) * zArr V c (ix2 e q)) (t.val % 8) (Nat.mod_lt _ (by decide)) _ (fun r => aBlk V c t (ix2 r k) * zBlk V c t (ix2 r j)) ?_ (fun r => congrArg₂ (· * ·) (aBlk_apply V c t r k) (zBlk_apply V c t r j q hq))
  rw [h0, Nat.mul_zero, Finset.range_zero, Finset.sum_empty]
  exact pay1_apply _

/-- At a later row block it adds that block's 512 products to what the point before left. -/
theorem cx_B (c : Dev nD) (t : Fin cfg1.N) (h0 : ¬t.val % 8 = 0) (k : Fin 2048) (j : Fin 1024) (q : Fin 2048)
    (hq : q.val = 1024 * (t.val / 8) + j.val)
    (ih : (outsAt1 V c (t.val - 1) (Nat.lt_of_le_of_lt (Nat.sub_le _ _) t.isLt)).1 (ix2 k j)
      = ∑ e ∈ Finset.range (512 * ((t.val - 1) % 8 + 1)), rows (fun e => aArr V c (ix2 e k) * zArr V c (ix2 e q)) e) :
    (outsAt1 V c t.val t.isLt).1 (ix2 k j)
      = ∑ e ∈ Finset.range (512 * (t.val % 8 + 1)), rows (fun e => aArr V c (ix2 e k) * zArr V c (ix2 e q)) e := by
  have e8 : (t.val - 1) % 8 + 1 = t.val % 8 := by omega
  rw [outsAt1_B V c t h0]
  dsimp only
  refine (congrFun (outB_2 (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (aBlk V c t) (zBlk V c t)
    (outsAt1 V c (t.val - 1) (Nat.lt_of_le_of_lt (Nat.sub_le _ _) t.isLt)).1
    (outsAt1 V c (t.val - 1) (Nat.lt_of_le_of_lt (Nat.sub_le _ _) t.isLt)).2.1
    (outsAt1 V c (t.val - 1) (Nat.lt_of_le_of_lt (Nat.sub_le _ _) t.isLt)).2.2) (ix2 k j)).trans ?_
  refine (pay5_apply (aBlk V c t) (zBlk V c t) (outsAt1 V c (t.val - 1) (Nat.lt_of_le_of_lt (Nat.sub_le _ _) t.isLt)).1 k j).trans ?_
  refine rows_step (fun e => aArr V c (ix2 e k) * zArr V c (ix2 e q)) (t.val % 8) (Nat.mod_lt _ (by decide)) _ (fun r => aBlk V c t (ix2 r k) * zBlk V c t (ix2 r j)) ?_ (fun r => congrArg₂ (· * ·) (aBlk_apply V c t r k) (zBlk_apply V c t r j q hq))
  rw [ih, e8]

/-- After point `n` the running block holds, at `(k, j)`, the sum over the first `512 (n % 8 + 1)` rows of column `k` of `a`
    times column `1024 (n / 8) + j` of `z`. -/
theorem cx_inv (c : Dev nD) : ∀ (n : ℕ) (h : n < cfg1.N) (k : Fin 2048) (j : Fin 1024) (q : Fin 2048),
    q.val = 1024 * (n / 8) + j.val →
    (outsAt1 V c n h).1 (ix2 k j) = ∑ e ∈ Finset.range (512 * (n % 8 + 1)), rows (fun e => aArr V c (ix2 e k) * zArr V c (ix2 e q)) e := by
  intro n
  induction n with
  | zero => intro h k j q hq; exact cx_A V c ⟨0, h⟩ rfl k j q hq
  | succ n ih =>
    intro h k j q hq
    by_cases h0 : (n + 1) % 8 = 0
    · exact cx_A V c ⟨n + 1, h⟩ h0 k j q hq
    · exact cx_B V c ⟨n + 1, h⟩ h0 k j q hq (ih (Nat.lt_of_succ_lt h) k j q (by omega))

/-- At a point that writes back (the last row block of its column half) the running block holds the sums over all rows. -/
theorem cx_block (c : Dev nD) (t : Fin cfg1.N) (h7 : t.val % 8 = 7) (y : S2048x1024.Idx) (i : S2048x2048.Idx)
    (hi0 : (i 0).val = (y 0).val) (hi : (i 1).val = 1024 * (t.val / 8) + (y 1).val) :
    (outsAt1 V c t.val t.isLt).1 y = Cert.Spec.cxArr (aArr V c) (zArr V c) i := by
  obtain ⟨k, j, rfl⟩ : ∃ (k : Fin 2048) (j : Fin 1024), y = ix2 k j := ⟨y 0, y 1, eq_ix2 y⟩
  obtain rfl : k = i 0 := Fin.ext hi0.symm
  rw [cx_inv V c t.val t.isLt (i 0) j (i 1) hi, h7]
  show ∑ e ∈ Finset.range 4096, _ = Cert.Spec.cxAt (aArr V c) (zArr V c) (i 0) (i 1)
  unfold Cert.Spec.cxAt
  exact rows_total _

/-- An index is in point `t`'s block of the output iff each coordinate is in the block's range on its axis. -/
theorem cx_mem_blk (t : Fin cfg1.N) (i : S2048x2048.Idx) :
    i ∈ ((cfg1.win 2).blk t).view.set ↔ ∀ a : Fin 2, win1_2.index t a * S2048x1024.size a ≤ (i a).val ∧ (i a).val < win1_2.index t a * S2048x1024.size a + S2048x1024.size a := by
  show i ∈ ((View.whole main_v40_0).slice (win1_2.rect t)).set ↔ _
  rw [View.set_slice_whole, Rect.mem_set_unit]
  exact Iff.rfl

/-- What a write-back writes is the block of the whole-array function. -/
theorem cx_flushed (c : Dev nD) (t : Fin cfg1.N) (hf : (cfg1.win 2).flush t = true) :
    (dat1 V c).flushed 2 t = ((cfg1.win 2).blk t).view.read (Elt Ideal) (Cert.Spec.cxArr (aArr V c) (zArr V c)) := by
  have h7 : t.val % 8 = 7 := (flush1_2 t).mp hf
  show (cfg1.win 2).cut (grid1.coords t) ((dat1 V c).after 2 t) = _
  rw [after1_2]
  funext y
  show (outsAt1 V c t.val t.isLt).1 y = Cert.Spec.cxArr (aArr V c) (zArr V c) (((cfg1.win 2).blk t).view.emb y)
  refine cx_block V c t h7 y _ ?_ ?_
  · show win1_2.index t (0 : Fin 2) * 2048 + 1 * (y 0).val = (y 0).val
    rw [(idx_facts t).2.2.2.2.1]; omega
  · show win1_2.index t (1 : Fin 2) * 1024 + 1 * (y 1).val = 1024 * (t.val / 8) + (y 1).val
    rw [(idx_facts t).2.2.2.2.2.1]; omega

/-- Column `n` lies in column half `n / 1024`, written back at that half's last row block. -/
theorem cx_cover (i : S2048x2048.Idx) : ∃ t : Fin cfg1.N, (cfg1.win 2).flush t = true ∧ i ∈ ((cfg1.win 2).blk t).view.set := by
  have hi0 : (i 0).val < 2048 := (i 0).isLt
  have hi1 : (i 1).val < 2048 := (i 1).isLt
  have ht : 8 * ((i 1).val / 1024) + 7 < cfg1.N := by rw [show cfg1.N = 16 from N_1]; omega
  refine ⟨⟨8 * ((i 1).val / 1024) + 7, ht⟩, (flush1_2 _).mpr (by show (8 * ((i 1).val / 1024) + 7) % 8 = 7; omega), ?_⟩
  rw [cx_mem_blk]
  have e0 := (idx_facts (⟨8 * ((i 1).val / 1024) + 7, ht⟩ : Fin cfg1.N)).2.2.2.2.1
  have e1 := (idx_facts (⟨8 * ((i 1).val / 1024) + 7, ht⟩ : Fin cfg1.N)).2.2.2.2.2.1
  intro a
  match a with
  | ⟨0, _⟩ => show win1_2.index ⟨8 * ((i 1).val / 1024) + 7, ht⟩ (0 : Fin 2) * 2048 ≤ (i 0).val ∧ (i 0).val < win1_2.index ⟨8 * ((i 1).val / 1024) + 7, ht⟩ (0 : Fin 2) * 2048 + 2048
              rw [e0]; omega
  | ⟨1, _⟩ => show win1_2.index ⟨8 * ((i 1).val / 1024) + 7, ht⟩ (1 : Fin 2) * 1024 ≤ (i 1).val ∧ (i 1).val < win1_2.index ⟨8 * ((i 1).val / 1024) + 7, ht⟩ (1 : Fin 2) * 1024 + 1024
              rw [e1]; show (8 * ((i 1).val / 1024) + 7) / 8 * 1024 ≤ (i 1).val ∧ (i 1).val < (8 * ((i 1).val / 1024) + 7) / 8 * 1024 + 1024; omega

/-- After the region, its first output array holds `aᵀ · z`. -/
theorem arr_cx (c : Dev nD) :
    (dat1 (F := Ideal) V c).arrAt 2 cfg1.N = Cert.Spec.cxArr (V c main_arg0) (V c main_v39) :=
  (dat1 V c).arrAt_eq_of_cover 2 (Cert.Spec.cxArr (aArr V c) (zArr V c)) (cx_flushed V c) cx_cover

end Cert.KernelIdeal.Region1

end
-- ==== Proof.RealModel.lean ====
/-
  The two programs' arithmetic over the real numbers.

  Inputs: a matrix `a` of 4096 rows (samples) by 2048 columns (input features) and a matrix `th` of 2050 rows by
  2048 columns (the clipped, thresholded weights; rows 0..2047 act on the features, row 2048 on a constant-one
  feature, row 2049 on a constant-zero feature). Every column `n` of `th` is normalised by its absolute column sum.

  One program (names ending `k`) works with the SIGNED normalised weight `ws = th / colsum` and a sign `±1`;
  the other (names ending `r`) with the ABSOLUTE normalised weight `W = |th| / colsum`, a 0/1 mask `pos` of the
  nonnegative entries, and two extended inputs `xe = [a, 1, 0]` and `xn = [-a, -1, 0]`.
-/
import Mathlib.Algebra.BigOperators.Fin
import Mathlib.Algebra.Order.BigOperators.Group.Finset
import Mathlib.Data.Real.Basic
import Mathlib.Tactic.Ring
import Mathlib.Tactic.Linarith

noncomputable section

namespace Cert.Model

/-- Row `k` of the 2048 feature rows, as a row of the 2050-row weight matrix. -/
abbrev up (k : Fin 2048) : Fin 2050 := ⟨k.val, by omega⟩
/-- The row of the constant-one feature. -/
abbrev r48 : Fin 2050 := ⟨2048, by omega⟩
/-- The row of the constant-zero feature. -/
abbrev r49 : Fin 2050 := ⟨2049, by omega⟩

variable (a : Fin 4096 → Fin 2048 → ℝ) (th : Fin 2050 → Fin 2048 → ℝ)

/-- The absolute column sum of the weights. -/
def colsum (n : Fin 2048) : ℝ := ∑ m : Fin 2050, |th m n|
/-- The divisor of column `n`: its absolute column sum where that is positive, else one. -/
def safe (n : Fin 2048) : ℝ := if 0 < colsum th n then colsum th n else 1

/-! ## The signed form -/

/-- The signed normalised weight (zero in a column whose absolute sum is not positive). -/
def ws (m : Fin 2050) (n : Fin 2048) : ℝ := if 0 < colsum th n then th m n / safe th n else 0
/-- The sign of a weight: one where it is nonnegative, minus one elsewhere. -/
def sgn (m : Fin 2050) (n : Fin 2048) : ℝ := if 0 ≤ th m n then 1 else -1
/-- The output `z`: the features against the signed weights, plus the constant-one feature's weight. -/
def zk (e : Fin 4096) (n : Fin 2048) : ℝ := (∑ k : Fin 2048, a e k * ws th (up k) n) + ws th r48 n
/-- The correlation of feature `k` with output column `n` over the samples. -/
def cx (z : Fin 4096 → Fin 2048 → ℝ) (k n : Fin 2048) : ℝ := ∑ e : Fin 4096, a e k * z e n
/-- The column sum of an output over the samples. -/
def cz (z : Fin 4096 → Fin 2048 → ℝ) (n : Fin 2048) : ℝ := ∑ e : Fin 4096, z e n
/-- The column sum of squares of an output over the samples. -/
def yy (z : Fin 4096 → Fin 2048 → ℝ) (n : Fin 2048) : ℝ := ∑ e : Fin 4096, z e n * z e n
/-- The sum of squares of feature `k` over the samples. -/
def sa2 (k : Fin 2048) : ℝ := ∑ e : Fin 4096, a e k * a e k
/-- The power term of a feature row, from the correlation `c`, and the sum of squares `y` of the output. -/
def tmain (c : Fin 2048 → Fin 2048 → ℝ) (y : Fin 2048 → ℝ) (k n : Fin 2048) : ℝ :=
  sa2 a k - (2 * sgn th (up k) n) * c k n + y n
/-- The power term of the constant-one row, from the output's column sum `s` and sum of squares `y`. -/
def tones (s y : Fin 2048 → ℝ) (n : Fin 2048) : ℝ := 4096 - (2 * sgn th r48 n) * s n + y n

/-! ## The masked form -/

/-- The absolute normalised weight. -/
def W (m : Fin 2050) (n : Fin 2048) : ℝ := if 0 < colsum th n then |th m n| / safe th n else 0
/-- The mask of the nonnegative weights. -/
def pos (m : Fin 2050) (n : Fin 2048) : ℝ := if 0 ≤ th m n then 1 else 0
/-- The extended input: the features, then a one, then a zero. -/
def xe (e : Fin 4096) (m : Fin 2050) : ℝ := if h : m.val < 2048 then a e ⟨m.val, h⟩ else if m.val = 2048 then 1 else 0
/-- The negated extended input, its last column set to zero. -/
def xn (e : Fin 4096) (m : Fin 2050) : ℝ := if m.val = 2049 then 0 else -xe a e m
/-- The output `z` as the two masked products. -/
def zr (e : Fin 4096) (n : Fin 2048) : ℝ :=
  (∑ m : Fin 2050, xe a e m * (W th m n * pos th m n)) + ∑ m : Fin 2050, xn a e m * (W th m n * (1 - pos th m n))
/-- The power term of row `m`, for an output `z`: the masked sums of squares, minus twice the masked correlations, plus the
    output's sum of squares. -/
def tr (z : Fin 4096 → Fin 2048 → ℝ) (m : Fin 2050) (n : Fin 2048) : ℝ :=
  (pos th m n * (∑ e : Fin 4096, xe a e m * xe a e m) + (1 - pos th m n) * (∑ e : Fin 4096, xn a e m * xn a e m))
    - 2 * (pos th m n * (∑ e : Fin 4096, xe a e m * z e n) + (1 - pos th m n) * (∑ e : Fin 4096, xn a e m * z e n))
    + (∑ e : Fin 4096, z e n * z e n)

end Cert.Model

end
-- ==== Proof.Coe.lean ====
/-
  The ideal instance's operations on finite values: each is the real operation, carried through the coercion of
  the real numbers into the extended reals. Also the few literals whose exact value the algebra needs.
-/
import Idealize.ShloMosaic.PureOps.Ideal
import Idealize.ShloMosaic.PureOps.Ideal.Laws

noncomputable section

namespace Cert.Coe

open Idealize.ShloMosaic

/-- A finite sum of reals, coerced, is the sum of the coerced terms. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The magnitude of a finite value. -/
theorem absf_coe (x : ℝ) : FloatOps.hostAbsf (F := Ideal) (φ := .f32) (x : EReal) = ((|x| : ℝ) : EReal) := by
  rw [Ideal.hostAbsf_def, Ideal.absf_def, ← EReal.coe_neg, abs_eq_max_neg]
  exact (EReal.coe_strictMono.monotone.map_max).symm

/-- Comparisons of finite values are the comparisons of the reals. -/
theorem cmp_ogt_coe (x y : ℝ) : FloatOps.cmpf (F := Ideal) (φ := .f32) .ogt (x : EReal) (y : EReal) = BitVec.ofBool (decide (y < x)) := by
  show Ideal.cmp .ogt (x : EReal) (y : EReal) = _
  simp only [Ideal.cmp, EReal.coe_lt_coe_iff]
theorem cmp_oge_coe (x y : ℝ) : FloatOps.cmpf (F := Ideal) (φ := .f32) .oge (x : EReal) (y : EReal) = BitVec.ofBool (decide (y ≤ x)) := by
  show Ideal.cmp .oge (x : EReal) (y : EReal) = _
  simp only [Ideal.cmp, EReal.coe_le_coe_iff]
theorem cmp_olt_coe (x y : ℝ) : FloatOps.cmpf (F := Ideal) (φ := .f32) .olt (x : EReal) (y : EReal) = BitVec.ofBool (decide (x < y)) := by
  show Ideal.cmp .olt (x : EReal) (y : EReal) = _
  simp only [Ideal.cmp, EReal.coe_lt_coe_iff]

/-- A selection on a decided condition is the conditional. -/
theorem select_ofBool {α : Type} (p : Prop) [Decidable p] (x y : α) : Scalar.select (BitVec.ofBool (decide p)) x y = if p then x else y := by
  by_cases h : p
  · simp only [h, decide_true, BitVec.ofBool_true, if_true]; exact if_pos rfl
  · simp only [h, decide_false, BitVec.ofBool_false, if_false]; exact if_neg (by decide)

/-- A decided condition converted to a float is one where it holds and zero where it does not. -/
theorem uitofp_ofBool (p : Prop) [Decidable p] :
    FloatOps.uitofp (F := Ideal) .f32 (BitVec.ofBool (decide p)) = (((if p then 1 else 0 : ℝ)) : EReal) := by
  by_cases h : p
  · simp only [h, decide_true, BitVec.ofBool_true, if_true]; show (((1#1 : BitVec 1).toNat : ℝ) : EReal) = _; simp
  · simp only [h, decide_false, BitVec.ofBool_false, if_false]; show (((0#1 : BitVec 1).toNat : ℝ) : EReal) = _; simp

/-- A conditional between finite values is the finite conditional. -/
theorem ite_coe (p : Prop) [Decidable p] (x y : ℝ) : (if p then (x : EReal) else (y : EReal)) = ((if p then x else y : ℝ) : EReal) := by
  split <;> rfl

/-- The host's quotient of finite values by a nonzero finite value is the real quotient. -/
theorem hostDivf_coe (x y : ℝ) (hy : y ≠ 0) : FloatOps.hostDivf (F := Ideal) (φ := .f32) (x : EReal) (y : EReal) = ((x / y : ℝ) : EReal) := by
  rw [Ideal.hostDivf_def, Ideal.div_coe hy, ← EReal.coe_mul, mul_one_div]

/-- The literal `0.0`. -/
theorem ofBits_zero : Ideal.ofBits .f32 0x00000000#32 = ((0 : ℝ) : EReal) := by
  simp [Ideal.ofBits, Ideal.ieee]
/-- The literal `1.0`. -/
theorem ofBits_one : Ideal.ofBits .f32 0x3F800000#32 = ((1 : ℝ) : EReal) := by
  simp [Ideal.ofBits, Ideal.ieee, -EReal.coe_mul]; norm_num
/-- The literal `-1.0`. -/
theorem ofBits_neg_one : Ideal.ofBits .f32 0xBF800000#32 = ((-1 : ℝ) : EReal) := by
  simp [Ideal.ofBits, Ideal.ieee, -EReal.coe_mul]; norm_num
/-- The literal `2.0`. -/
theorem ofBits_two : Ideal.ofBits .f32 0x40000000#32 = ((2 : ℝ) : EReal) := by
  simp [Ideal.ofBits, Ideal.ieee, -EReal.coe_mul]; norm_num
/-- The literal `4096.0`. -/
theorem ofBits_4096 : Ideal.ofBits .f32 0x45800000#32 = ((4096 : ℝ) : EReal) := by
  simp [Ideal.ofBits, Ideal.ieee, -EReal.coe_mul]; norm_num

end Cert.Coe

end
-- ==== Proof.KernelRead.lean ====
/-
  The host-side functions of the program with the kernels, read at an index at the ideal instance, for finite
  arguments: the first kernel's weight and bias operands are the signed normalised weights over the reals, and the
  closing power term is the quotient by 4096 of three sums of `g` times the real power terms.
-/
import proofs.«166182_j39599598469767_1_alg».proof.Proof.HostTerms
import proofs.«166182_j39599598469767_1_alg».proof.Proof.RealModel
import proofs.«166182_j39599598469767_1_alg».proof.Proof.Coe
import Idealize.ShloMosaic.Lib.ValueIdx
import Idealize.ShloMosaic.Lib.Pipeline.Value
import Idealize.ShloMosaic.PureOps.Ideal.Laws

set_option maxRecDepth 16384

noncomputable section

namespace Cert.KRead

open Idealize.ShloMosaic Idealize.ShloMosaic.ValueIdx
open Cert.KernelIdeal Cert.KernelIdeal.Facts₀ Cert.KHost Cert.Model

/-! ## Layout operations at explicit coordinates -/

section Layout
variable {α : Type}

/-- A broadcast scalar reads the scalar at every index. -/
theorem bcast_scalar {t : Shape} (dims : Fin S_.rank → Fin t.rank) (h : S_.BroadcastsInDim t dims) (x : S_.Idx → α)
    (i : t.Idx) : broadcastInDim t dims h x i = x ix0 :=
  broadcastInDim_apply dims h x i ix0 (fun a => a.elim0)

/-- A vector set as the one row of a one-row matrix. -/
theorem bcast_row (x : S2048.Idx → α) (r : Fin 1) (n : Fin 2048) :
    broadcastInDim S1x2048 ![1] bcast_S2048_S1x2048_1 x (ix2 r n) = x (ix1 n) :=
  broadcastInDim_apply _ bcast_S2048_S1x2048_1 x _ (ix1 n) (fun a => match a with
    | ⟨0, _⟩ => by show n.val = if (2048 : Nat) = 1 then 0 else n.val; rw [if_neg (by decide)])

/-- A one-row matrix repeated down 2050 rows. -/
theorem bcast_rows2050 (x : S1x2048.Idx → α) (m : Fin 2050) (n : Fin 2048) :
    broadcastInDim S2050x2048 ![0, 1] bcast_S1x2048_S2050x2048_0_1 x (ix2 m n) = x (ix2 (0 : Fin 1) n) :=
  broadcastInDim_apply _ bcast_S1x2048_S2050x2048_0_1 x _ (ix2 (0 : Fin 1) n) (fun a => match a with
    | ⟨0, _⟩ => by show 0 = if (1 : Nat) = 1 then 0 else m.val; rw [if_pos rfl]
    | ⟨1, _⟩ => by show n.val = if (2048 : Nat) = 1 then 0 else n.val; rw [if_neg (by decide)])

/-- A one-row matrix repeated down 2048 rows. -/
theorem bcast_rows2048 (x : S1x2048.Idx → α) (k n : Fin 2048) :
    broadcastInDim S2048x2048 ![0, 1] bcast_S1x2048_S2048x2048_0_1 x (ix2 k n) = x (ix2 (0 : Fin 1) n) :=
  broadcastInDim_apply _ bcast_S1x2048_S2048x2048_0_1 x _ (ix2 (0 : Fin 1) n) (fun a => match a with
    | ⟨0, _⟩ => by show 0 = if (1 : Nat) = 1 then 0 else k.val; rw [if_pos rfl]
    | ⟨1, _⟩ => by show n.val = if (2048 : Nat) = 1 then 0 else n.val; rw [if_neg (by decide)])

/-- A one-column matrix repeated across 2048 columns. -/
theorem bcast_cols2048 (x : S2048x1.Idx → α) (k n : Fin 2048) :
    broadcastInDim S2048x2048 ![0, 1] bcast_S2048x1_S2048x2048_0_1 x (ix2 k n) = x (ix2 k (0 : Fin 1)) :=
  broadcastInDim_apply _ bcast_S2048x1_S2048x2048_0_1 x _ (ix2 k (0 : Fin 1)) (fun a => match a with
    | ⟨0, _⟩ => by show k.val = if (2048 : Nat) = 1 then 0 else k.val; rw [if_neg (by decide)]
    | ⟨1, _⟩ => by show 0 = if (1 : Nat) = 1 then 0 else n.val; rw [if_pos rfl])

/-- A vector set as the one column of a one-column matrix. -/
theorem bcast_col (x : S2048.Idx → α) (k : Fin 2048) (c : Fin 1) :
    broadcastInDim S2048x1 ![0] bcast_S2048_S2048x1_0 x (ix2 k c) = x (ix1 k) :=
  broadcastInDim_apply _ bcast_S2048_S2048x1_0 x _ (ix1 k) (fun a => match a with
    | ⟨0, _⟩ => by show k.val = if (2048 : Nat) = 1 then 0 else k.val; rw [if_neg (by decide)])

/-- Rows 0..2047 of a 2050-row matrix. -/
theorem slice_main (x : S2050x2048.Idx → α) (k n : Fin 2048) :
    extractStridedSlice S2048x2048 ![0, 0] x slices_S2050x2048_S2048x2048_0_0 (ix2 k n) = x (ix2 (up k) n) :=
  extractStridedSlice_apply _ x slices_S2050x2048_S2048x2048_0_0 _ (ix2 (up k) n) (fun a => match a with
    | ⟨0, _⟩ => by show k.val = 0 + k.val; omega
    | ⟨1, _⟩ => by show n.val = 0 + n.val; omega)

/-- Row 2048 of a 2050-row matrix. -/
theorem slice_r48 (x : S2050x2048.Idx → α) (r : Fin 1) (n : Fin 2048) :
    extractStridedSlice S1x2048 ![2048, 0] x slices_S2050x2048_S1x2048_2048_0 (ix2 r n) = x (ix2 r48 n) :=
  extractStridedSlice_apply _ x slices_S2050x2048_S1x2048_2048_0 _ (ix2 r48 n) (fun a => match a with
    | ⟨0, _⟩ => by show 2048 = 2048 + r.val; omega
    | ⟨1, _⟩ => by show n.val = 0 + n.val; omega)

/-- Row 2049 of a 2050-row matrix. -/
theorem slice_r49 (x : S2050x2048.Idx → α) (r : Fin 1) (n : Fin 2048) :
    extractStridedSlice S1x2048 ![2049, 0] x slices_S2050x2048_S1x2048_2049_0 (ix2 r n) = x (ix2 r49 n) :=
  extractStridedSlice_apply _ x slices_S2050x2048_S1x2048_2049_0 _ (ix2 r49 n) (fun a => match a with
    | ⟨0, _⟩ => by show 2049 = 2049 + r.val; omega
    | ⟨1, _⟩ => by show n.val = 0 + n.val; omega)

/-- A one-row matrix read as a vector. -/
theorem cast_row (x : S1x2048.Idx → α) (n : Fin 2048) :
    shapeCast S2048 x shapeCasts_S1x2048_S2048 (ix1 n) = x (ix2 (0 : Fin 1) n) :=
  shapeCast_apply x shapeCasts_S1x2048_S2048 (ix1 n) (ix2 (0 : Fin 1) n) (by
    rw [Shape.rowMajor_val_two, Shape.rowMajor_val_one]
    show 0 * 2048 + n.val = n.val; omega)

end Layout

/-! ## The weights' column sums, divisors, signed normalised weights and signs, at an index -/

section Elementwise
variable {s : Shape} {φ : FTy}

/-- The host's quotient at an index divides the elements. -/
theorem hostDivf_apply (x y : FVec Ideal s φ) (i : s.Idx) : Host.divf x y i = FloatOps.hostDivf (x i) (y i) := rfl
/-- The host's magnitude at an index is the element's. -/
theorem hostAbsf_apply (x : FVec Ideal s φ) (i : s.Idx) : Host.absf x i = FloatOps.hostAbsf (x i) := rfl

end Elementwise

/-- The host's sum down the rows of a 2050-row matrix, at column `n`. -/
theorem reduce_rows2050 (y : FVec Ideal S2050x2048 .f32) (init : FVec Ideal S_ .f32) (n : Fin 2048) :
    Host.reduceAdd y init reducesTo_S2050x2048_S2048_d0 h_S_ (ix1 n)
      = init (Shape.Idx.first h_S_) + ∑ m : Fin 2050, y (ix2 m n) := by
  simp only [Host.reduceAdd, Ideal.hostReduceAdd_def]
  rw [Ideal.hostReduceAdd_single reducesTo_S2050x2048_S2048_d0 (by decide)]
  refine congrArg (_ + ·) (Finset.sum_congr rfl fun k _ => ?_)
  exact congrArg y (funext fun a => Fin.ext (by match a with | ⟨0, _⟩ => rfl | ⟨1, _⟩ => rfl))

variable (a : FVec Ideal S4096x2048 .f32) (θ : FVec Ideal S2050x2048 .f32)
variable (ar : Fin 4096 → Fin 2048 → ℝ) (thr : Fin 2050 → Fin 2048 → ℝ)

/-- The absolute column sum at column `n`. -/
theorem csT_at (hth : ∀ (m : Fin 2050) (n : Fin 2048), thT θ (ix2 m n) = ((thr m n : ℝ) : EReal)) (r : Fin 1) (n : Fin 2048) :
    csT θ (ix2 r n) = ((colsum thr n : ℝ) : EReal) := by
  unfold csT
  rw [bcast_row, reduce_rows2050, constant_apply, Coe.ofBits_zero, EReal.coe_zero, zero_add]
  unfold colsum
  rw [Coe.coe_sum]
  refine Finset.sum_congr rfl fun m _ => ?_
  rw [hostAbsf_apply, hth, Coe.absf_coe]

/-- The column predicate "the absolute column sum is positive" at column `n`. -/
theorem pos_at (hth : ∀ (m : Fin 2050) (n : Fin 2048), thT θ (ix2 m n) = ((thr m n : ℝ) : EReal)) (r : Fin 1) (n : Fin 2048) :
    cmpf .ogt (csT θ) (broadcastInDim S1x2048 ![] bcast_S_S1x2048 (constant S_ .f32 0x00000000#32)) (ix2 r n)
      = BitVec.ofBool (decide (0 < colsum thr n)) := by
  rw [cmpf_apply, csT_at θ thr hth, bcast_scalar, constant_apply, Coe.ofBits_zero, Coe.cmp_ogt_coe]

/-- The divisor at column `n`. -/
theorem safeT_at (hth : ∀ (m : Fin 2050) (n : Fin 2048), thT θ (ix2 m n) = ((thr m n : ℝ) : EReal)) (r : Fin 1) (n : Fin 2048) :
    safeT θ (ix2 r n) = ((safe thr n : ℝ) : EReal) := by
  unfold safeT
  rw [select_apply, pos_at θ thr hth, csT_at θ thr hth, bcast_scalar]
  show Scalar.select _ _ (Ideal.ofBits .f32 0x3F800000#32) = _
  rw [Coe.ofBits_one, Coe.select_ofBool, Coe.ite_coe]
  rfl

/-- The divisor is never zero. -/
theorem safe_ne (n : Fin 2048) : safe thr n ≠ 0 := by
  unfold safe
  split_ifs with h
  · exact ne_of_gt h
  · exact one_ne_zero

/-- The signed normalised weight at `(m, n)`. -/
theorem wsT_at (hth : ∀ (m : Fin 2050) (n : Fin 2048), thT θ (ix2 m n) = ((thr m n : ℝ) : EReal)) (m : Fin 2050) (n : Fin 2048) :
    wsT θ (ix2 m n) = ((ws thr m n : ℝ) : EReal) := by
  unfold wsT
  rw [select_apply, bcast_rows2050, pos_at θ thr hth, hostDivf_apply, bcast_rows2050, safeT_at θ thr hth, hth,
    Coe.hostDivf_coe _ _ (safe_ne thr n), bcast_scalar]
  show Scalar.select _ _ (Ideal.ofBits .f32 0x00000000#32) = _
  rw [Coe.ofBits_zero, Coe.select_ofBool, Coe.ite_coe]
  rfl

/-- The sign at `(m, n)`. -/
theorem sgT_at (hth : ∀ (m : Fin 2050) (n : Fin 2048), thT θ (ix2 m n) = ((thr m n : ℝ) : EReal)) (m : Fin 2050) (n : Fin 2048) :
    sgT θ (ix2 m n) = ((sgn thr m n : ℝ) : EReal) := by
  unfold sgT
  rw [select_apply, cmpf_apply, hth]
  simp only [bcast_scalar, constant_apply]
  rw [Coe.ofBits_zero, Coe.ofBits_one, Coe.ofBits_neg_one, Coe.cmp_oge_coe, Coe.select_ofBool, Coe.ite_coe]
  rfl

/-- The first kernel's weight operand at `(k, n)`. -/
theorem wT_at (hth : ∀ (m : Fin 2050) (n : Fin 2048), thT θ (ix2 m n) = ((thr m n : ℝ) : EReal)) (k n : Fin 2048) :
    wT θ (ix2 k n) = ((ws thr (up k) n : ℝ) : EReal) := by
  unfold wT
  rw [truncf_apply, slice_main, wsT_at θ thr hth]

/-- The first kernel's bias row at column `n`. -/
theorem bT_at (hth : ∀ (m : Fin 2050) (n : Fin 2048), thT θ (ix2 m n) = ((thr m n : ℝ) : EReal)) (n : Fin 2048) :
    bT θ (ix2 (0 : Fin 1) n) = ((ws thr r48 n : ℝ) : EReal) := by
  unfold bT
  rw [bcast_row, cast_row, slice_r48, wsT_at θ thr hth]

/-! ## The slices of `g` and of the signs -/

/-- The feature rows of `g`. -/
theorem gmT_at (k n : Fin 2048) : gmT θ (ix2 k n) = gT θ (ix2 (up k) n) := by
  unfold gmT
  exact slice_main _ k n

/-- The constant-one row of `g`. -/
theorem g1T_at (n : Fin 2048) : g1T θ (ix1 n) = gT θ (ix2 r48 n) := by
  unfold g1T
  rw [cast_row, slice_r48]

/-- The constant-zero row of `g`. -/
theorem g0T_at (n : Fin 2048) : g0T θ (ix1 n) = gT θ (ix2 r49 n) := by
  unfold g0T
  rw [cast_row, slice_r49]

/-- The feature rows of the signs. -/
theorem sgmT_at (hth : ∀ (m : Fin 2050) (n : Fin 2048), thT θ (ix2 m n) = ((thr m n : ℝ) : EReal)) (k n : Fin 2048) :
    sgmT θ (ix2 k n) = ((sgn thr (up k) n : ℝ) : EReal) := by
  unfold sgmT
  rw [slice_main, sgT_at θ thr hth]

/-- The constant-one row of the signs. -/
theorem sg1T_at (hth : ∀ (m : Fin 2050) (n : Fin 2048), thT θ (ix2 m n) = ((thr m n : ℝ) : EReal)) (n : Fin 2048) :
    sg1T θ (ix1 n) = ((sgn thr r48 n : ℝ) : EReal) := by
  unfold sg1T
  rw [cast_row, slice_r48, sgT_at θ thr hth]

/-! ## The host's sums -/

/-- The host's sum down the rows of a 4096-row matrix, at column `k`. -/
theorem reduce_rows4096 (y : FVec Ideal S4096x2048 .f32) (init : FVec Ideal S_ .f32) (k : Fin 2048) :
    Host.reduceAdd y init reducesTo_S4096x2048_S2048_d0 h_S_ (ix1 k)
      = init (Shape.Idx.first h_S_) + ∑ e : Fin 4096, y (ix2 e k) := by
  simp only [Host.reduceAdd, Ideal.hostReduceAdd_def]
  rw [Ideal.hostReduceAdd_single reducesTo_S4096x2048_S2048_d0 (by decide)]
  refine congrArg (_ + ·) (Finset.sum_congr rfl fun e _ => ?_)
  exact congrArg y (funext fun b => Fin.ext (by match b with | ⟨0, _⟩ => rfl | ⟨1, _⟩ => rfl))

/-- The host's sum of a 2048 by 2048 matrix over both axes. -/
theorem reduce_all2048 (y : FVec Ideal S2048x2048 .f32) (init : FVec Ideal S_ .f32) (i : S_.Idx) :
    Host.reduceAdd y init reducesTo_S2048x2048_S_d0_1 h_S_ i
      = init (Shape.Idx.first h_S_) + ∑ k : Fin 2048, ∑ n : Fin 2048, y (ix2 k n) := by
  simp only [Host.reduceAdd, Ideal.hostReduceAdd_def]
  rw [Ideal.hostReduceAdd_total reducesTo_S2048x2048_S_d0_1 (fun b => b.elim0) y _ i]
  exact congrArg (_ + ·) (sum_idx2 y)

/-- A rank-1 index set is its one coordinate's range … -/
def idxEquiv1 {n : Nat} : (⟨1, ![n]⟩ : Shape).Idx ≃ Fin n where
  toFun i := i 0
  invFun p := ix1 p
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ p : Fin n, f (ix1 p) := by
  rw [← Equiv.sum_comp (idxEquiv1 (n := n)).symm f]
  rfl

/-- The host's sum of a vector of 2048 entries. -/
theorem reduce_vec2048 (y : FVec Ideal S2048 .f32) (init : FVec Ideal S_ .f32) (i : S_.Idx) :
    Host.reduceAdd y init reducesTo_S2048_S_d0 h_S_ i
      = init (Shape.Idx.first h_S_) + ∑ n : Fin 2048, y (ix1 n) := by
  simp only [Host.reduceAdd, Ideal.hostReduceAdd_def]
  rw [Ideal.hostReduceAdd_total reducesTo_S2048_S_d0 (fun b => b.elim0) y _ i]
  exact congrArg (_ + ·) (sum_idx1 y)

/-- The sum of squares of feature `k` over the samples. -/
theorem sa2T_at (ha : ∀ (e : Fin 4096) (k : Fin 2048), a (ix2 e k) = ((ar e k : ℝ) : EReal)) (k : Fin 2048) :
    Host.reduceAdd (mulf a a) (constant (F := Ideal) S_ .f32 0x00000000#32) reducesTo_S4096x2048_S2048_d0 h_S_ (ix1 k)
      = ((sa2 ar k : ℝ) : EReal) := by
  rw [reduce_rows4096, constant_apply, Coe.ofBits_zero, EReal.coe_zero, zero_add]
  unfold sa2
  rw [Coe.coe_sum]
  refine Finset.sum_congr rfl fun e _ => ?_
  rw [mulf_apply, ha, ← EReal.coe_mul]

/-! ## The three power sums and the closing quotient -/

/-- The power over the feature rows. -/
theorem pmainT_at (ha : ∀ (e : Fin 4096) (k : Fin 2048), a (ix2 e k) = ((ar e k : ℝ) : EReal))
    (hth : ∀ (m : Fin 2050) (n : Fin 2048), thT θ (ix2 m n) = ((thr m n : ℝ) : EReal))
    (cx : FVec Ideal S2048x2048 .f32) (y2 : FVec Ideal S1x2048 .f32)
    (cxr : Fin 2048 → Fin 2048 → ℝ) (y2r : Fin 2048 → ℝ)
    (hcx : ∀ k n : Fin 2048, cx (ix2 k n) = ((cxr k n : ℝ) : EReal))
    (hy2 : ∀ n : Fin 2048, y2 (ix2 (0 : Fin 1) n) = ((y2r n : ℝ) : EReal)) :
    pmainT a θ cx y2 ix0
      = ∑ k : Fin 2048, ∑ n : Fin 2048, gT θ (ix2 (up k) n) * ((tmain ar thr cxr y2r k n : ℝ) : EReal) := by
  unfold pmainT
  rw [reduce_all2048, constant_apply, Coe.ofBits_zero, EReal.coe_zero, zero_add]
  refine Finset.sum_congr rfl fun k _ => Finset.sum_congr rfl fun n _ => ?_
  rw [mulf_apply, gmT_at, addf_apply, subf_apply, bcast_cols2048, bcast_col, sa2T_at a ar ha, bcast_rows2048, bcast_row,
    cast_row, hy2, mulf_apply, hcx]
  simp only [id_eq, mulf_apply, bcast_scalar, constant_apply]
  rw [sgmT_at θ thr hth, Coe.ofBits_two]
  unfold tmain
  rw [← EReal.coe_mul, ← EReal.coe_mul, ← EReal.coe_sub, ← EReal.coe_add]

/-- The power over the constant-one row. -/
theorem ponesT_at (hth : ∀ (m : Fin 2050) (n : Fin 2048), thT θ (ix2 m n) = ((thr m n : ℝ) : EReal))
    (cs y2 : FVec Ideal S1x2048 .f32) (csr y2r : Fin 2048 → ℝ)
    (hcs : ∀ n : Fin 2048, cs (ix2 (0 : Fin 1) n) = ((csr n : ℝ) : EReal))
    (hy2 : ∀ n : Fin 2048, y2 (ix2 (0 : Fin 1) n) = ((y2r n : ℝ) : EReal)) :
    ponesT θ cs y2 ix0 = ∑ n : Fin 2048, gT θ (ix2 r48 n) * ((tones thr csr y2r n : ℝ) : EReal) := by
  unfold ponesT
  rw [reduce_vec2048, constant_apply, Coe.ofBits_zero, EReal.coe_zero, zero_add]
  refine Finset.sum_congr rfl fun n _ => ?_
  rw [mulf_apply, g1T_at, addf_apply, subf_apply, cast_row, hy2, mulf_apply, cast_row, hcs]
  simp only [id_eq, mulf_apply, bcast_scalar, constant_apply]
  rw [sg1T_at θ thr hth, Coe.ofBits_two, Coe.ofBits_4096]
  unfold tones
  rw [← EReal.coe_mul, ← EReal.coe_mul, ← EReal.coe_sub, ← EReal.coe_add]

/-- The power over the constant-zero row. -/
theorem pzeroT_at (y2 : FVec Ideal S1x2048 .f32) (y2r : Fin 2048 → ℝ)
    (hy2 : ∀ n : Fin 2048, y2 (ix2 (0 : Fin 1) n) = ((y2r n : ℝ) : EReal)) :
    pzeroT θ y2 ix0 = ∑ n : Fin 2048, gT θ (ix2 r49 n) * ((y2r n : ℝ) : EReal) := by
  unfold pzeroT
  rw [reduce_vec2048, constant_apply, Coe.ofBits_zero, EReal.coe_zero, zero_add]
  refine Finset.sum_congr rfl fun n _ => ?_
  rw [mulf_apply, g0T_at, cast_row, hy2]

/-- The closing power term, from finite kernel results `cx`, `cs`, `y2`. -/
theorem powerT_at (ha : ∀ (e : Fin 4096) (k : Fin 2048), a (ix2 e k) = ((ar e k : ℝ) : EReal))
    (hth : ∀ (m : Fin 2050) (n : Fin 2048), thT θ (ix2 m n) = ((thr m n : ℝ) : EReal))
    (cx : FVec Ideal S2048x2048 .f32) (cs y2 : FVec Ideal S1x2048 .f32)
    (cxr : Fin 2048 → Fin 2048 → ℝ) (csr y2r : Fin 2048 → ℝ)
    (hcx : ∀ k n : Fin 2048, cx (ix2 k n) = ((cxr k n : ℝ) : EReal))
    (hcs : ∀ n : Fin 2048, cs (ix2 (0 : Fin 1) n) = ((csr n : ℝ) : EReal))
    (hy2 : ∀ n : Fin 2048, y2 (ix2 (0 : Fin 1) n) = ((y2r n : ℝ) : EReal)) :
    powerT a θ cx cs y2 ix0
      = Ideal.div
          ((∑ k : Fin 2048, ∑ n : Fin 2048, gT θ (ix2 (up k) n) * ((tmain ar thr cxr y2r k n : ℝ) : EReal))
            + (∑ n : Fin 2048, gT θ (ix2 r48 n) * ((tones thr csr y2r n : ℝ) : EReal))
            + ∑ n : Fin 2048, gT θ (ix2 r49 n) * ((y2r n : ℝ) : EReal))
          (Ideal.ofBits .f32 0x45800000#32) := by
  unfold powerT
  rw [hostDivf_apply, addf_apply, addf_apply, pmainT_at a θ ar thr ha hth cx y2 cxr y2r hcx hy2,
    ponesT_at θ thr hth cs y2 csr y2r hcs hy2, pzeroT_at θ y2 y2r hy2, constant_apply, Ideal.hostDivf_def]

end Cert.KRead

end
-- ==== Proof.RefRead.lean ====
/-
  The reference's two results, read at an index at the ideal instance, for finite arguments: its output `z` is the
  masked form over the reals, and its power is the quotient by 4096 of the sum over all weight entries of `g` times the
  real power term of that entry's row.
-/
import proofs.«166182_j39599598469767_1_alg».proof.Proof.Gen.ReferenceIdeal.Read
import proofs.«166182_j39599598469767_1_alg».proof.Proof.RealModel
import proofs.«166182_j39599598469767_1_alg».proof.Proof.Coe
import Idealize.ShloMosaic.Lib.ValueIdx
import Idealize.ShloMosaic.Lib.Pipeline.Value

set_option maxRecDepth 16384

noncomputable section

namespace Cert.RefRead

open Idealize.ShloMosaic Idealize.ShloMosaic.ValueIdx
open Cert.ReferenceIdeal Cert.ReferenceIdeal.Gen Cert.ReferenceIdeal.Read Cert.Model

/-! ## A scatter of equal updates, read at an index -/

/-- A left fold whose every step either leaves the function alone or overwrites one entry with one fixed value:
    an entry some step names ends at that value, every other entry is unchanged. -/
theorem foldl_overwrite {ι κ α : Type} (g : ι → Option κ) (c : α) (step : (κ → α) → ι → (κ → α))
    (hnone : ∀ r n, g n = none → step r n = r)
    (hhit : ∀ r n i, g n = some i → step r n i = c)
    (hmiss : ∀ r n i i', g n = some i → i' ≠ i → step r n i' = r i') :
    ∀ (l : List ι) (x : κ → α) (i' : κ),
      ((∃ n ∈ l, g n = some i') → (l.foldl step x) i' = c) ∧ ((∀ n ∈ l, g n ≠ some i') → (l.foldl step x) i' = x i')
  | [], x, i' => ⟨fun ⟨_, hn, _⟩ => absurd hn List.not_mem_nil, fun _ => rfl⟩
  | n :: l, x, i' => by
    rw [List.foldl_cons]
    have ih := foldl_overwrite g c step hnone hhit hmiss l (step x n) i'
    constructor
    · rintro ⟨n', hn', h⟩
      by_cases hl : ∃ n'' ∈ l, g n'' = some i'
      · exact ih.1 hl
      · have hl' : ∀ n'' ∈ l, g n'' ≠ some i' := fun n'' hn'' hg => hl ⟨n'', hn'', hg⟩
        rw [ih.2 hl']
        rcases List.mem_cons.1 hn' with rfl | hn'
        · exact hhit x n' i' h
        · exact absurd h (hl' n' hn')
    · intro hall
      rw [ih.2 fun n' hn' => hall n' (List.mem_cons_of_mem _ hn')]
      cases hg : g n with
      | none => rw [hnone x n hg]
      | some i =>
        refine hmiss x n i i' hg fun hi => hall n List.mem_cons_self ?_
        rw [hg, hi]

/-- A scatter that writes (its body returns the update) updates all of one value `c`: an element some update lands on is `c`,
    every other element is the operand's. -/
theorem scatter_const_apply {s si u : Shape} {w : Nat} {α : Type} (d : ScatterDims s si u) (x : s.Idx → α)
    (idx : IVec si w) (upd : u.Idx → α) (c : α) (hu : ∀ j, upd j = c) (i' : s.Idx) :
    ((∃ j, d.resultIdx? j idx = some i') → Host.scatter d (fun _ b => b) x idx upd i' = c) ∧
    ((∀ j, d.resultIdx? j idx ≠ some i') → Host.scatter d (fun _ b => b) x idx upd i' = x i') := by
  unfold Host.scatter
  have main : ∀ step : (s.Idx → α) → Fin u.numel → (s.Idx → α),
      (∀ r n, d.resultIdx? (u.rowMajor.symm n) idx = none → step r n = r) →
      (∀ r n i, d.resultIdx? (u.rowMajor.symm n) idx = some i → step r n i = c) →
      (∀ r n i i', d.resultIdx? (u.rowMajor.symm n) idx = some i → i' ≠ i → step r n i' = r i') →
      ((∃ j, d.resultIdx? j idx = some i') → List.foldl step x (List.finRange u.numel) i' = c) ∧
      ((∀ j, d.resultIdx? j idx ≠ some i') → List.foldl step x (List.finRange u.numel) i' = x i') := by
    intro step h1 h2 h3
    have key := foldl_overwrite (fun n : Fin u.numel => d.resultIdx? (u.rowMajor.symm n) idx) c step h1 h2 h3
      (List.finRange u.numel) x i'
    exact ⟨fun ⟨j, hj⟩ => key.1 ⟨u.rowMajor j, List.mem_finRange _, by simpa using hj⟩, fun hall => key.2 fun n _ => hall _⟩
  refine main _ ?_ ?_ ?_
  · intro r n h; simp only [h]
  · intro r n i h; simp only [h, eq_self_iff_true, if_true, hu]
  · intro r n i i'' h hne; simp only [h, if_neg hne]

/-- Every update of the scatter lands in its own row, in column 2049. -/
theorem resultIdx_eq (idx : IVec S1 32) (hidx : ∀ k, idx k = 2049#32) (j : S4096.Idx) :
    scatter_S4096x2050_S1_S4096_0_1_1_0.resultIdx? j idx = some (ix2 (j 0) ⟨2049, by decide⟩) := by
  have hs0' : scatter_S4096x2050_S1_S4096_0_1_1_0.start j idx 0 = 0 := by
    unfold ScatterDims.start; exact dif_neg (by decide)
  have hs1' : scatter_S4096x2050_S1_S4096_0_1_1_0.start j idx 1 = 2049 := by
    unfold ScatterDims.start; rw [dif_pos (by decide), hidx]; rfl
  have hw0' : scatter_S4096x2050_S1_S4096_0_1_1_0.window j 0 = (j 0).val := by
    unfold ScatterDims.window; rw [dif_pos (by decide)]; rfl
  have hw1' : scatter_S4096x2050_S1_S4096_0_1_1_0.window j 1 = 0 := by
    unfold ScatterDims.window; exact dif_neg (by decide)
  have hs0 : ∀ h : 0 < S4096x2050.rank, scatter_S4096x2050_S1_S4096_0_1_1_0.start j idx ⟨0, h⟩ = 0 := fun _ => hs0'
  have hs1 : ∀ h : 1 < S4096x2050.rank, scatter_S4096x2050_S1_S4096_0_1_1_0.start j idx ⟨1, h⟩ = 2049 := fun _ => hs1'
  have hw0 : ∀ h : 0 < S4096x2050.rank, scatter_S4096x2050_S1_S4096_0_1_1_0.window j ⟨0, h⟩ = (j 0).val := fun _ => hw0'
  have hw1 : ∀ h : 1 < S4096x2050.rank, scatter_S4096x2050_S1_S4096_0_1_1_0.window j ⟨1, h⟩ = 0 := fun _ => hw1'
  unfold ScatterDims.resultIdx?
  have hj : (j 0).val < 4096 := (j 0).isLt
  rw [dif_pos (by
    intro a
    match a with
    | ⟨0, h⟩ => rw [hs0, hw0]; exact ⟨by omega, by show ((0 : Int) + ((j 0).val : Int)) < ((4096 : Nat) : Int); omega⟩
    | ⟨1, h⟩ => rw [hs1, hw1]; exact ⟨by decide, by show ((2049 : Int) + ((0 : Nat) : Int)) < ((2050 : Nat) : Int); decide⟩)]
  have key0 : ∀ h : 0 < S4096x2050.rank, (scatter_S4096x2050_S1_S4096_0_1_1_0.start j idx ⟨0, h⟩
      + (scatter_S4096x2050_S1_S4096_0_1_1_0.window j ⟨0, h⟩ : Int)).toNat = (j 0).val := fun h => by rw [hs0, hw0]; omega
  have key1 : ∀ h : 1 < S4096x2050.rank, (scatter_S4096x2050_S1_S4096_0_1_1_0.start j idx ⟨1, h⟩
      + (scatter_S4096x2050_S1_S4096_0_1_1_0.window j ⟨1, h⟩ : Int)).toNat = 2049 := fun h => by rw [hs1, hw1]; rfl
  refine congrArg some (funext fun a => Fin.ext ?_)
  match a with
  | ⟨0, h⟩ => exact key0 h
  | ⟨1, h⟩ => exact key1 h

/-! ## The two layout operations of the inputs' side, read at an index -/

section Layout

variable (a : (⟨S4096x2048, .f32⟩ : BufTy).Contents (Elt Ideal))

/-- The concatenation `[a, 1, 0]` along the columns, in the columns of `a`. -/
theorem v25_lt (e : Fin 4096) (m : Fin 2050) (h : m.val < 2048) :
    val_main_v25 (F := Ideal) a (ix2 e m) = a (ix2 e ⟨m.val, h⟩) := by
  unfold val_main_v25
  exact concatenate_apply_piece 1 _ _ (ix2 e m) 0 (by simp) S4096x2048 a rfl rfl 0 rfl (ix2 e ⟨m.val, h⟩)
    (fun b hb => by match b with | ⟨0, _⟩ => rfl | ⟨1, _⟩ => exact absurd rfl hb) (Nat.zero_add _)

/-- … in the column of ones. -/
theorem v25_48 (e : Fin 4096) (m : Fin 2050) (h : m.val = 2048) :
    val_main_v25 (F := Ideal) a (ix2 e m) = val_main_v23 (F := Ideal) (ix2 e 0) := by
  unfold val_main_v25
  exact concatenate_apply_piece 1 _ _ (ix2 e m) 1 (by simp) S4096x1 _ rfl rfl 2048 rfl (ix2 e 0)
    (fun b hb => by match b with | ⟨0, _⟩ => rfl | ⟨1, _⟩ => exact absurd rfl hb) h.symm

/-- … in the column of zeros. -/
theorem v25_49 (e : Fin 4096) (m : Fin 2050) (h : m.val = 2049) :
    val_main_v25 (F := Ideal) a (ix2 e m) = val_main_v24 (F := Ideal) (ix2 e 0) := by
  unfold val_main_v25
  exact concatenate_apply_piece 1 _ _ (ix2 e m) 2 (by simp) S4096x1 _ rfl rfl 2049 rfl (ix2 e 0)
    (fun b hb => by match b with | ⟨0, _⟩ => rfl | ⟨1, _⟩ => exact absurd rfl hb) h.symm

/-- The scatter that sets column 2049 of the negated concatenation to zero: zero in that column, the negated
    concatenation elsewhere. -/
theorem v29_read (e : Fin 4096) (m : Fin 2050) :
    val_main_v29 (F := Ideal) a (ix2 e m)
      = if m.val = 2049 then Ideal.ofBits .f32 0x00000000#32 else val_main_v26 (F := Ideal) a (ix2 e m) := by
  have hidx : ∀ k, val_main_v27 (F := Ideal) k = 2049#32 := fun k => by rw [val_main_v27_apply, val_main_c_apply]
  have hu : ∀ j, val_main_v28 (F := Ideal) j = Ideal.ofBits .f32 0x00000000#32 := fun j => by
    rw [val_main_v28_apply, val_main_cst_12_apply]; rfl
  have key := scatter_const_apply scatter_S4096x2050_S1_S4096_0_1_1_0 (val_main_v26 (F := Ideal) a)
    (val_main_v27 (F := Ideal)) (val_main_v28 (F := Ideal)) _ hu (ix2 e m)
  unfold val_main_v29
  by_cases h : m.val = 2049
  · rw [if_pos h]
    refine key.1 ⟨ix1 e, ?_⟩
    rw [resultIdx_eq _ hidx]
    exact congrArg some (congrArg (ix2 e) (Fin.ext h.symm))
  · rw [if_neg h]
    refine key.2 fun j hj => ?_
    rw [resultIdx_eq _ hidx] at hj
    have := congrFun (Option.some.inj hj) 1
    exact h (congrArg Fin.val this).symm

end Layout

/-! ## Indices from coordinates -/

theorem ix2_ext {n0 n1 : Nat} (f : (⟨2, ![n0, n1]⟩ : Shape).Idx) (x : Fin n0) (y : Fin n1)
    (h0 : (f 0).val = x.val) (h1 : (f 1).val = y.val) : f = ix2 x y :=
  funext fun d => Fin.ext (by match d with | ⟨0, _⟩ => exact h0 | ⟨1, _⟩ => exact h1)

theorem ix1_ext {n : Nat} (f : (⟨1, ![n]⟩ : Shape).Idx) (x : Fin n) (h0 : (f 0).val = x.val) : f = ix1 x :=
  funext fun d => Fin.ext (by match d with | ⟨0, _⟩ => exact h0)

/-! ## The broadcast constants -/

theorem v7_at (i : S2050x2048.Idx) : val_main_v7 (F := Ideal) i = ((0 : ℝ) : EReal) := by
  rw [val_main_v7_apply, val_main_cst_3_apply]; exact Coe.ofBits_zero
theorem v10_at (i : S2050x2048.Idx) : val_main_v10 (F := Ideal) i = ((1 : ℝ) : EReal) := by
  rw [val_main_v10_apply, val_main_cst_4_apply]; exact Coe.ofBits_one
theorem v15_at (i : S1x2048.Idx) : val_main_v15 (F := Ideal) i = ((0 : ℝ) : EReal) := by
  rw [val_main_v15_apply, val_main_cst_6_apply]; exact Coe.ofBits_zero
theorem v17_at (i : S1x2048.Idx) : val_main_v17 (F := Ideal) i = ((0 : ℝ) : EReal) := by
  rw [val_main_v17_apply, val_main_cst_7_apply]; exact Coe.ofBits_zero
theorem call2_v1_at (i : S1x2048.Idx) : val_main_call2_v1 (F := Ideal) i = ((1 : ℝ) : EReal) := by
  rw [val_main_call2_v1_apply, val_main_call2_v0_apply, val_main_cst_8_apply]; exact Coe.ofBits_one
theorem call3_v2_at (i : S2050x2048.Idx) : val_main_call3_v2 (F := Ideal) i = ((0 : ℝ) : EReal) := by
  rw [val_main_call3_v2_apply, val_main_call3_v0_apply, val_main_cst_9_apply]; exact Coe.ofBits_zero
theorem v23_at (i : S4096x1.Idx) : val_main_v23 (F := Ideal) i = ((1 : ℝ) : EReal) := by
  rw [val_main_v23_apply, val_main_cst_10_apply]; exact Coe.ofBits_one
theorem v24_at (i : S4096x1.Idx) : val_main_v24 (F := Ideal) i = ((0 : ℝ) : EReal) := by
  rw [val_main_v24_apply, val_main_cst_11_apply]; exact Coe.ofBits_zero
theorem v42_at (i : S2050x2048.Idx) : val_main_v42 (F := Ideal) i = ((1 : ℝ) : EReal) := by
  rw [val_main_v42_apply, val_main_cst_15_apply]; exact Coe.ofBits_one
theorem v64_at (i : S2050x2048.Idx) : val_main_v64 (F := Ideal) i = ((2 : ℝ) : EReal) := by
  rw [val_main_v64_apply, val_main_cst_19_apply]; exact Coe.ofBits_two

/-- The divisor of a column is never zero. -/
theorem safe_ne_zero (th : Fin 2050 → Fin 2048 → ℝ) (n : Fin 2048) : safe th n ≠ 0 := by
  unfold safe
  split_ifs with h
  · exact ne_of_gt h
  · exact one_ne_zero

variable (a : (⟨S4096x2048, .f32⟩ : BufTy).Contents (Elt Ideal)) (θ : (⟨S2050x2048, .f32⟩ : BufTy).Contents (Elt Ideal))
variable (ar : Fin 4096 → Fin 2048 → ℝ) (tr' : Fin 2050 → Fin 2048 → ℝ) (thr : Fin 2050 → Fin 2048 → ℝ)

/-! ## The weights' side: the mask, the column sums, the normalised weights -/

section Weights

variable (ht : ∀ (m : Fin 2050) (n : Fin 2048), θ (ix2 m n) = ((tr' m n : ℝ) : EReal))
variable (hth : ∀ (m : Fin 2050) (n : Fin 2048), val_main_v4 (F := Ideal) θ (ix2 m n) = ((thr m n : ℝ) : EReal))
include ht hth

/-- The thresholded weight less the raw weight, plus the raw weight, is the thresholded weight. -/
theorem v6_at (m : Fin 2050) (n : Fin 2048) : val_main_v6 (F := Ideal) θ (ix2 m n) = ((thr m n : ℝ) : EReal) := by
  rw [val_main_v6_apply, val_main_v5_apply, hth, ht]
  show ((thr m n : ℝ) : EReal) - ((tr' m n : ℝ) : EReal) + ((tr' m n : ℝ) : EReal) = _
  rw [← EReal.coe_sub, ← EReal.coe_add, sub_add_cancel]

/-- The mask of the nonnegative weights. -/
theorem v9_at (m : Fin 2050) (n : Fin 2048) : val_main_v9 (F := Ideal) θ (ix2 m n) = ((pos thr m n : ℝ) : EReal) := by
  rw [val_main_v9_apply, val_main_v8_apply, v6_at θ tr' thr ht hth, v7_at, Coe.cmp_oge_coe, Coe.uitofp_ofBool]
  rfl

/-- The complementary mask. -/
theorem v11_at (m : Fin 2050) (n : Fin 2048) :
    val_main_v11 (F := Ideal) θ (ix2 m n) = ((1 - pos thr m n : ℝ) : EReal) := by
  rw [val_main_v11_apply, v10_at, v9_at θ tr' thr ht hth]; exact (EReal.coe_sub _ _).symm
theorem v43_at (m : Fin 2050) (n : Fin 2048) :
    val_main_v43 (F := Ideal) θ (ix2 m n) = ((1 - pos thr m n : ℝ) : EReal) := by
  rw [val_main_v43_apply, v42_at, v9_at θ tr' thr ht hth]; exact (EReal.coe_sub _ _).symm

/-- The magnitude of a weight. -/
theorem v12_at (m : Fin 2050) (n : Fin 2048) : val_main_v12 (F := Ideal) θ (ix2 m n) = ((|thr m n| : ℝ) : EReal) := by
  rw [val_main_v12_apply, v6_at θ tr' thr ht hth, Coe.absf_coe]

/-- The absolute column sum. -/
theorem v13_at (n : Fin 2048) : val_main_v13 (F := Ideal) θ (ix1 n) = ((colsum thr n : ℝ) : EReal) := by
  rw [val_main_v13_apply, val_main_cst_5_apply]
  have h : ∀ k : Fin 2050, val_main_v12 (F := Ideal) θ (idx_main_v13 (ix1 n) k) = ((|thr k n| : ℝ) : EReal) := fun k => by
    rw [ix2_ext (idx_main_v13 (ix1 n) k) k n rfl rfl]; exact v12_at θ tr' thr ht hth k n
  simp only [h]
  rw [Ideal.ofBits_def, Coe.ofBits_zero, ← Coe.coe_sum, ← EReal.coe_add, zero_add]
  rfl
theorem v14_at (n : Fin 2048) : val_main_v14 (F := Ideal) θ (ix2 (0 : Fin 1) n) = ((colsum thr n : ℝ) : EReal) := by
  rw [val_main_v14_apply, ix1_ext (idx_main_v14 (ix2 (0 : Fin 1) n)) n rfl]; exact v13_at θ tr' thr ht hth n

/-- Whether a column's absolute sum is positive. -/
theorem v16_at (n : Fin 2048) :
    val_main_v16 (F := Ideal) θ (ix2 (0 : Fin 1) n) = BitVec.ofBool (decide (0 < colsum thr n)) := by
  rw [val_main_v16_apply, v14_at θ tr' thr ht hth, v15_at, Coe.cmp_ogt_coe]
theorem v18_at (n : Fin 2048) :
    val_main_v18 (F := Ideal) θ (ix2 (0 : Fin 1) n) = BitVec.ofBool (decide (0 < colsum thr n)) := by
  rw [val_main_v18_apply, v14_at θ tr' thr ht hth, v17_at, Coe.cmp_ogt_coe]

/-- The divisor of a column. -/
theorem v19_at (n : Fin 2048) : val_main_v19 (F := Ideal) θ (ix2 (0 : Fin 1) n) = ((safe thr n : ℝ) : EReal) := by
  rw [val_main_v19_apply, v18_at θ tr' thr ht hth, v14_at θ tr' thr ht hth, call2_v1_at, Coe.select_ofBool, Coe.ite_coe]
  rfl
theorem v20_at (m : Fin 2050) (n : Fin 2048) : val_main_v20 (F := Ideal) θ (ix2 m n) = ((safe thr n : ℝ) : EReal) := by
  rw [val_main_v20_apply, ix2_ext (idx_main_v20 (ix2 m n)) (0 : Fin 1) n rfl rfl]; exact v19_at θ tr' thr ht hth n

/-- The magnitude over the divisor. -/
theorem v21_at (m : Fin 2050) (n : Fin 2048) :
    val_main_v21 (F := Ideal) θ (ix2 m n) = ((|thr m n| / safe thr n : ℝ) : EReal) := by
  rw [val_main_v21_apply, v12_at θ tr' thr ht hth, v20_at θ tr' thr ht hth, Coe.hostDivf_coe _ _ (safe_ne_zero thr n)]
theorem call3_v1_at (m : Fin 2050) (n : Fin 2048) :
    val_main_call3_v1 (F := Ideal) θ (ix2 m n) = BitVec.ofBool (decide (0 < colsum thr n)) := by
  rw [val_main_call3_v1_apply, ix2_ext (idx_main_call3_v1 (ix2 m n)) (0 : Fin 1) n rfl rfl]
  exact v16_at θ tr' thr ht hth n

/-- The absolute normalised weight. -/
theorem v22_at (m : Fin 2050) (n : Fin 2048) : val_main_v22 (F := Ideal) θ (ix2 m n) = ((W thr m n : ℝ) : EReal) := by
  rw [val_main_v22_apply, call3_v1_at θ tr' thr ht hth, v21_at θ tr' thr ht hth, call3_v2_at, Coe.select_ofBool,
    Coe.ite_coe]
  rfl
theorem v30_at (m : Fin 2050) (n : Fin 2048) :
    val_main_v30 (F := Ideal) θ (ix2 m n) = ((W thr m n * pos thr m n : ℝ) : EReal) := by
  rw [val_main_v30_apply, v22_at θ tr' thr ht hth, v9_at θ tr' thr ht hth]; exact (EReal.coe_mul _ _).symm
theorem v32_at (m : Fin 2050) (n : Fin 2048) :
    val_main_v32 (F := Ideal) θ (ix2 m n) = ((W thr m n * (1 - pos thr m n) : ℝ) : EReal) := by
  rw [val_main_v32_apply, v22_at θ tr' thr ht hth, v11_at θ tr' thr ht hth]; exact (EReal.coe_mul _ _).symm

end Weights

/-! ## The inputs' side: the extended input, its negation, their sums of squares -/

section Inputs

variable (ha : ∀ (e : Fin 4096) (k : Fin 2048), a (ix2 e k) = ((ar e k : ℝ) : EReal))
include ha

/-- The extended input `[a, 1, 0]`. -/
theorem v25_at (e : Fin 4096) (m : Fin 2050) : val_main_v25 (F := Ideal) a (ix2 e m) = ((xe ar e m : ℝ) : EReal) := by
  unfold xe
  by_cases h : m.val < 2048
  · rw [dif_pos h, v25_lt a e m h, ha]
  · rw [dif_neg h]
    by_cases h8 : m.val = 2048
    · rw [if_pos h8, v25_48 a e m h8, v23_at]
    · have h9 : m.val = 2049 := by omega
      rw [if_neg h8, v25_49 a e m h9, v24_at]
theorem v26_at (e : Fin 4096) (m : Fin 2050) : val_main_v26 (F := Ideal) a (ix2 e m) = ((-xe ar e m : ℝ) : EReal) := by
  rw [val_main_v26_apply, v25_at a ar ha]; exact (EReal.coe_neg _).symm

/-- The negated extended input, its last column zero. -/
theorem v29_at (e : Fin 4096) (m : Fin 2050) : val_main_v29 (F := Ideal) a (ix2 e m) = ((xn ar e m : ℝ) : EReal) := by
  rw [v29_read a e m]; unfold xn
  by_cases h : m.val = 2049
  · rw [if_pos h, if_pos h]; exact Coe.ofBits_zero
  · rw [if_neg h, if_neg h]; exact v26_at a ar ha e m

/-- The two through the transposition. -/
theorem v55_at (m : Fin 2050) (e : Fin 4096) : val_main_v55 (F := Ideal) a (ix2 m e) = ((xe ar e m : ℝ) : EReal) := by
  rw [val_main_v55_apply, ix2_ext (idx_main_v55 (ix2 m e)) e m rfl rfl]; exact v25_at a ar ha e m
theorem v57_at (m : Fin 2050) (e : Fin 4096) : val_main_v57 (F := Ideal) a (ix2 m e) = ((xn ar e m : ℝ) : EReal) := by
  rw [val_main_v57_apply, ix2_ext (idx_main_v57 (ix2 m e)) e m rfl rfl]; exact v29_at a ar ha e m

/-- The sum over the samples of the squares of the extended input. -/
theorem v44_at (e : Fin 4096) (m : Fin 2050) :
    val_main_v44 (F := Ideal) a (ix2 e m) = ((xe ar e m * xe ar e m : ℝ) : EReal) := by
  rw [val_main_v44_apply, v25_at a ar ha]; exact (EReal.coe_mul _ _).symm
theorem v45_at (m : Fin 2050) :
    val_main_v45 (F := Ideal) a (ix1 m) = ((∑ e : Fin 4096, xe ar e m * xe ar e m : ℝ) : EReal) := by
  rw [val_main_v45_apply, val_main_cst_16_apply]
  have h : ∀ k : Fin 4096, val_main_v44 (F := Ideal) a (idx_main_v45 (ix1 m) k) = ((xe ar k m * xe ar k m : ℝ) : EReal) :=
    fun k => by rw [ix2_ext (idx_main_v45 (ix1 m) k) k m rfl rfl]; exact v44_at a ar ha k m
  simp only [h]
  rw [Ideal.ofBits_def, Coe.ofBits_zero, ← Coe.coe_sum, ← EReal.coe_add, zero_add]
theorem v48_at (m : Fin 2050) :
    val_main_v48 (F := Ideal) a (ix2 m (0 : Fin 1)) = ((∑ e : Fin 4096, xe ar e m * xe ar e m : ℝ) : EReal) := by
  rw [val_main_v48_apply, ix1_ext (idx_main_v48 (ix2 m (0 : Fin 1))) m rfl]; exact v45_at a ar ha m
theorem v49_at (m : Fin 2050) (n : Fin 2048) :
    val_main_v49 (F := Ideal) a (ix2 m n) = ((∑ e : Fin 4096, xe ar e m * xe ar e m : ℝ) : EReal) := by
  rw [val_main_v49_apply, ix2_ext (idx_main_v49 (ix2 m n)) m (0 : Fin 1) rfl rfl]; exact v48_at a ar ha m

/-- The sum over the samples of the squares of the negated extended input. -/
theorem v46_at (e : Fin 4096) (m : Fin 2050) :
    val_main_v46 (F := Ideal) a (ix2 e m) = ((xn ar e m * xn ar e m : ℝ) : EReal) := by
  rw [val_main_v46_apply, v29_at a ar ha]; exact (EReal.coe_mul _ _).symm
theorem v47_at (m : Fin 2050) :
    val_main_v47 (F := Ideal) a (ix1 m) = ((∑ e : Fin 4096, xn ar e m * xn ar e m : ℝ) : EReal) := by
  rw [val_main_v47_apply, val_main_cst_17_apply]
  have h : ∀ k : Fin 4096, val_main_v46 (F := Ideal) a (idx_main_v47 (ix1 m) k) = ((xn ar k m * xn ar k m : ℝ) : EReal) :=
    fun k => by rw [ix2_ext (idx_main_v47 (ix1 m) k) k m rfl rfl]; exact v46_at a ar ha k m
  simp only [h]
  rw [Ideal.ofBits_def, Coe.ofBits_zero, ← Coe.coe_sum, ← EReal.coe_add, zero_add]
theorem v51_at (m : Fin 2050) :
    val_main_v51 (F := Ideal) a (ix2 m (0 : Fin 1)) = ((∑ e : Fin 4096, xn ar e m * xn ar e m : ℝ) : EReal) := by
  rw [val_main_v51_apply, ix1_ext (idx_main_v51 (ix2 m (0 : Fin 1))) m rfl]; exact v47_at a ar ha m
theorem v52_at (m : Fin 2050) (n : Fin 2048) :
    val_main_v52 (F := Ideal) a (ix2 m n) = ((∑ e : Fin 4096, xn ar e m * xn ar e m : ℝ) : EReal) := by
  rw [val_main_v52_apply, ix2_ext (idx_main_v52 (ix2 m n)) m (0 : Fin 1) rfl rfl]; exact v51_at a ar ha m

end Inputs

/-! ## The output and the power -/

section Results

variable (ha : ∀ (e : Fin 4096) (k : Fin 2048), a (ix2 e k) = ((ar e k : ℝ) : EReal))
variable (ht : ∀ (m : Fin 2050) (n : Fin 2048), θ (ix2 m n) = ((tr' m n : ℝ) : EReal))
variable (hth : ∀ (m : Fin 2050) (n : Fin 2048), val_main_v4 (F := Ideal) θ (ix2 m n) = ((thr m n : ℝ) : EReal))

/-- The extended input against the masked weights. -/
theorem v31_at (ha : ∀ (e : Fin 4096) (k : Fin 2048), a (ix2 e k) = ((ar e k : ℝ) : EReal))
    (ht : ∀ (m : Fin 2050) (n : Fin 2048), θ (ix2 m n) = ((tr' m n : ℝ) : EReal))
    (hth : ∀ (m : Fin 2050) (n : Fin 2048), val_main_v4 (F := Ideal) θ (ix2 m n) = ((thr m n : ℝ) : EReal))
    (e : Fin 4096) (n : Fin 2048) :
    val_main_v31 (F := Ideal) a θ (ix2 e n)
      = ((∑ m : Fin 2050, xe ar e m * (W thr m n * pos thr m n) : ℝ) : EReal) := by
  rw [val_main_v31_apply, Coe.coe_sum]
  refine Finset.sum_congr rfl fun k _ => ?_
  rw [ix2_ext (lidx_main_v31 (ix2 e n) k) e k rfl rfl, ix2_ext (ridx_main_v31 (ix2 e n) k) k n rfl rfl,
    v25_at a ar ha, v30_at θ tr' thr ht hth, ← EReal.coe_mul]

/-- The negated extended input against the complementarily masked weights. -/
theorem v33_at (ha : ∀ (e : Fin 4096) (k : Fin 2048), a (ix2 e k) = ((ar e k : ℝ) : EReal))
    (ht : ∀ (m : Fin 2050) (n : Fin 2048), θ (ix2 m n) = ((tr' m n : ℝ) : EReal))
    (hth : ∀ (m : Fin 2050) (n : Fin 2048), val_main_v4 (F := Ideal) θ (ix2 m n) = ((thr m n : ℝ) : EReal))
    (e : Fin 4096) (n : Fin 2048) :
    val_main_v33 (F := Ideal) a θ (ix2 e n)
      = ((∑ m : Fin 2050, xn ar e m * (W thr m n * (1 - pos thr m n)) : ℝ) : EReal) := by
  rw [val_main_v33_apply, Coe.coe_sum]
  refine Finset.sum_congr rfl fun k _ => ?_
  rw [ix2_ext (lidx_main_v33 (ix2 e n) k) e k rfl rfl, ix2_ext (ridx_main_v33 (ix2 e n) k) k n rfl rfl,
    v29_at a ar ha, v32_at θ tr' thr ht hth, ← EReal.coe_mul]

/-- The reference's output at `(e, n)`. -/
theorem z_at (ha : ∀ (e : Fin 4096) (k : Fin 2048), a (ix2 e k) = ((ar e k : ℝ) : EReal))
    (ht : ∀ (m : Fin 2050) (n : Fin 2048), θ (ix2 m n) = ((tr' m n : ℝ) : EReal))
    (hth : ∀ (m : Fin 2050) (n : Fin 2048), val_main_v4 (F := Ideal) θ (ix2 m n) = ((thr m n : ℝ) : EReal))
    (e : Fin 4096) (n : Fin 2048) :
    val_main_v34 (F := Ideal) a θ (ix2 e n) = ((zr ar thr e n : ℝ) : EReal) := by
  rw [val_main_v34_apply, v31_at a θ ar tr' thr ha ht hth, v33_at a θ ar tr' thr ha ht hth]
  exact (EReal.coe_add _ _).symm

include ha ht hth

/-- The masked sums of squares. -/
theorem v54_at (m : Fin 2050) (n : Fin 2048) :
    val_main_v54 (F := Ideal) a θ (ix2 m n)
      = ((pos thr m n * (∑ e : Fin 4096, xe ar e m * xe ar e m)
          + (1 - pos thr m n) * (∑ e : Fin 4096, xn ar e m * xn ar e m) : ℝ) : EReal) := by
  rw [val_main_v54_apply, val_main_v50_apply, val_main_v53_apply, v9_at θ tr' thr ht hth, v43_at θ tr' thr ht hth,
    v49_at a ar ha, v52_at a ar ha]
  show ((_ : ℝ) : EReal) * ((_ : ℝ) : EReal) + ((_ : ℝ) : EReal) * ((_ : ℝ) : EReal) = _
  rw [← EReal.coe_mul, ← EReal.coe_mul, ← EReal.coe_add]

/-- The correlations of the two extended inputs with the output. -/
theorem v56_at (m : Fin 2050) (n : Fin 2048) :
    val_main_v56 (F := Ideal) a θ (ix2 m n) = ((∑ e : Fin 4096, xe ar e m * zr ar thr e n : ℝ) : EReal) := by
  rw [val_main_v56_apply, Coe.coe_sum]
  refine Finset.sum_congr rfl fun k _ => ?_
  rw [ix2_ext (lidx_main_v56 (ix2 m n) k) m k rfl rfl, ix2_ext (ridx_main_v56 (ix2 m n) k) k n rfl rfl,
    v55_at a ar ha, z_at a θ ar tr' thr ha ht hth, ← EReal.coe_mul]
theorem v58_at (m : Fin 2050) (n : Fin 2048) :
    val_main_v58 (F := Ideal) a θ (ix2 m n) = ((∑ e : Fin 4096, xn ar e m * zr ar thr e n : ℝ) : EReal) := by
  rw [val_main_v58_apply, Coe.coe_sum]
  refine Finset.sum_congr rfl fun k _ => ?_
  rw [ix2_ext (lidx_main_v58 (ix2 m n) k) m k rfl rfl, ix2_ext (ridx_main_v58 (ix2 m n) k) k n rfl rfl,
    v57_at a ar ha, z_at a θ ar tr' thr ha ht hth, ← EReal.coe_mul]

/-- The masked correlations. -/
theorem v61_at (m : Fin 2050) (n : Fin 2048) :
    val_main_v61 (F := Ideal) a θ (ix2 m n)
      = ((pos thr m n * (∑ e : Fin 4096, xe ar e m * zr ar thr e n)
          + (1 - pos thr m n) * (∑ e : Fin 4096, xn ar e m * zr ar thr e n) : ℝ) : EReal) := by
  rw [val_main_v61_apply, val_main_v59_apply, val_main_v60_apply, v9_at θ tr' thr ht hth, v43_at θ tr' thr ht hth,
    v56_at a θ ar tr' thr ha ht hth, v58_at a θ ar tr' thr ha ht hth]
  show ((_ : ℝ) : EReal) * ((_ : ℝ) : EReal) + ((_ : ℝ) : EReal) * ((_ : ℝ) : EReal) = _
  rw [← EReal.coe_mul, ← EReal.coe_mul, ← EReal.coe_add]

/-- The output's sum of squares over the samples. -/
theorem v62_at (e : Fin 4096) (n : Fin 2048) :
    val_main_v62 (F := Ideal) a θ (ix2 e n) = ((zr ar thr e n * zr ar thr e n : ℝ) : EReal) := by
  rw [val_main_v62_apply, z_at a θ ar tr' thr ha ht hth]; exact (EReal.coe_mul _ _).symm
theorem v63_at (n : Fin 2048) :
    val_main_v63 (F := Ideal) a θ (ix1 n) = ((∑ e : Fin 4096, zr ar thr e n * zr ar thr e n : ℝ) : EReal) := by
  rw [val_main_v63_apply, val_main_cst_18_apply]
  have h : ∀ k : Fin 4096, val_main_v62 (F := Ideal) a θ (idx_main_v63 (ix1 n) k)
      = ((zr ar thr k n * zr ar thr k n : ℝ) : EReal) :=
    fun k => by rw [ix2_ext (idx_main_v63 (ix1 n) k) k n rfl rfl]; exact v62_at a θ ar tr' thr ha ht hth k n
  simp only [h]
  rw [Ideal.ofBits_def, Coe.ofBits_zero, ← Coe.coe_sum, ← EReal.coe_add, zero_add]
theorem v68_at (m : Fin 2050) (n : Fin 2048) :
    val_main_v68 (F := Ideal) a θ (ix2 m n) = ((∑ e : Fin 4096, zr ar thr e n * zr ar thr e n : ℝ) : EReal) := by
  rw [val_main_v68_apply, ix2_ext (idx_main_v68 (ix2 m n)) (0 : Fin 1) n rfl rfl, val_main_v67_apply,
    ix1_ext (idx_main_v67 (ix2 (0 : Fin 1) n)) n rfl]
  exact v63_at a θ ar tr' thr ha ht hth n

/-- The power term of row `m` and column `n`. -/
theorem v69_at (m : Fin 2050) (n : Fin 2048) :
    val_main_v69 (F := Ideal) a θ (ix2 m n) = ((tr ar thr (zr ar thr) m n : ℝ) : EReal) := by
  rw [val_main_v69_apply, val_main_v66_apply, val_main_v65_apply, v64_at, v54_at a θ ar tr' thr ha ht hth,
    v61_at a θ ar tr' thr ha ht hth, v68_at a θ ar tr' thr ha ht hth]
  show ((_ : ℝ) : EReal) - ((2 : ℝ) : EReal) * ((_ : ℝ) : EReal) + ((_ : ℝ) : EReal) = _
  rw [← EReal.coe_mul, ← EReal.coe_sub, ← EReal.coe_add]
  rfl

omit ha ht hth in
/-- The reference's power. -/
theorem p_at (ha : ∀ (e : Fin 4096) (k : Fin 2048), a (ix2 e k) = ((ar e k : ℝ) : EReal))
    (ht : ∀ (m : Fin 2050) (n : Fin 2048), θ (ix2 m n) = ((tr' m n : ℝ) : EReal))
    (hth : ∀ (m : Fin 2050) (n : Fin 2048), val_main_v4 (F := Ideal) θ (ix2 m n) = ((thr m n : ℝ) : EReal)) :
    val_main_v72 (F := Ideal) a θ ix0
      = Ideal.div
          (∑ m : Fin 2050, ∑ n : Fin 2048, val_main_v41 (F := Ideal) θ (ix2 m n) * ((tr ar thr (zr ar thr) m n : ℝ) : EReal))
          (Ideal.ofBits .f32 0x45800000#32) := by
  rw [val_main_v72_apply, val_main_v71_apply, val_main_cst_20_apply, val_main_cst_21_apply, sum_idx2]
  have h : ∀ (m : Fin 2050) (n : Fin 2048), val_main_v70 (F := Ideal) a θ (ix2 m n)
      = val_main_v41 (F := Ideal) θ (ix2 m n) * ((tr ar thr (zr ar thr) m n : ℝ) : EReal) := fun m n => by
    rw [val_main_v70_apply, v69_at a θ ar tr' thr ha ht hth]; rfl
  simp only [h]
  rw [Ideal.hostDivf_def, Ideal.ofBits_def, Ideal.ofBits_def, Coe.ofBits_zero, EReal.coe_zero, zero_add]

end Results

end Cert.RefRead

end
-- ==== Proof.RealAlgebra.lean ====
/-
  The signed form and the masked form of the two programs' arithmetic agree over the real numbers.

  Per weight entry the mask `pos` is 0 or 1 and `W · (2·pos − 1) = ws` (an absolute value times its sign); the negated
  extended input is the negative of the extended input except in its last column, where both are zero. So the two
  masked products add up to the one signed product, and each row's power term collapses: a feature row's to
  `Σa² − 2·sign·(aᵀz) + Σz²`, the constant-one row's to `4096 − 2·sign·Σz + Σz²`, the constant-zero row's to `Σz²`.
-/
import proofs.«166182_j39599598469767_1_alg».proof.Proof.RealModel

noncomputable section

namespace Cert.Model

variable (a : Fin 4096 → Fin 2048 → ℝ) (th : Fin 2050 → Fin 2048 → ℝ)

/-- A sum over the 2050 weight rows is the sum over the 2048 feature rows plus the two extra rows' terms (in any
    commutative monoid: the order of a finite sum does not matter). -/
theorem sum_rows {M : Type*} [AddCommMonoid M] (f : Fin 2050 → M) :
    ∑ m : Fin 2050, f m = (∑ k : Fin 2048, f (up k)) + f r48 + f r49 := by
  have h1 : ∑ m : Fin 2050, f m = (∑ m : Fin 2049, f (Fin.castSucc m)) + f (Fin.last 2049) :=
    Fin.sum_univ_castSucc f
  have h2 : ∑ m : Fin 2049, f (Fin.castSucc m)
      = (∑ k : Fin 2048, f (Fin.castSucc (Fin.castSucc k))) + f (Fin.castSucc (Fin.last 2048)) :=
    Fin.sum_univ_castSucc (fun m : Fin 2049 => f (Fin.castSucc m))
  rw [h1, h2]
  rfl

/-! ### The extended inputs at the three kinds of row -/

private theorem xe_up (e : Fin 4096) (k : Fin 2048) : xe a e (up k) = a e k := by
  unfold xe
  rw [dif_pos (show (up k).val < 2048 from k.isLt)]

private theorem xe_r48 (e : Fin 4096) : xe a e r48 = 1 := by
  unfold xe
  rw [dif_neg (show ¬ (r48.val < 2048) from Nat.lt_irrefl 2048), if_pos (show r48.val = 2048 from rfl)]

private theorem xe_r49 (e : Fin 4096) : xe a e r49 = 0 := by
  unfold xe
  rw [dif_neg (show ¬ (r49.val < 2048) by show ¬ (2049 < 2048); omega),
    if_neg (show ¬ (r49.val = 2048) by show ¬ (2049 = 2048); omega)]

private theorem xn_up (e : Fin 4096) (k : Fin 2048) : xn a e (up k) = -(a e k) := by
  unfold xn
  rw [if_neg (show ¬ ((up k).val = 2049) by show ¬ (k.val = 2049); have := k.isLt; omega), xe_up]

private theorem xn_r48 (e : Fin 4096) : xn a e r48 = -1 := by
  unfold xn
  rw [if_neg (show ¬ (r48.val = 2049) by show ¬ (2048 = 2049); omega), xe_r48]

private theorem xn_r49 (e : Fin 4096) : xn a e r49 = 0 := by
  unfold xn
  rw [if_pos (show r49.val = 2049 from rfl)]

/-- Per entry, the absolute normalised weight times the sign (mask minus complementary mask) is the signed
    normalised weight: `|x| = x` for `0 ≤ x` and `|x| = -x` for `x < 0`. -/
private theorem W_mul_sign (m : Fin 2050) (n : Fin 2048) :
    W th m n * pos th m n - W th m n * (1 - pos th m n) = ws th m n := by
  unfold W pos ws
  by_cases hc : 0 < colsum th n
  · by_cases hs : 0 ≤ th m n
    · rw [if_pos hc, if_pos hc, if_pos hs, abs_of_nonneg hs]; ring
    · rw [if_pos hc, if_pos hc, if_neg hs, abs_of_neg (lt_of_not_ge hs)]; ring
  · rw [if_neg hc, if_neg hc]; ring

/-- The two masked products are the one signed product plus the constant-one feature's weight. -/
theorem zr_eq_zk (e : Fin 4096) (n : Fin 2048) : zr a th e n = zk a th e n := by
  unfold zr zk
  rw [sum_rows (fun m => xe a e m * (W th m n * pos th m n)),
    sum_rows (fun m => xn a e m * (W th m n * (1 - pos th m n)))]
  simp only [xe_up, xe_r48, xe_r49, xn_up, xn_r48, xn_r49]
  have hk : ∀ k : Fin 2048, a e k * ws th (up k) n
      = a e k * (W th (up k) n * pos th (up k) n)
        + -(a e k) * (W th (up k) n * (1 - pos th (up k) n)) := by
    intro k; rw [← W_mul_sign]; ring
  rw [Finset.sum_congr rfl (fun k _ => hk k), Finset.sum_add_distrib, ← W_mul_sign th r48 n]
  ring

/-- A feature row's power term. -/
theorem tr_up (z : Fin 4096 → Fin 2048 → ℝ) (k n : Fin 2048) :
    tr a th z (up k) n = tmain a th (cx a z) (yy z) k n := by
  unfold tr tmain cx yy sa2 sgn pos
  simp only [xe_up, xn_up, neg_mul, mul_neg, neg_neg, Finset.sum_neg_distrib]
  by_cases hs : 0 ≤ th (up k) n
  · rw [if_pos hs, if_pos hs]; ring
  · rw [if_neg hs, if_neg hs]; ring

/-- The constant-one row's power term. -/
theorem tr_r48 (z : Fin 4096 → Fin 2048 → ℝ) (n : Fin 2048) :
    tr a th z r48 n = tones th (cz z) (yy z) n := by
  have hcard : (∑ _e : Fin 4096, (1 : ℝ)) = 4096 := by
    rw [Finset.sum_const, Finset.card_univ, Fintype.card_fin, nsmul_eq_mul]; norm_num
  unfold tr tones cz yy sgn pos
  simp only [xe_r48, xn_r48, neg_mul, mul_neg, neg_neg, one_mul, mul_one, Finset.sum_neg_distrib, hcard]
  by_cases hs : 0 ≤ th r48 n
  · rw [if_pos hs, if_pos hs]; ring
  · rw [if_neg hs, if_neg hs]; ring

/-- The constant-zero row's power term. -/
theorem tr_r49 (z : Fin 4096 → Fin 2048 → ℝ) (n : Fin 2048) :
    tr a th z r49 n = yy z n := by
  unfold tr yy
  simp only [xe_r49, xn_r49, zero_mul, mul_zero, Finset.sum_const_zero]
  ring

end Cert.Model

end
-- ==== Proof.Finite.lean ====
/-
  From the precondition to real numbers: every entry of the two arguments has magnitude below +∞, so it is the
  coercion of a real number.
-/
import proofs.«166182_j39599598469767_1_alg».proof.Pre_finite_inputs
import proofs.«166182_j39599598469767_1_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal
import Idealize.ShloMosaic.PureOps.Ideal.Laws

noncomputable section

namespace Cert.Finite

open Idealize.ShloMosaic Idealize.ShloMosaic.ValueIdx

instance : Subsingleton (⟨0, ![]⟩ : Shape).Idx := ⟨fun _ _ => funext fun d => d.elim0⟩

/-- The pattern of +∞. -/
theorem ofBits_inf : Ideal.ofBits .f32 0x7F800000#32 = (⊤ : EReal) := by
  simp [Ideal.ofBits, Ideal.ieee]

/-- An extended real whose magnitude is below +∞ is a real number. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [ofBits_inf, Ideal.hostAbsf_def, Ideal.absf_def] at h
  have h' : max x (-x) < ⊤ := by
    by_contra hn
    have : FloatOps.cmpf (F := Ideal) (φ := .f32) .olt (max x (-x)) (⊤ : EReal) = 0#1 := by
      show Ideal.cmp .olt (max x (-x)) ⊤ = 0#1
      simp only [Ideal.cmp, hn, decide_false, BitVec.ofBool_false]
      rfl
    rw [this] at h; exact absurd h (by decide)
  induction x using EReal.rec with
  | bot => simp at h'
  | coe r => exact ⟨r, rfl⟩
  | top => simp at h'

/-- Under the precondition both arguments are finite everywhere. -/
theorem finite_of_pre (a : FVec Ideal Cert.Pre_finite_inputs.S4096x2048 .f32) (θ : FVec Ideal Cert.Pre_finite_inputs.S2050x2048 .f32)
    (h : Cert.Pre_finite_inputs.fn (F := Ideal) a θ = fun _ => 1#1) :
    (∀ i, ∃ r : ℝ, a i = (r : EReal)) ∧ (∀ i, ∃ r : ℝ, θ i = (r : EReal)) := by
  have h0 := congrFun h ix0
  dsimp only [Cert.Pre_finite_inputs.fn] at h0
  obtain ⟨ha, ht⟩ := IntOp.andi_eq_one.1 h0
  constructor
  · intro i
    have e := Host.reduce_andi_all _ _ _ _ _ ha i
    exact real_of_abs_lt (a i) (by
      have := e
      rw [cmpf_apply] at this
      rw [broadcastInDim_apply _ Cert.Pre_finite_inputs.Facts.bcast_S_S4096x2048 _ i (fun d => d.elim0) (fun d => d.elim0)] at this
      exact this)
  · intro i
    have e := Host.reduce_andi_all _ _ _ _ _ ht i
    exact real_of_abs_lt (θ i) (by
      have := e
      rw [cmpf_apply] at this
      rw [broadcastInDim_apply _ Cert.Pre_finite_inputs.Facts.bcast_S_S2050x2048 _ i (fun d => d.elim0) (fun d => d.elim0)] at this
      exact this)

end Cert.Finite

end
-- ==== Proof.ThFinite.lean ====
/-
  The clipped and thresholded weights are finite where the weights are: an entry is either zero or the weight clipped
  between two finite bounds.
-/
import proofs.«166182_j39599598469767_1_alg».proof.Proof.HostTerms
import proofs.«166182_j39599598469767_1_alg».proof.Proof.Coe
import Idealize.ShloMosaic.Lib.ValueIdx
import Idealize.ShloMosaic.Lib.Pipeline.Value

noncomputable section

namespace Cert.ThFinite

open Idealize.ShloMosaic Idealize.ShloMosaic.ValueIdx Cert.KernelIdeal Cert.KHost

/-- A pattern whose exponent field is not all ones denotes a real number. -/
theorem ieee_finite (e m : Nat) {w : Nat} (b : BitVec w) (h : (b.extractLsb' m e).toNat ≠ 2 ^ e - 1) :
    ∃ r : ℝ, Ideal.ieee e m b = (r : EReal) := by
  unfold Ideal.ieee
  dsimp only
  rw [if_neg h]
  split <;> exact ⟨_, rfl⟩

/-- The upper clipping bound is finite. -/
theorem hi_finite : ∃ r : ℝ, Ideal.ofBits .f32 0x3DCCCCCD#32 = (r : EReal) :=
  ieee_finite 8 23 (0x3DCCCCCD#32 : BitVec 32) (by decide)
/-- The lower clipping bound is finite. -/
theorem lo_finite : ∃ r : ℝ, Ideal.ofBits .f32 0xBDCCCCCD#32 = (r : EReal) :=
  ieee_finite 8 23 (0xBDCCCCCD#32 : BitVec 32) (by decide)

/-- A finite value clipped between the two bounds is finite. -/
theorem clip_finite (x : EReal) (hx : ∃ r : ℝ, x = (r : EReal)) :
    ∃ r : ℝ, min (Ideal.ofBits .f32 0x3DCCCCCD#32) (max (Ideal.ofBits .f32 0xBDCCCCCD#32) x) = (r : EReal) := by
  obtain ⟨r, rfl⟩ := hx
  obtain ⟨h, hh⟩ := hi_finite
  obtain ⟨l, hl⟩ := lo_finite
  rw [hh, hl]
  exact ⟨min h (max l r), by rw [EReal.coe_strictMono.monotone.map_min, EReal.coe_strictMono.monotone.map_max]⟩

/-- The clipped weight at an index. -/
theorem clipT_apply (θ : FVec Ideal S2050x2048 .f32) (i : S2050x2048.Idx) :
    clipT θ i = min (Ideal.ofBits .f32 0x3DCCCCCD#32) (max (Ideal.ofBits .f32 0xBDCCCCCD#32) (θ i)) := by
  unfold clipT
  rw [minimumf_apply, maximumf_apply,
    broadcastInDim_apply _ Facts₀.bcast_S_S2050x2048 _ i (fun d => d.elim0) (fun d => d.elim0),
    broadcastInDim_apply _ Facts₀.bcast_S_S2050x2048 _ i (fun d => d.elim0) (fun d => d.elim0)]
  rfl

/-- The clipped and thresholded weights are finite where the weights are. -/
theorem thT_finite (θ : FVec Ideal S2050x2048 .f32) (hθ : ∀ i, ∃ r : ℝ, θ i = (r : EReal)) (i : S2050x2048.Idx) :
    ∃ r : ℝ, thT θ i = (r : EReal) := by
  unfold thT
  rw [select_apply]
  unfold Scalar.select
  split
  · rw [broadcastInDim_apply _ Facts₀.bcast_S_S2050x2048 _ i (fun d => d.elim0) (fun d => d.elim0)]
    exact ⟨0, Cert.Coe.ofBits_zero⟩
  · rw [clipT_apply]
    exact clip_finite _ (hθ i)

end Cert.ThFinite

end
-- ==== Proof.Bridge.lean ====
/-
  The two programs' results are the same extended reals, under the precondition.

  Both arguments are finite, so every entry is a real number, and so is every clipped and thresholded weight. Over
  the reals the program with the kernels computes the signed form and the reference the masked form of the same
  output `z`, and of the same power term in each of the three kinds of weight row; the power is the sum over all weight
  entries of the rescaled magnitude `g` (the same function of the weights in both programs, possibly infinite, never
  opened) times that row's finite power term, over 4096; the program with the kernels adds it up as the feature rows,
  then the constant-one row, then the constant-zero row, which in a commutative monoid is the same sum.
-/
import proofs.«166182_j39599598469767_1_alg».proof.Proof.KernelFold
import proofs.«166182_j39599598469767_1_alg».proof.Proof.Region0
import proofs.«166182_j39599598469767_1_alg».proof.Proof.Region1
import proofs.«166182_j39599598469767_1_alg».proof.Proof.KernelRead
import proofs.«166182_j39599598469767_1_alg».proof.Proof.RefRead
import proofs.«166182_j39599598469767_1_alg».proof.Proof.RealAlgebra
import proofs.«166182_j39599598469767_1_alg».proof.Proof.Finite
import proofs.«166182_j39599598469767_1_alg».proof.Proof.ThFinite

set_option maxRecDepth 16384

noncomputable section

namespace Cert.Bridge

open Idealize.ShloMosaic Idealize.ShloMosaic.ValueIdx
open Cert.KernelIdeal Cert.KHost Cert.Model Cert.Spec

/-- The clipped and thresholded weights are the same function of the weights in both programs. -/
theorem thT_eq (θ : FVec Ideal S2050x2048 .f32) : thT θ = Cert.ReferenceIdeal.Read.val_main_v4 (F := Ideal) θ := rfl

/-- The rescaled magnitudes are the same function of the weights in both programs. -/
theorem gT_eq (θ : FVec Ideal S2050x2048 .f32) : gT θ = Cert.ReferenceIdeal.Read.val_main_v41 (F := Ideal) θ := rfl

/-- The arrays of the two regions' results at explicit coordinates. -/
theorem zArr_ix2 (a : FVec Ideal ⟨2, ![4096, 2048]⟩ .f32) (w : FVec Ideal ⟨2, ![2048, 2048]⟩ .bf16) (b : FVec Ideal ⟨2, ![1, 2048]⟩ .f32)
    (e : Fin 4096) (n : Fin 2048) : zArr a w b (ix2 e n) = zAt a w b e n := rfl
theorem cxArr_ix2 (a z : FVec Ideal ⟨2, ![4096, 2048]⟩ .f32) (k n : Fin 2048) : cxArr a z (ix2 k n) = cxAt a z k n := rfl
theorem csArr_ix2 (z : FVec Ideal ⟨2, ![4096, 2048]⟩ .f32) (n : Fin 2048) : csArr z (ix2 (0 : Fin 1) n) = csAt z n := rfl
theorem y2Arr_ix2 (z : FVec Ideal ⟨2, ![4096, 2048]⟩ .f32) (n : Fin 2048) : y2Arr z (ix2 (0 : Fin 1) n) = y2At z n := rfl

section Entries

variable (a : FVec Ideal S4096x2048 .f32) (θ : FVec Ideal S2050x2048 .f32)
variable (ar : Fin 4096 → Fin 2048 → ℝ) (tr' thr : Fin 2050 → Fin 2048 → ℝ)
variable (ha : ∀ (e : Fin 4096) (k : Fin 2048), a (ix2 e k) = ((ar e k : ℝ) : EReal))
variable (ht : ∀ (m : Fin 2050) (n : Fin 2048), θ (ix2 m n) = ((tr' m n : ℝ) : EReal))
variable (hth : ∀ (m : Fin 2050) (n : Fin 2048), thT θ (ix2 m n) = ((thr m n : ℝ) : EReal))

include ha hth in
/-- The first kernel's output at an entry is the signed form over the reals. -/
theorem zK_at (e : Fin 4096) (n : Fin 2048) :
    zArr a (wT θ) (bT θ) (ix2 e n) = ((zk ar thr e n : ℝ) : EReal) := by
  rw [zArr_ix2]
  unfold zAt zk
  rw [Cert.KRead.bT_at θ thr hth n, EReal.coe_add, Cert.Coe.coe_sum]
  refine congrArg (· + ((ws thr r48 n : ℝ) : EReal)) ?_
  exact Finset.sum_congr rfl fun k _ => by rw [ha, Cert.KRead.wT_at θ thr hth k n, EReal.coe_mul]

include ha ht hth in
/-- The two programs' outputs agree at every entry. -/
theorem z_entry (e : Fin 4096) (n : Fin 2048) :
    zArr a (wT θ) (bT θ) (ix2 e n) = Cert.ReferenceIdeal.Read.val_main_v34 (F := Ideal) a θ (ix2 e n) := by
  rw [zK_at a θ ar thr ha hth e n,
    Cert.RefRead.z_at a θ ar tr' thr ha ht (fun m n => (congrFun (thT_eq θ) _).symm.trans (hth m n)) e n, zr_eq_zk]

include ha ht hth in
/-- The two programs' powers agree. -/
theorem p_entry :
    powerT a θ (cxArr a (zArr a (wT θ) (bT θ))) (csArr (zArr a (wT θ) (bT θ))) (y2Arr (zArr a (wT θ) (bT θ))) ix0
      = Cert.ReferenceIdeal.Read.val_main_v72 (F := Ideal) a θ ix0 := by
  have hZ : ∀ (e : Fin 4096) (n : Fin 2048), zArr a (wT θ) (bT θ) (ix2 e n) = ((zk ar thr e n : ℝ) : EReal) :=
    zK_at a θ ar thr ha hth
  have hcx : ∀ k n : Fin 2048, cxArr a (zArr a (wT θ) (bT θ)) (ix2 k n) = ((cx ar (zk ar thr) k n : ℝ) : EReal) := by
    intro k n
    rw [cxArr_ix2]
    unfold cxAt cx
    rw [Cert.Coe.coe_sum]
    exact Finset.sum_congr rfl fun e _ => by rw [ha, hZ, EReal.coe_mul]
  have hcs : ∀ n : Fin 2048, csArr (zArr a (wT θ) (bT θ)) (ix2 (0 : Fin 1) n) = ((cz (zk ar thr) n : ℝ) : EReal) := by
    intro n
    rw [csArr_ix2]
    unfold csAt cz
    rw [Cert.Coe.coe_sum]
    exact Finset.sum_congr rfl fun e _ => by rw [hZ]
  have hy2 : ∀ n : Fin 2048, y2Arr (zArr a (wT θ) (bT θ)) (ix2 (0 : Fin 1) n) = ((yy (zk ar thr) n : ℝ) : EReal) := by
    intro n
    rw [y2Arr_ix2]
    unfold y2At yy
    rw [Cert.Coe.coe_sum]
    exact Finset.sum_congr rfl fun e _ => by rw [hZ, EReal.coe_mul]
  have hz : zr ar thr = zk ar thr := funext fun e => funext fun n => zr_eq_zk ar thr e n
  rw [Cert.KRead.powerT_at a θ ar thr ha hth _ _ _ _ _ _ hcx hcs hy2,
    Cert.RefRead.p_at a θ ar tr' thr ha ht (fun m n => (congrFun (thT_eq θ) _).symm.trans (hth m n)),
    sum_rows (fun m : Fin 2050 => ∑ n : Fin 2048,
      Cert.ReferenceIdeal.Read.val_main_v41 (F := Ideal) θ (ix2 m n) * ((tr ar thr (zr ar thr) m n : ℝ) : EReal)),
    hz, ← gT_eq]
  simp only [tr_up, tr_r48, tr_r49]

end Entries

/-! ## The whole results, from the precondition -/

open Idealize.ShloMosaic.TcCoe Idealize.SL.Sem Cert.KernelIdeal.Gen

variable (m : (ℓ : Loc nD τ sig) → Buf (Elt Ideal) ℓ) (ρ : Dev nD → PrngReg)

/-- What the region with the first kernel leaves: `a · w + bias` of the arguments' host-side functions. -/
theorem z_array (c : Dev nD) :
    (dat0 (F := Ideal) (V11 m ρ) c).arrAt 3 cfg0.N
      = zArr (m ((c.tc : Thread nD τ).loc main_arg0)) (wT (m ((c.tc : Thread nD τ).loc main_arg1))) (bT (m ((c.tc : Thread nD τ).loc main_arg1))) := by
  rw [Cert.KernelIdeal.Region0.arr_z (V11 m ρ) c, Cert.KernelIdeal.Fold.V11_arg0, Cert.KernelIdeal.Fold.V11_v27,
    Cert.KernelIdeal.Fold.V11_v30]

/-- Under the precondition the first result of the program with the kernels is the reference's. -/
theorem z_eq (c : Dev nD)
    (hpre : Cert.Pre_finite_inputs.fn (F := Ideal) (m ((c.tc : Thread nD τ).loc main_arg0)) (m ((c.tc : Thread nD τ).loc main_arg1)) = fun _ => 1#1) :
    W14 m ρ c (Proc.devRef .tc main_v39)
      = Cert.ReferenceIdeal.Read.val_main_v34 (F := Ideal) (m ((c.tc : Thread nD τ).loc main_arg0)) (m ((c.tc : Thread nD τ).loc main_arg1)) := by
  obtain ⟨hfa, hft⟩ := Cert.Finite.finite_of_pre _ _ hpre
  choose af haf using hfa
  choose tf htf using hft
  choose hf hhf using Cert.ThFinite.thT_finite (m ((c.tc : Thread nD τ).loc main_arg1)) (fun i => ⟨tf i, htf i⟩)
  rw [Cert.KernelIdeal.Fold.W14_v39, z_array]
  funext i
  obtain ⟨e, n, rfl⟩ : ∃ (e : Fin 4096) (n : Fin 2048), i = ix2 e n := ⟨i 0, i 1, eq_ix2 i⟩
  exact z_entry _ _ (fun e k => af (ix2 e k)) (fun m n => tf (ix2 m n)) (fun m n => hf (ix2 m n))
    (fun e k => haf _) (fun m n => htf _) (fun m n => hhf _) e n

/-- Under the precondition the second result of the program with the kernels is the reference's. -/
theorem p_eq (c : Dev nD)
    (hpre : Cert.Pre_finite_inputs.fn (F := Ideal) (m ((c.tc : Thread nD τ).loc main_arg0)) (m ((c.tc : Thread nD τ).loc main_arg1)) = fun _ => 1#1) :
    W14 m ρ c (Proc.devRef .tc main_v70)
      = Cert.ReferenceIdeal.Read.val_main_v72 (F := Ideal) (m ((c.tc : Thread nD τ).loc main_arg0)) (m ((c.tc : Thread nD τ).loc main_arg1)) := by
  obtain ⟨hfa, hft⟩ := Cert.Finite.finite_of_pre _ _ hpre
  choose af haf using hfa
  choose tf htf using hft
  choose hf hhf using Cert.ThFinite.thT_finite (m ((c.tc : Thread nD τ).loc main_arg1)) (fun i => ⟨tf i, htf i⟩)
  rw [Cert.KernelIdeal.Fold.W14_v70, Cert.KernelIdeal.Region1.arr_cx (V12 m ρ) c, Cert.KernelIdeal.Region1.arr_cs (V12 m ρ) c,
    Cert.KernelIdeal.Region1.arr_y2 (V12 m ρ) c, Cert.KernelIdeal.Fold.V12_arg0, Cert.KernelIdeal.Fold.V12_v39, z_array]
  funext i
  rw [eq_ix0 i]
  exact p_entry _ _ (fun e k => af (ix2 e k)) (fun m n => tf (ix2 m n)) (fun m n => hf (ix2 m n))
    (fun e k => haf _) (fun m n => htf _) (fun m n => hhf _)

end Cert.Bridge

end
-- ==== Proof.lean ====
/-
  A two-kernel program against its plain reference, over the extended reals.

  The weights are clipped to [-0.1, 0.1] and set to zero below 0.01 in magnitude; each column is normalised by its
  absolute sum. The reference multiplies an extended input [a, 1, 0] and its negation [-a, -1, 0] with the
  absolute normalised weights masked by the weights' sign, and computes a power
  `(1/4096) · Σ g · (S₂ − 2C + Y₂)` from masked sums of squares and masked correlations. The program with the kernels
  multiplies `a` once with the signed normalised weights and adds the constant-one row as a bias (first kernel);
  accumulates `aᵀ·z`, `Σz` and `Σz²` over the samples (second kernel); and adds up the power over the feature rows, the
  constant-one row and the constant-zero row separately. For finite arguments the two agree entry by entry: an
  absolute value times its sign is the value, the negated input is the negative of the input, and a finite sum may be
  split by rows. The rescaled magnitude `g` may be infinite; it is the same function of the weights in both programs
  and multiplies equal finite factors.

  The frames are the generated frame certificates (the reference's is its generated run with the results dropped);
  the idealization rewrote nothing, so there is nothing to preserve.
-/
import proofs.«166182_j39599598469767_1_alg».proof.Defs
import proofs.«166182_j39599598469767_1_alg».proof.Proof.Gen.Kernel
import proofs.«166182_j39599598469767_1_alg».proof.Proof.Gen.Kernel.Skeleton
import proofs.«166182_j39599598469767_1_alg».proof.Proof.Gen.Kernel.Launch
import proofs.«166182_j39599598469767_1_alg».proof.Proof.Gen.Kernel.Points
import proofs.«166182_j39599598469767_1_alg».proof.Proof.Gen.Kernel.Frame
import proofs.«166182_j39599598469767_1_alg».proof.Proof.Gen.KernelIdeal
import proofs.«166182_j39599598469767_1_alg».proof.Proof.Gen.KernelIdeal.Skeleton
import proofs.«166182_j39599598469767_1_alg».proof.Proof.Gen.KernelIdeal.Launch
import proofs.«166182_j39599598469767_1_alg».proof.Proof.Gen.KernelIdeal.Points
import proofs.«166182_j39599598469767_1_alg».proof.Proof.Gen.KernelIdeal.Frame
import proofs.«166182_j39599598469767_1_alg».proof.Proof.Gen.ReferenceIdeal
import proofs.«166182_j39599598469767_1_alg».proof.Proof.Gen.Pre_finite_inputs
import proofs.«166182_j39599598469767_1_alg».proof.Proof.Gen.ReferenceIdeal.Run
import proofs.«166182_j39599598469767_1_alg».proof.Proof.Gen.ReferenceIdeal.Read
import proofs.«166182_j39599598469767_1_alg».proof.Proof.KernelLaunch
import proofs.«166182_j39599598469767_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- Both programs run; the program with the kernels ends with its two results at what the fold of its segments leaves
    there, the reference with its two results at its operations' composed terms; under the precondition these are
    equal, entry by entry. -/
theorem algebraic : Cert.algebraic_KernelIdeal_ReferenceIdeal := by
  intro m ρ m' ρ' hpre hagree
  refine ⟨fun c => Cert.KernelIdeal.Gen.W14 m ρ c (Proc.devRef .tc Cert.KernelIdeal.main_v39),
    fun c => Cert.KernelIdeal.Gen.W14 m ρ c (Proc.devRef .tc Cert.KernelIdeal.main_v70),
    Cert.KernelIdeal.Gen.Results.run_results m ρ, ?_⟩
  refine (θ_run Cert.ReferenceIdeal.defs _ _).mono
    (fun r h c => ⟨(h c).1.trans ?_, (h c).2.1.trans ?_, (h c).2.2.1, (h c).2.2.2⟩)
    (Cert.ReferenceIdeal.Value.run (F := Ideal) m' ρ')
  · rw [Cert.ReferenceIdeal.Read.val_main_v34_eq, (hagree c).1, (hagree c).2]
    exact (Cert.Bridge.z_eq m ρ c (hpre c)).symm
  · rw [Cert.ReferenceIdeal.Read.val_main_v72_eq, (hagree c).1, (hagree c).2]
    exact (Cert.Bridge.p_eq m ρ c (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
